-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x4096x128 : Shape := ⟨3, ![3, 4096, 128]⟩
abbrev S3x4096x4096 : Shape := ⟨3, ![3, 4096, 4096]⟩
abbrev S3x128x16 : Shape := ⟨3, ![3, 128, 16]⟩
abbrev S3x16 : Shape := ⟨2, ![3, 16]⟩
abbrev S3x16x9 : Shape := ⟨3, ![3, 16, 9]⟩
abbrev S3x9 : Shape := ⟨2, ![3, 9]⟩
abbrev S27x27 : Shape := ⟨2, ![27, 27]⟩
abbrev S27 : Shape := ⟨1, ![27]⟩
abbrev S_ : Shape := ⟨0, ![]⟩

class Facts : Prop where
  bcast_S_S3x4096x128 : S_.BroadcastsInDim S3x4096x128 (![] : Fin 0 → Fin S3x4096x128.rank)
  reducesTo_S3x4096x128_S_d0_1_2 : S3x4096x128.ReducesTo [0, 1, 2] S_
  h_S_ : 0 < S_.numel
  bcast_S_S3x4096x4096 : S_.BroadcastsInDim S3x4096x4096 (![] : Fin 0 → Fin S3x4096x4096.rank)
  reducesTo_S3x4096x4096_S_d0_1_2 : S3x4096x4096.ReducesTo [0, 1, 2] S_
  bcast_S_S3x128x16 : S_.BroadcastsInDim S3x128x16 (![] : Fin 0 → Fin S3x128x16.rank)
  reducesTo_S3x128x16_S_d0_1_2 : S3x128x16.ReducesTo [0, 1, 2] S_
  bcast_S_S3x16 : S_.BroadcastsInDim S3x16 (![] : Fin 0 → Fin S3x16.rank)
  reducesTo_S3x16_S_d0_1 : S3x16.ReducesTo [0, 1] S_
  bcast_S_S3x16x9 : S_.BroadcastsInDim S3x16x9 (![] : Fin 0 → Fin S3x16x9.rank)
  reducesTo_S3x16x9_S_d0_1_2 : S3x16x9.ReducesTo [0, 1, 2] S_
  bcast_S_S3x9 : S_.BroadcastsInDim S3x9 (![] : Fin 0 → Fin S3x9.rank)
  reducesTo_S3x9_S_d0_1 : S3x9.ReducesTo [0, 1] S_
  bcast_S_S27x27 : S_.BroadcastsInDim S27x27 (![] : Fin 0 → Fin S27x27.rank)
  reducesTo_S27x27_S_d0_1 : S27x27.ReducesTo [0, 1] S_
  bcast_S_S27 : S_.BroadcastsInDim S27 (![] : Fin 0 → Fin S27.rank)
  reducesTo_S27_S_d0 : S27.ReducesTo [0] S_

variable [Facts]

def fn_part2 {F : FTy → Type} [FloatOps F] (main_arg7 : FVec F S27 .f32) (main_v33 : IVec S_ 1) : IVec S_ 1 :=
  let main_v34 : FVec F S27 .f32 := Host.absf main_arg7
  let main_cst_12 : FVec F S_ .f32 := constant S_ .f32 0x7F800000#32
  let main_v35 : FVec F S27 .f32 := broadcastInDim S27 ![] bcast_S_S27 main_cst_12
  let main_v36 : IVec S27 1 := cmpf .olt main_v34 main_v35
  let main_c_13 : IVec S_ 1 := constantI S_ 1 1#1
  let main_v37 : IVec S_ 1 := (fun x v => Host.reduce IntOp.andi x v reducesTo_S27_S_d0 h_S_) main_v36 main_c_13
  let main_v38 : IVec S_ 1 := andi main_v33 main_v37
  main_v38

def fn_part1 {F : FTy → Type} [FloatOps F] (main_arg4 : FVec F S3x16x9 .f32) (main_arg5 : FVec F S3x9 .f32) (main_arg6 : FVec F S27x27 .f32) (main_arg7 : FVec F S27 .f32) (main_v13 : IVec S_ 1) (main_v16 : IVec S3x16 1) : IVec S_ 1 :=
  let main_c_5 : IVec S_ 1 := constantI S_ 1 1#1
  let main_v17 : IVec S_ 1 := (fun x v => Host.reduce IntOp.andi x v reducesTo_S3x16_S_d0_1 h_S_) main_v16 main_c_5
  let main_v18 : IVec S_ 1 := andi main_v13 main_v17
  let main_v19 : FVec F S3x16x9 .f32 := Host.absf main_arg4
  let main_cst_6 : FVec F S_ .f32 := constant S_ .f32 0x7F800000#32
  let main_v20 : FVec F S3x16x9 .f32 := broadcastInDim S3x16x9 ![] bcast_S_S3x16x9 main_cst_6
  let main_v21 : IVec S3x16x9 1 := cmpf .olt main_v19 main_v20
  let main_c_7 : IVec S_ 1 := constantI S_ 1 1#1
  let main_v22 : IVec S_ 1 := (fun x v => Host.reduce IntOp.andi x v reducesTo_S3x16x9_S_d0_1_2 h_S_) main_v21 main_c_7
  let main_v23 : IVec S_ 1 := andi main_v18 main_v22
  let main_v24 : FVec F S3x9 .f32 := Host.absf main_arg5
  let main_cst_8 : FVec F S_ .f32 := constant S_ .f32 0x7F800000#32
  let main_v25 : FVec F S3x9 .f32 := broadcastInDim S3x9 ![] bcast_S_S3x9 main_cst_8
  let main_v26 : IVec S3x9 1 := cmpf .olt main_v24 main_v25
  let main_c_9 : IVec S_ 1 := constantI S_ 1 1#1
  let main_v27 : IVec S_ 1 := (fun x v => Host.reduce IntOp.andi x v reducesTo_S3x9_S_d0_1 h_S_) main_v26 main_c_9
  let main_v28 : IVec S_ 1 := andi main_v23 main_v27
  let main_v29 : FVec F S27x27 .f32 := Host.absf main_arg6
  let main_cst_10 : FVec F S_ .f32 := constant S_ .f32 0x7F800000#32
  let main_v30 : FVec F S27x27 .f32 := broadcastInDim S27x27 ![] bcast_S_S27x27 main_cst_10
  let main_v31 : IVec S27x27 1 := cmpf .olt main_v29 main_v30
  let main_c_11 : IVec S_ 1 := constantI S_ 1 1#1
  let main_v32 : IVec S_ 1 := (fun x v => Host.reduce IntOp.andi x v reducesTo_S27x27_S_d0_1 h_S_) main_v31 main_c_11
  let main_v33 : IVec S_ 1 := andi main_v28 main_v32
  fn_part2 (F := F) main_arg7 main_v33

def fn {F : FTy → Type} [FloatOps F] (main_arg0 : FVec F S3x4096x128 .f32) (main_arg1 : FVec F S3x4096x4096 .f32) (main_arg2 : FVec F S3x128x16 .f32) (main_arg3 : FVec F S3x16 .f32) (main_arg4 : FVec F S3x16x9 .f32) (main_arg5 : FVec F S3x9 .f32) (main_arg6 : FVec F S27x27 .f32) (main_arg7 : FVec F S27 .f32) : IVec S_ 1 :=
  let main_v0 : FVec F S3x4096x128 .f32 := Host.absf main_arg0
  let main_cst : FVec F S_ .f32 := constant S_ .f32 0x7F800000#32
  let main_v1 : FVec F S3x4096x128 .f32 := broadcastInDim S3x4096x128 ![] bcast_S_S3x4096x128 main_cst
  let main_v2 : IVec S3x4096x128 1 := cmpf .olt main_v0 main_v1
  let main_c : IVec S_ 1 := constantI S_ 1 1#1
  let main_v3 : IVec S_ 1 := (fun x v => Host.reduce IntOp.andi x v reducesTo_S3x4096x128_S_d0_1_2 h_S_) main_v2 main_c
  let main_v4 : FVec F S3x4096x4096 .f32 := Host.absf main_arg1
  let main_cst_0 : FVec F S_ .f32 := constant S_ .f32 0x7F800000#32
  let main_v5 : FVec F S3x4096x4096 .f32 := broadcastInDim S3x4096x4096 ![] bcast_S_S3x4096x4096 main_cst_0
  let main_v6 : IVec S3x4096x4096 1 := cmpf .olt main_v4 main_v5
  let main_c_1 : IVec S_ 1 := constantI S_ 1 1#1
  let main_v7 : IVec S_ 1 := (fun x v => Host.reduce IntOp.andi x v reducesTo_S3x4096x4096_S_d0_1_2 h_S_) main_v6 main_c_1
  let main_v8 : IVec S_ 1 := andi main_v3 main_v7
  let main_v9 : FVec F S3x128x16 .f32 := Host.absf main_arg2
  let main_cst_2 : FVec F S_ .f32 := constant S_ .f32 0x7F800000#32
  let main_v10 : FVec F S3x128x16 .f32 := broadcastInDim S3x128x16 ![] bcast_S_S3x128x16 main_cst_2
  let main_v11 : IVec S3x128x16 1 := cmpf .olt main_v9 main_v10
  let main_c_3 : IVec S_ 1 := constantI S_ 1 1#1
  let main_v12 : IVec S_ 1 := (fun x v => Host.reduce IntOp.andi x v reducesTo_S3x128x16_S_d0_1_2 h_S_) main_v11 main_c_3
  let main_v13 : IVec S_ 1 := andi main_v8 main_v12
  let main_v14 : FVec F S3x16 .f32 := Host.absf main_arg3
  let main_cst_4 : FVec F S_ .f32 := constant S_ .f32 0x7F800000#32
  let main_v15 : FVec F S3x16 .f32 := broadcastInDim S3x16 ![] bcast_S_S3x16 main_cst_4
  let main_v16 : IVec S3x16 1 := cmpf .olt main_v14 main_v15
  fn_part1 (F := F) main_arg4 main_arg5 main_arg6 main_arg7 main_v13 main_v16
-- ==== Kernel.lean ====
abbrev S3x4096x128 : Shape := ⟨3, ![3, 4096, 128]⟩
abbrev S3x4096x4096 : Shape := ⟨3, ![3, 4096, 4096]⟩
abbrev S3x128x16 : Shape := ⟨3, ![3, 128, 16]⟩
abbrev S3x16 : Shape := ⟨2, ![3, 16]⟩
abbrev S3x16x9 : Shape := ⟨3, ![3, 16, 9]⟩
abbrev S3x9 : Shape := ⟨2, ![3, 9]⟩
abbrev S27x27 : Shape := ⟨2, ![27, 27]⟩
abbrev S27 : Shape := ⟨1, ![27]⟩
abbrev S1x27 : Shape := ⟨2, ![1, 27]⟩
abbrev S4096x27 : Shape := ⟨2, ![4096, 27]⟩
abbrev S1x256x4096 : Shape := ⟨3, ![1, 256, 4096]⟩
abbrev S256x27 : Shape := ⟨2, ![256, 27]⟩
abbrev S3x4096x16 : Shape := ⟨3, ![3, 4096, 16]⟩
abbrev S1x4096x128 : Shape := ⟨3, ![1, 4096, 128]⟩
abbrev S4096x128 : Shape := ⟨2, ![4096, 128]⟩
abbrev S1x128x16 : Shape := ⟨3, ![1, 128, 16]⟩
abbrev S128x16 : Shape := ⟨2, ![128, 16]⟩
abbrev S4096x16 : Shape := ⟨2, ![4096, 16]⟩
abbrev S1x4096x16 : Shape := ⟨3, ![1, 4096, 16]⟩
abbrev S256x4096 : Shape := ⟨2, ![256, 4096]⟩
abbrev S256x16 : Shape := ⟨2, ![256, 16]⟩
abbrev S1x16 : Shape := ⟨2, ![1, 16]⟩
abbrev S16 : Shape := ⟨1, ![16]⟩
abbrev S1x16x9 : Shape := ⟨3, ![1, 16, 9]⟩
abbrev S16x9 : Shape := ⟨2, ![16, 9]⟩
abbrev S256x9 : Shape := ⟨2, ![256, 9]⟩
abbrev S1x9 : Shape := ⟨2, ![1, 9]⟩
abbrev S9 : Shape := ⟨1, ![9]⟩
abbrev S9x27 : Shape := ⟨2, ![9, 27]⟩

abbrev nBuf : Space → Nat
  | .hbm => 10
  | .vmem => 16
  | .smem => 0
  | _ => 0

abbrev bufTy : (tb : Table) → Fin (tcTables nBuf tb) → BufTy
  | .hbm, ⟨0, _⟩ => ⟨S3x4096x128, .f32⟩
  | .hbm, ⟨1, _⟩ => ⟨S3x4096x4096, .f32⟩
  | .hbm, ⟨2, _⟩ => ⟨S3x128x16, .f32⟩
  | .hbm, ⟨3, _⟩ => ⟨S3x16, .f32⟩
  | .hbm, ⟨4, _⟩ => ⟨S3x16x9, .f32⟩
  | .hbm, ⟨5, _⟩ => ⟨S3x9, .f32⟩
  | .hbm, ⟨6, _⟩ => ⟨S27x27, .f32⟩
  | .hbm, ⟨7, _⟩ => ⟨S27, .f32⟩
  | .hbm, ⟨8, _⟩ => ⟨S1x27, .f32⟩
  | .hbm, ⟨9, _⟩ => ⟨S4096x27, .f32⟩
  | .local _ .vmem, ⟨0, _⟩ => ⟨S3x4096x128, .f32⟩
  | .local _ .vmem, ⟨1, _⟩ => ⟨S1x256x4096, .f32⟩
  | .local _ .vmem, ⟨2, _⟩ => ⟨S1x256x4096, .f32⟩
  | .local _ .vmem, ⟨3, _⟩ => ⟨S1x256x4096, .f32⟩
  | .local _ .vmem, ⟨4, _⟩ => ⟨S1x256x4096, .f32⟩
  | .local _ .vmem, ⟨5, _⟩ => ⟨S1x256x4096, .f32⟩
  | .local _ .vmem, ⟨6, _⟩ => ⟨S1x256x4096, .f32⟩
  | .local _ .vmem, ⟨7, _⟩ => ⟨S3x128x16, .f32⟩
  | .local _ .vmem, ⟨8, _⟩ => ⟨S3x16, .f32⟩
  | .local _ .vmem, ⟨9, _⟩ => ⟨S3x16x9, .f32⟩
  | .local _ .vmem, ⟨10, _⟩ => ⟨S3x9, .f32⟩
  | .local _ .vmem, ⟨11, _⟩ => ⟨S27x27, .f32⟩
  | .local _ .vmem, ⟨12, _⟩ => ⟨S1x27, .f32⟩
  | .local _ .vmem, ⟨13, _⟩ => ⟨S256x27, .f32⟩
  | .local _ .vmem, ⟨14, _⟩ => ⟨S256x27, .f32⟩
  | .local _ .vmem, ⟨15, _⟩ => ⟨S3x4096x16, .f32⟩
  | _, _ => ⟨S3x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_v0 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x128x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x16x9 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x9 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S27x27 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x27 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x27 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S27_S1x27 : S27.ShapeCasts S1x27
  inb_S3x4096x128_S1x4096x128_0_0_0 : ∀ a, (![0, 0, 0] : Fin 3 → Nat) a + S1x4096x128.size a ≤ S3x4096x128.size a
  h_S1x4096x128 : 0 < S1x4096x128.numel
  shapeCasts_S1x4096x128_S4096x128 : S1x4096x128.ShapeCasts S4096x128
  inb_S3x128x16_S1x128x16_0_0_0 : ∀ a, (![0, 0, 0] : Fin 3 → Nat) a + S1x128x16.size a ≤ S3x128x16.size a
  h_S1x128x16 : 0 < S1x128x16.numel
  shapeCasts_S1x128x16_S128x16 : S1x128x16.ShapeCasts S128x16
  inb_S3x4096x16_S1x4096x16_0_0_0 : ∀ a, (![0, 0, 0] : Fin 3 → Nat) a + S1x4096x16.size a ≤ S3x4096x16.size a
  h_S1x4096x16 : 0 < S1x4096x16.numel
  shapeCasts_S1x4096x16_S4096x16 : S1x4096x16.ShapeCasts S4096x16
  shapeCasts_S4096x16_S1x4096x16 : S4096x16.ShapeCasts S1x4096x16
  inb_S3x4096x128_S1x4096x128_1_0_0 : ∀ a, (![1, 0, 0] : Fin 3 → Nat) a + S1x4096x128.size a ≤ S3x4096x128.size a
  inb_S3x128x16_S1x128x16_1_0_0 : ∀ a, (![1, 0, 0] : Fin 3 → Nat) a + S1x128x16.size a ≤ S3x128x16.size a
  inb_S3x4096x16_S1x4096x16_1_0_0 : ∀ a, (![1, 0, 0] : Fin 3 → Nat) a + S1x4096x16.size a ≤ S3x4096x16.size a
  inb_S3x4096x128_S1x4096x128_2_0_0 : ∀ a, (![2, 0, 0] : Fin 3 → Nat) a + S1x4096x128.size a ≤ S3x4096x128.size a
  inb_S3x128x16_S1x128x16_2_0_0 : ∀ a, (![2, 0, 0] : Fin 3 → Nat) a + S1x128x16.size a ≤ S3x128x16.size a
  inb_S3x4096x16_S1x4096x16_2_0_0 : ∀ a, (![2, 0, 0] : Fin 3 → Nat) a + S1x4096x16.size a ≤ S3x4096x16.size a
  inb_S1x27_S1x27_0_0 : ∀ a, (![0, 0] : Fin 2 → Nat) a + S1x27.size a ≤ S1x27.size a
  h_S1x27 : 0 < S1x27.numel
  shapeCasts_S1x27_S27 : S1x27.ShapeCasts S27
  broadcasts_S1x27_S256x27 : S1x27.Broadcasts S256x27
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  inb_S3x16_S1x16_0_0 : ∀ a, (![0, 0] : Fin 2 → Nat) a + S1x16.size a ≤ S3x16.size a
  h_S1x16 : 0 < S1x16.numel
  shapeCasts_S1x16_S16 : S1x16.ShapeCasts S16
  shapeCasts_S16_S1x16 : S16.ShapeCasts S1x16
  broadcasts_S1x16_S256x16 : S1x16.Broadcasts S256x16
  inb_S3x16x9_S1x16x9_0_0_0 : ∀ a, (![0, 0, 0] : Fin 3 → Nat) a + S1x16x9.size a ≤ S3x16x9.size a
  h_S1x16x9 : 0 < S1x16x9.numel
  shapeCasts_S1x16x9_S16x9 : S1x16x9.ShapeCasts S16x9
  inb_S3x9_S1x9_0_0 : ∀ a, (![0, 0] : Fin 2 → Nat) a + S1x9.size a ≤ S3x9.size a
  h_S1x9 : 0 < S1x9.numel
  shapeCasts_S1x9_S9 : S1x9.ShapeCasts S9
  shapeCasts_S9_S1x9 : S9.ShapeCasts S1x9
  broadcasts_S1x9_S256x9 : S1x9.Broadcasts S256x9
  inb_S27x27_S9x27_0_0 : ∀ a, (![0, 0] : Fin 2 → Nat) a + S9x27.size a ≤ S27x27.size a
  h_S9x27 : 0 < S9x27.numel
  inb_S3x16_S1x16_1_0 : ∀ a, (![1, 0] : Fin 2 → Nat) a + S1x16.size a ≤ S3x16.size a
  inb_S3x16x9_S1x16x9_1_0_0 : ∀ a, (![1, 0, 0] : Fin 3 → Nat) a + S1x16x9.size a ≤ S3x16x9.size a
  inb_S3x9_S1x9_1_0 : ∀ a, (![1, 0] : Fin 2 → Nat) a + S1x9.size a ≤ S3x9.size a
  inb_S27x27_S9x27_9_0 : ∀ a, (![9, 0] : Fin 2 → Nat) a + S9x27.size a ≤ S27x27.size a
  inb_S3x16_S1x16_2_0 : ∀ a, (![2, 0] : Fin 2 → Nat) a + S1x16.size a ≤ S3x16.size a
  inb_S3x16x9_S1x16x9_2_0_0 : ∀ a, (![2, 0, 0] : Fin 3 → Nat) a + S1x16x9.size a ≤ S3x16x9.size a
  inb_S3x9_S1x9_2_0 : ∀ a, (![2, 0] : Fin 2 → Nat) a + S1x9.size a ≤ S3x9.size a
  inb_S27x27_S9x27_18_0 : ∀ a, (![18, 0] : Fin 2 → Nat) a + S9x27.size a ≤ S27x27.size a
  inb_S256x27_S256x27_0_0 : ∀ a, (![0, 0] : Fin 2 → Nat) a + S256x27.size a ≤ S256x27.size a
  h_S256x27 : 0 < S256x27.numel
  dot_S4096x128_S128x16_S4096x16_1_0_0_1_n_n_wf : DotDims.WF S4096x128 S128x16 S4096x16 [1] [0] [0] [1] [] []
  dot_S256x4096_S4096x16_S256x16_1_0_0_1_n_n_wf : DotDims.WF S256x4096 S4096x16 S256x16 [1] [0] [0] [1] [] []
  dot_S256x16_S16x9_S256x9_1_0_0_1_n_n_wf : DotDims.WF S256x16 S16x9 S256x9 [1] [0] [0] [1] [] []
  dot_S256x9_S9x27_S256x27_1_0_0_1_n_n_wf : DotDims.WF S256x9 S9x27 S256x27 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S3x4096x128.size a ≤ S3x4096x128.size a
  hwx0_0 : ∀ i : grid0.Coords, EltTy.bits .f32 = 32 ∨ (Rect.block (s := S3x4096x128) S3x4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x4096.size a ≤ S3x4096x4096.size a
  hwx0_1 : ∀ i : grid0.Coords, EltTy.bits .f32 = 32 ∨ (Rect.block (s := S3x4096x4096) S1x256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x4096.size a ≤ S3x4096x4096.size a
  hwx0_2 : ∀ i : grid0.Coords, EltTy.bits .f32 = 32 ∨ (Rect.block (s := S3x4096x4096) S1x256x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x4096.size a ≤ S3x4096x4096.size a
  hwx0_3 : ∀ i : grid0.Coords, EltTy.bits .f32 = 32 ∨ (Rect.block (s := S3x4096x4096) S1x256x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x128x16.size a ≤ S3x128x16.size a
  hwx0_4 : ∀ i : grid0.Coords, EltTy.bits .f32 = 32 ∨ (Rect.block (s := S3x128x16) S3x128x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x16.size a ≤ S3x16.size a
  hwx0_5 : ∀ i : grid0.Coords, EltTy.bits .f32 = 32 ∨ (Rect.block (s := S3x16) S3x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x16x9.size a ≤ S3x16x9.size a
  hwx0_6 : ∀ i : grid0.Coords, EltTy.bits .f32 = 32 ∨ (Rect.block (s := S3x16x9) S3x16x9.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3x9.size a ≤ S3x9.size a
  hwx0_7 : ∀ i : grid0.Coords, EltTy.bits .f32 = 32 ∨ (Rect.block (s := S3x9) S3x9.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S27x27.size a ≤ S27x27.size a
  hwx0_8 : ∀ i : grid0.Coords, EltTy.bits .f32 = 32 ∨ (Rect.block (s := S27x27) S27x27.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x27.size a ≤ S1x27.size a
  hwx0_9 : ∀ i : grid0.Coords, EltTy.bits .f32 = 32 ∨ (Rect.block (s := S1x27) S1x27.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x27.size a ≤ S4096x27.size a
  hwx0_10 : ∀ i : grid0.Coords, EltTy.bits .f32 = 32 ∨ (Rect.block (s := S4096x27) S256x27.size (cc0_transform_10 i) (hinb0_10 i)).WholeWords (EltTy.packing .f32)

variable [Facts₀]

def dot_S4096x128_S128x16_S4096x16_1_0_0_1_n_n : DotDims S4096x128 S128x16 S4096x16 where
  lhsContracting := [1]
  rhsContracting := [0]
  lhsNonContracting := [0]
  rhsNonContracting := [1]
  lhsBatch := []
  rhsBatch := []
  wf := dot_S4096x128_S128x16_S4096x16_1_0_0_1_n_n_wf
def dot_S256x4096_S4096x16_S256x16_1_0_0_1_n_n : DotDims S256x4096 S4096x16 S256x16 where
  lhsContracting := [1]
  rhsContracting := [0]
  lhsNonContracting := [0]
  rhsNonContracting := [1]
  lhsBatch := []
  rhsBatch := []
  wf := dot_S256x4096_S4096x16_S256x16_1_0_0_1_n_n_wf
def dot_S256x16_S16x9_S256x9_1_0_0_1_n_n : DotDims S256x16 S16x9 S256x9 where
  lhsContracting := [1]
  rhsContracting := [0]
  lhsNonContracting := [0]
  rhsNonContracting := [1]
  lhsBatch := []
  rhsBatch := []
  wf := dot_S256x16_S16x9_S256x9_1_0_0_1_n_n_wf
def dot_S256x9_S9x27_S256x27_1_0_0_1_n_n : DotDims S256x9 S9x27 S256x27 where
  lhsContracting := [1]
  rhsContracting := [0]
  lhsNonContracting := [0]
  rhsNonContracting := [1]
  lhsBatch := []
  rhsBatch := []
  wf := dot_S256x9_S9x27_S256x27_1_0_0_1_n_n_wf

abbrev win0_0 : Pipeline.Window sig grid0 :=
  Pipeline.Window.ofSpec (Memref.whole main_arg0) S3x4096x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1x256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S3x128x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S3x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S3x16x9.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S3x9.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S27x27.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v0) S1x27.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v0) S256x27.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S3x4096x128 : Shape := ⟨3, ![3, 4096, 128]⟩
abbrev S3x4096x4096 : Shape := ⟨3, ![3, 4096, 4096]⟩
abbrev S3x128x16 : Shape := ⟨3, ![3, 128, 16]⟩
abbrev S3x16 : Shape := ⟨2, ![3, 16]⟩
abbrev S3x16x9 : Shape := ⟨3, ![3, 16, 9]⟩
abbrev S3x9 : Shape := ⟨2, ![3, 9]⟩
abbrev S27x27 : Shape := ⟨2, ![27, 27]⟩
abbrev S27 : Shape := ⟨1, ![27]⟩
abbrev S_ : Shape := ⟨0, ![]⟩
abbrev S1x4096x128 : Shape := ⟨3, ![1, 4096, 128]⟩
abbrev S4096x128 : Shape := ⟨2, ![4096, 128]⟩
abbrev S1x128x16 : Shape := ⟨3, ![1, 128, 16]⟩
abbrev S128x16 : Shape := ⟨2, ![128, 16]⟩
abbrev S4096x16 : Shape := ⟨2, ![4096, 16]⟩
abbrev S1x4096x4096 : Shape := ⟨3, ![1, 4096, 4096]⟩
abbrev S4096x4096 : Shape := ⟨2, ![4096, 4096]⟩
abbrev S1x16 : Shape := ⟨2, ![1, 16]⟩
abbrev S16 : Shape := ⟨1, ![16]⟩
abbrev S1x16x9 : Shape := ⟨3, ![1, 16, 9]⟩
abbrev S16x9 : Shape := ⟨2, ![16, 9]⟩
abbrev S4096x9 : Shape := ⟨2, ![4096, 9]⟩
abbrev S1x9 : Shape := ⟨2, ![1, 9]⟩
abbrev S9 : Shape := ⟨1, ![9]⟩
abbrev S4096x27 : Shape := ⟨2, ![4096, 27]⟩
abbrev S1x27 : Shape := ⟨2, ![1, 27]⟩

abbrev nBuf : Space → Nat
  | .hbm => 84
  | .vmem => 0
  | .smem => 0
  | _ => 0

abbrev bufTy : (tb : Table) → Fin (tcTables nBuf tb) → BufTy
  | .hbm, ⟨0, _⟩ => ⟨S3x4096x128, .f32⟩
  | .hbm, ⟨1, _⟩ => ⟨S3x4096x4096, .f32⟩
  | .hbm, ⟨2, _⟩ => ⟨S3x128x16, .f32⟩
  | .hbm, ⟨3, _⟩ => ⟨S3x16, .f32⟩
  | .hbm, ⟨4, _⟩ => ⟨S3x16x9, .f32⟩
  | .hbm, ⟨5, _⟩ => ⟨S3x9, .f32⟩
  | .hbm, ⟨6, _⟩ => ⟨S27x27, .f32⟩
  | .hbm, ⟨7, _⟩ => ⟨S27, .f32⟩
  | .hbm, ⟨8, _⟩ => ⟨S3x4096x4096, .i1⟩
  | .hbm, ⟨9, _⟩ => ⟨S_, .f32⟩
  | .hbm, ⟨10, _⟩ => ⟨S_, .f32⟩
  | .hbm, ⟨11, _⟩ => ⟨S3x4096x4096, .f32⟩
  | .hbm, ⟨12, _⟩ => ⟨S3x4096x4096, .f32⟩
  | .hbm, ⟨13, _⟩ => ⟨S1x4096x128, .f32⟩
  | .hbm, ⟨14, _⟩ => ⟨S4096x128, .f32⟩
  | .hbm, ⟨15, _⟩ => ⟨S1x128x16, .f32⟩
  | .hbm, ⟨16, _⟩ => ⟨S128x16, .f32⟩
  | .hbm, ⟨17, _⟩ => ⟨S4096x16, .f32⟩
  | .hbm, ⟨18, _⟩ => ⟨S1x4096x4096, .f32⟩
  | .hbm, ⟨19, _⟩ => ⟨S4096x4096, .f32⟩
  | .hbm, ⟨20, _⟩ => ⟨S4096x16, .f32⟩
  | .hbm, ⟨21, _⟩ => ⟨S1x16, .f32⟩
  | .hbm, ⟨22, _⟩ => ⟨S16, .f32⟩
  | .hbm, ⟨23, _⟩ => ⟨S1x16, .f32⟩
  | .hbm, ⟨24, _⟩ => ⟨S4096x16, .f32⟩
  | .hbm, ⟨25, _⟩ => ⟨S4096x16, .f32⟩
  | .hbm, ⟨26, _⟩ => ⟨S1x16x9, .f32⟩
  | .hbm, ⟨27, _⟩ => ⟨S16x9, .f32⟩
  | .hbm, ⟨28, _⟩ => ⟨S4096x9, .f32⟩
  | .hbm, ⟨29, _⟩ => ⟨S1x9, .f32⟩
  | .hbm, ⟨30, _⟩ => ⟨S9, .f32⟩
  | .hbm, ⟨31, _⟩ => ⟨S1x9, .f32⟩
  | .hbm, ⟨32, _⟩ => ⟨S4096x9, .f32⟩
  | .hbm, ⟨33, _⟩ => ⟨S4096x9, .f32⟩
  | .hbm, ⟨34, _⟩ => ⟨S4096x9, .f32⟩
  | .hbm, ⟨35, _⟩ => ⟨S1x4096x128, .f32⟩
  | .hbm, ⟨36, _⟩ => ⟨S4096x128, .f32⟩
  | .hbm, ⟨37, _⟩ => ⟨S1x128x16, .f32⟩
  | .hbm, ⟨38, _⟩ => ⟨S128x16, .f32⟩
  | .hbm, ⟨39, _⟩ => ⟨S4096x16, .f32⟩
  | .hbm, ⟨40, _⟩ => ⟨S1x4096x4096, .f32⟩
  | .hbm, ⟨41, _⟩ => ⟨S4096x4096, .f32⟩
  | .hbm, ⟨42, _⟩ => ⟨S4096x16, .f32⟩
  | .hbm, ⟨43, _⟩ => ⟨S1x16, .f32⟩
  | .hbm, ⟨44, _⟩ => ⟨S16, .f32⟩
  | .hbm, ⟨45, _⟩ => ⟨S1x16, .f32⟩
  | .hbm, ⟨46, _⟩ => ⟨S4096x16, .f32⟩
  | .hbm, ⟨47, _⟩ => ⟨S4096x16, .f32⟩
  | .hbm, ⟨48, _⟩ => ⟨S1x16x9, .f32⟩
  | .hbm, ⟨49, _⟩ => ⟨S16x9, .f32⟩
  | .hbm, ⟨50, _⟩ => ⟨S4096x9, .f32⟩
  | .hbm, ⟨51, _⟩ => ⟨S1x9, .f32⟩
  | .hbm, ⟨52, _⟩ => ⟨S9, .f32⟩
  | .hbm, ⟨53, _⟩ => ⟨S1x9, .f32⟩
  | .hbm, ⟨54, _⟩ => ⟨S4096x9, .f32⟩
  | .hbm, ⟨55, _⟩ => ⟨S4096x9, .f32⟩
  | .hbm, ⟨56, _⟩ => ⟨S4096x9, .f32⟩
  | .hbm, ⟨57, _⟩ => ⟨S1x4096x128, .f32⟩
  | .hbm, ⟨58, _⟩ => ⟨S4096x128, .f32⟩
  | .hbm, ⟨59, _⟩ => ⟨S1x128x16, .f32⟩
  | .hbm, ⟨60, _⟩ => ⟨S128x16, .f32⟩
  | .hbm, ⟨61, _⟩ => ⟨S4096x16, .f32⟩
  | .hbm, ⟨62, _⟩ => ⟨S1x4096x4096, .f32⟩
  | .hbm, ⟨63, _⟩ => ⟨S4096x4096, .f32⟩
  | .hbm, ⟨64, _⟩ => ⟨S4096x16, .f32⟩
  | .hbm, ⟨65, _⟩ => ⟨S1x16, .f32⟩
  | .hbm, ⟨66, _⟩ => ⟨S16, .f32⟩
  | .hbm, ⟨67, _⟩ => ⟨S1x16, .f32⟩
  | .hbm, ⟨68, _⟩ => ⟨S4096x16, .f32⟩
  | .hbm, ⟨69, _⟩ => ⟨S4096x16, .f32⟩
  | .hbm, ⟨70, _⟩ => ⟨S1x16x9, .f32⟩
  | .hbm, ⟨71, _⟩ => ⟨S16x9, .f32⟩
  | .hbm, ⟨72, _⟩ => ⟨S4096x9, .f32⟩
  | .hbm, ⟨73, _⟩ => ⟨S1x9, .f32⟩
  | .hbm, ⟨74, _⟩ => ⟨S9, .f32⟩
  | .hbm, ⟨75, _⟩ => ⟨S1x9, .f32⟩
  | .hbm, ⟨76, _⟩ => ⟨S4096x9, .f32⟩
  | .hbm, ⟨77, _⟩ => ⟨S4096x9, .f32⟩
  | .hbm, ⟨78, _⟩ => ⟨S4096x9, .f32⟩
  | .hbm, ⟨79, _⟩ => ⟨S4096x27, .f32⟩
  | .hbm, ⟨80, _⟩ => ⟨S4096x27, .f32⟩
  | .hbm, ⟨81, _⟩ => ⟨S1x27, .f32⟩
  | .hbm, ⟨82, _⟩ => ⟨S4096x27, .f32⟩
  | .hbm, ⟨83, _⟩ => ⟨S4096x27, .f32⟩
  | _, _ => ⟨S3x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_call0_v0 : Ref sig .tc := ⟨.hbm, 10, rfl⟩
abbrev main_call0_v1 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩

abbrev nD : Nat := 1
abbrev τ : Topo := Topo.v7x

variable {F : FTy → Type} [FloatOps F]

class Facts₀ : Prop where
  bcast_S_S3x4096x4096 : S_.BroadcastsInDim S3x4096x4096 (![] : Fin 0 → Fin S3x4096x4096.rank)
  slices_S3x4096x128_S1x4096x128_0_0_0 : S3x4096x128.Slices ![0, 0, 0] S1x4096x128
  shapeCasts_S1x4096x128_S4096x128 : S1x4096x128.ShapeCasts S4096x128
  slices_S3x128x16_S1x128x16_0_0_0 : S3x128x16.Slices ![0, 0, 0] S1x128x16
  shapeCasts_S1x128x16_S128x16 : S1x128x16.ShapeCasts S128x16
  slices_S3x4096x4096_S1x4096x4096_0_0_0 : S3x4096x4096.Slices ![0, 0, 0] S1x4096x4096
  shapeCasts_S1x4096x4096_S4096x4096 : S1x4096x4096.ShapeCasts S4096x4096
  slices_S3x16_S1x16_0_0 : S3x16.Slices ![0, 0] S1x16
  shapeCasts_S1x16_S16 : S1x16.ShapeCasts S16
  bcast_S16_S1x16_1 : S16.BroadcastsInDim S1x16 (![1] : Fin 1 → Fin S1x16.rank)
  bcast_S1x16_S4096x16_0_1 : S1x16.BroadcastsInDim S4096x16 (![0, 1] : Fin 2 → Fin S4096x16.rank)
  slices_S3x16x9_S1x16x9_0_0_0 : S3x16x9.Slices ![0, 0, 0] S1x16x9
  shapeCasts_S1x16x9_S16x9 : S1x16x9.ShapeCasts S16x9
  slices_S3x9_S1x9_0_0 : S3x9.Slices ![0, 0] S1x9
  shapeCasts_S1x9_S9 : S1x9.ShapeCasts S9
  bcast_S9_S1x9_1 : S9.BroadcastsInDim S1x9 (![1] : Fin 1 → Fin S1x9.rank)
  bcast_S1x9_S4096x9_0_1 : S1x9.BroadcastsInDim S4096x9 (![0, 1] : Fin 2 → Fin S4096x9.rank)
  slices_S3x4096x128_S1x4096x128_1_0_0 : S3x4096x128.Slices ![1, 0, 0] S1x4096x128
  slices_S3x128x16_S1x128x16_1_0_0 : S3x128x16.Slices ![1, 0, 0] S1x128x16
  slices_S3x4096x4096_S1x4096x4096_1_0_0 : S3x4096x4096.Slices ![1, 0, 0] S1x4096x4096
  slices_S3x16_S1x16_1_0 : S3x16.Slices ![1, 0] S1x16
  slices_S3x16x9_S1x16x9_1_0_0 : S3x16x9.Slices ![1, 0, 0] S1x16x9
  slices_S3x9_S1x9_1_0 : S3x9.Slices ![1, 0] S1x9
  slices_S3x4096x128_S1x4096x128_2_0_0 : S3x4096x128.Slices ![2, 0, 0] S1x4096x128
  slices_S3x128x16_S1x128x16_2_0_0 : S3x128x16.Slices ![2, 0, 0] S1x128x16
  slices_S3x4096x4096_S1x4096x4096_2_0_0 : S3x4096x4096.Slices ![2, 0, 0] S1x4096x4096
  slices_S3x16_S1x16_2_0 : S3x16.Slices ![2, 0] S1x16
  slices_S3x16x9_S1x16x9_2_0_0 : S3x16x9.Slices ![2, 0, 0] S1x16x9
  slices_S3x9_S1x9_2_0 : S3x9.Slices ![2, 0] S1x9
  concatenates_S4096x9_S4096x9_S4096x9_S4096x27_d1 : Shape.Concatenates [S4096x9, S4096x9, S4096x9] S4096x27 1
  bcast_S27_S1x27_1 : S27.BroadcastsInDim S1x27 (![1] : Fin 1 → Fin S1x27.rank)
  bcast_S1x27_S4096x27_0_1 : S1x27.BroadcastsInDim S4096x27 (![0, 1] : Fin 2 → Fin S4096x27.rank)
  dot_S4096x128_S128x16_S4096x16_1_0_0_1_n_n_wf : DotDims.WF S4096x128 S128x16 S4096x16 [1] [0] [0] [1] [] []
  dot_S4096x4096_S4096x16_S4096x16_1_0_0_1_n_n_wf : DotDims.WF S4096x4096 S4096x16 S4096x16 [1] [0] [0] [1] [] []
  dot_S4096x16_S16x9_S4096x9_1_0_0_1_n_n_wf : DotDims.WF S4096x16 S16x9 S4096x9 [1] [0] [0] [1] [] []
  dot_S4096x27_S27x27_S4096x27_1_0_0_1_n_n_wf : DotDims.WF S4096x27 S27x27 S4096x27 [1] [0] [0] [1] [] []

variable [Facts₀]

def dot_S4096x128_S128x16_S4096x16_1_0_0_1_n_n : DotDims S4096x128 S128x16 S4096x16 where
  lhsContracting := [1]
  rhsContracting := [0]
  lhsNonContracting := [0]
  rhsNonContracting := [1]
  lhsBatch := []
  rhsBatch := []
  wf := dot_S4096x128_S128x16_S4096x16_1_0_0_1_n_n_wf
def dot_S4096x4096_S4096x16_S4096x16_1_0_0_1_n_n : DotDims S4096x4096 S4096x16 S4096x16 where
  lhsContracting := [1]
  rhsContracting := [0]
  lhsNonContracting := [0]
  rhsNonContracting := [1]
  lhsBatch := []
  rhsBatch := []
  wf := dot_S4096x4096_S4096x16_S4096x16_1_0_0_1_n_n_wf
def dot_S4096x16_S16x9_S4096x9_1_0_0_1_n_n : DotDims S4096x16 S16x9 S4096x9 where
  lhsContracting := [1]
  rhsContracting := [0]
  lhsNonContracting := [0]
  rhsNonContracting := [1]
  lhsBatch := []
  rhsBatch := []
  wf := dot_S4096x16_S16x9_S4096x9_1_0_0_1_n_n_wf
def dot_S4096x27_S27x27_S4096x27_1_0_0_1_n_n : DotDims S4096x27 S27x27 S4096x27 where
  lhsContracting := [1]
  rhsContracting := [0]
  lhsNonContracting := [0]
  rhsNonContracting := [1]
  lhsBatch := []
  rhsBatch := []
  wf := dot_S4096x27_S27x27_S4096x27_1_0_0_1_n_n_wf

class Facts : Prop extends Facts₀ where

variable [Facts]
-- ==== Proof.KBlock.lean ====
/-
  What one grid step stores into its 256 × 27 output tile, as ONE term of the values the step loads: the classifier
  bias row, the three adjacency tiles, the three support matrices, and each modality's biases and weights. The term
  is the composition of the step's four arithmetic stretches: bias plus modality 0's band, plus modality 1's band,
  modality 2's hidden tile, and modality 2's band.
-/
import proofs.«141574_g37280316129400_cont_sun_m_331_21_alg».proof.Proof.Gen.Kernel.Skeleton

noncomputable section

namespace Cert.Kernel.Hand

open Idealize.ShloMosaic Cert.Kernel Cert.Kernel.Gen

variable {F : FTy → Type} [FloatOps F]

/-- The tile a grid step stores, from what it loads. -/
def blockOut (bc : Vec F S1x27 .f32) (a0 a1 a2 : Vec F S1x256x4096 .f32) (s0 s1 s2 : Vec F S1x4096x16 .f32)
    (bg0 bg1 bg2 : Vec F S1x16 .f32) (wm0 wm1 wm2 : Vec F S1x16x9 .f32) (bm0 bm1 bm2 : Vec F S1x9 .f32)
    (wc0 wc1 wc2 : Vec F S9x27 .f32) : FVec F S256x27 .f32 :=
  k0_pay1 (k0_pay6 (k0_pay5 bc a0 s0 bg0 wm0 bm0 wc0) a1 s1 bg1 wm1 bm1 wc1) (k0_pay7 a2 s2) bg2 wm2 bm2 wc2

end Cert.Kernel.Hand

end
-- ==== Proof.K.Base.lean ====
/-
  What the frame and value proofs of the graph-convolution kernel share: the arrays as the kernel region finds them
  (the one host operation before it reshapes the classifier bias into a one-row matrix and touches no argument), each
  window's block at a grid step, the branch condition of the step (the support matrices are computed at step 0 only),
  and the names of the staging memrefs a step is called with.
-/
import proofs.«141574_g37280316129400_cont_sun_m_331_21_alg».proof.Proof.Gen.Kernel.Launch
import proofs.«141574_g37280316129400_cont_sun_m_331_21_alg».proof.Proof.Gen.Kernel.Skeleton
import proofs.«141574_g37280316129400_cont_sun_m_331_21_alg».proof.Proof.Gen.Kernel.Points
import proofs.«141574_g37280316129400_cont_sun_m_331_21_alg».proof.Proof.KBlock
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry -/

/-- Core `c`'s buffers when the region is entered: after the reshape of the classifier bias. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the reshape, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes no argument array: the region finds argument `b` as launched. -/
theorem V_arg (c : Dev nD) (b : Ref sig .tc) (hb : b ≠ main_call0_v0) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

/-! ## The windows' blocks -/

/-- Window `w`'s block at step `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The step's branch -/

/-- The condition under which a step computes the support matrices: the step index is zero. -/
abbrev cond0 (i : grid0.Coords) : Prop := (Scalar.cmpi .ne (Scalar.extui (Scalar.cmpi .eq (BitVec.ofNat 32 (i 0).val) 0#32)) 0#32) = 1#1
/-- It holds at the first step only. -/
theorem hcond0 : ∀ t : Fin cfg0.N, cond0 (grid0.coords t) ↔ t.val = 0 :=
  (by decide +kernel : ∀ t : Fin grid0.N, cond0 (grid0.coords t) ↔ t.val = 0)

/-! ## The memrefs a step is called with -/

abbrev ms0 (t : Fin cfg0.N) : Memref sig .tc .vmem S3x4096x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x256x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x256x4096 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256x4096 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S3x128x16 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S3x16 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S3x16x9 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S3x9 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S27x27 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x27 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S256x27 .f32 := win0_10.stage (cfg0.slots t 10)
abbrev hs10 (t : Fin cfg0.N) : (ms10 t).IsWhole := hstage0_10 ((cfg0.slots t 10).cast nbuf0_10)
/-- The support scratch: a whole buffer of the kernel's own, kept from step to step. -/
abbrev scM : Memref sig .tc .vmem S3x4096x16 .f32 := Memref.whole cc0_scratch0
/-- One staging buffer of the output window, through which a tile's contents are stated. -/
abbrev VO : View sig .tc .vmem S256x27 .f32 := (Memref.whole cc0_stg10_0 : Memref sig .tc .vmem S256x27 .f32).view
/-- The scratch as a view. -/
abbrev VS : View sig .tc .vmem S3x4096x16 .f32 := scM.view

/-- The kernel's one scoped buffer that is no staging buffer is the support scratch, owned at some contents. -/
theorem scopedRest_scM (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

end Cert.Kernel.Hand

end
-- ==== Proof.K.RunB.lean ====
/-
  One grid step after the first, on any whole staging memrefs: the step reads its ten input windows and the support
  scratch, writes nothing but its output tile, and hands the scratch back as it found it. What the tile's buffer
  ends with is recorded as the list of pieces the step's stores wrote.
-/
import proofs.«141574_g37280316129400_cont_sun_m_331_21_alg».proof.Proof.K.Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces a later step's stores leave in the output tile's buffer, with the proof that from the inputs at their
    contents, the tile's buffer at anything and the scratch at contents `xs`, the step runs to the continuation
    holding the inputs and the scratch as they were and the tile's buffer with those pieces written. -/
noncomputable def stepLater (c : Dev nD) (i : grid0.Coords) (arg1 : Memref sig .tc .vmem S3x4096x128 .f32) (harg1 : arg1.IsWhole) (arg2 : Memref sig .tc .vmem S1x256x4096 .f32) (harg2 : arg2.IsWhole) (arg3 : Memref sig .tc .vmem S1x256x4096 .f32) (harg3 : arg3.IsWhole) (arg4 : Memref sig .tc .vmem S1x256x4096 .f32) (harg4 : arg4.IsWhole) (arg5 : Memref sig .tc .vmem S3x128x16 .f32) (harg5 : arg5.IsWhole) (arg6 : Memref sig .tc .vmem S3x16 .f32) (harg6 : arg6.IsWhole) (arg7 : Memref sig .tc .vmem S3x16x9 .f32) (harg7 : arg7.IsWhole) (arg8 : Memref sig .tc .vmem S3x9 .f32) (harg8 : arg8.IsWhole) (arg9 : Memref sig .tc .vmem S27x27 .f32) (harg9 : arg9.IsWhole) (arg10 : Memref sig .tc .vmem S1x27 .f32) (harg10 : arg10.IsWhole) (arg11 : Memref sig .tc .vmem S256x27 .f32) (harg11 : arg11.IsWhole) (arg12 : Memref sig .tc .vmem S3x4096x16 .f32) (harg12 : arg12.IsWhole) (hc : ¬cond0 i)
    (x1 : Vec F S3x4096x128 .f32) (x2 x3 x4 : Vec F S1x256x4096 .f32) (x5 : Vec F S3x128x16 .f32) (x6 : Vec F S3x16 .f32) (x7 : Vec F S3x16x9 .f32) (x8 : Vec F S3x9 .f32) (x9 : Vec F S27x27 .f32) (x10 : Vec F S1x27 .f32) (xs : Vec F S3x4096x16 .f32) :
    { L : List (View.Piece (Elt F) S256x27 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ owns (c : Thread nD τ) arg12 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ f, arg11.view.loc (c : Thread nD τ) ↦[arg11.view.set]{fullShare} arg11.view.writes (Elt F) f L) ∗ owns (c : Thread nD τ) arg12 fullShare xs) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__body_eq_skeleton]; unfold cc0__body_skel
    simp only [k0_part1_eq_skeleton, k0_part2_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%fs, %hfs, HS⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    obtain rfl := harg7.eq_unread hf7; obtain rfl := harg8.eq_unread hf8; obtain rfl := harg9.eq_unread hf9
    obtain rfl := harg10.eq_unread hf10; obtain rfl := harg12.eq_unread hfs
    sl_exec (disch := exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; iexact H11
    iexists _; isplitr; · ipureintro; exact harg12.read_unread _
    iexact HS

end Cert.Kernel.Hand

end
-- ==== Proof.K.RunA.lean ====
/-
  The first grid step, on any whole staging memrefs: the step fills the three slices of the support scratch (one
  product per modality), then computes its output tile from the scratch it has just filled. What the scratch and
  the tile's buffer end with is recorded as the lists of pieces the step's stores wrote.
-/
import proofs.«141574_g37280316129400_cont_sun_m_331_21_alg».proof.Proof.K.RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the first step's stores leave in the output tile's buffer and in the support scratch, with the proof
    that from the inputs at their contents and the tile's buffer and the scratch at anything, the step runs to the
    continuation holding the inputs as they were and the two buffers with those pieces written. -/
noncomputable def stepFirst (c : Dev nD) (i : grid0.Coords) (arg1 : Memref sig .tc .vmem S3x4096x128 .f32) (harg1 : arg1.IsWhole) (arg2 : Memref sig .tc .vmem S1x256x4096 .f32) (harg2 : arg2.IsWhole) (arg3 : Memref sig .tc .vmem S1x256x4096 .f32) (harg3 : arg3.IsWhole) (arg4 : Memref sig .tc .vmem S1x256x4096 .f32) (harg4 : arg4.IsWhole) (arg5 : Memref sig .tc .vmem S3x128x16 .f32) (harg5 : arg5.IsWhole) (arg6 : Memref sig .tc .vmem S3x16 .f32) (harg6 : arg6.IsWhole) (arg7 : Memref sig .tc .vmem S3x16x9 .f32) (harg7 : arg7.IsWhole) (arg8 : Memref sig .tc .vmem S3x9 .f32) (harg8 : arg8.IsWhole) (arg9 : Memref sig .tc .vmem S27x27 .f32) (harg9 : arg9.IsWhole) (arg10 : Memref sig .tc .vmem S1x27 .f32) (harg10 : arg10.IsWhole) (arg11 : Memref sig .tc .vmem S256x27 .f32) (harg11 : arg11.IsWhole) (arg12 : Memref sig .tc .vmem S3x4096x16 .f32) (harg12 : arg12.IsWhole) (hc : cond0 i)
    (x1 : Vec F S3x4096x128 .f32) (x2 x3 x4 : Vec F S1x256x4096 .f32) (x5 : Vec F S3x128x16 .f32) (x6 : Vec F S3x16 .f32) (x7 : Vec F S3x16x9 .f32) (x8 : Vec F S3x9 .f32) (x9 : Vec F S27x27 .f32) (x10 : Vec F S1x27 .f32) :
    Σ' (L : List (View.Piece (Elt F) S256x27 .f32)), { LS : List (View.Piece (Elt F) S3x4096x16 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ f, arg11.view.loc (c : Thread nD τ) ↦[arg11.view.set]{fullShare} arg11.view.writes (Elt F) f L) ∗ (∃ f, arg12.view.loc (c : Thread nD τ) ↦[arg12.view.set]{fullShare} arg12.view.writes (Elt F) f LS)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__body_eq_skeleton]; unfold cc0__body_skel
    simp only [k0_part1_eq_skeleton, k0_part2_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%ds, %fs, -, HS⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    obtain rfl := harg7.eq_unread hf7; obtain rfl := harg8.eq_unread hf8; obtain rfl := harg9.eq_unread hf9
    obtain rfl := harg10.eq_unread hf10
    sl_exec (disch := exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; iexact H11
    iexists _; iexact HS

end Cert.Kernel.Hand

end
-- ==== Proof.K.Frame.lean ====
/-
  The graph-convolution kernel's run, step by step.

  After the first grid step the support scratch holds the three products x_i · Wgc_i, and no later step writes it;
  every step leaves in its output tile's buffer what its stores wrote, a function of the step's input blocks and of
  the scratch. These two facts are the proof data of the pipeline: the invariant between steps is the scratch at the
  first step's contents, and the output array after the run is the sixteen tiles written back in order.
  The adjacency array is handed to the kernel three times (one window per modality); its points-to is split into
  three shares, one per window, when the region is entered.
-/
import proofs.«141574_g37280316129400_cont_sun_m_331_21_alg».proof.Proof.K.RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a step leaves -/

/-- A later step's pieces for the output tile cover it. -/
theorem coverLater (c : Dev nD) (i : grid0.Coords) (arg1 : Memref sig .tc .vmem S3x4096x128 .f32) (harg1 : arg1.IsWhole) (arg2 : Memref sig .tc .vmem S1x256x4096 .f32) (harg2 : arg2.IsWhole) (arg3 : Memref sig .tc .vmem S1x256x4096 .f32) (harg3 : arg3.IsWhole) (arg4 : Memref sig .tc .vmem S1x256x4096 .f32) (harg4 : arg4.IsWhole) (arg5 : Memref sig .tc .vmem S3x128x16 .f32) (harg5 : arg5.IsWhole) (arg6 : Memref sig .tc .vmem S3x16 .f32) (harg6 : arg6.IsWhole) (arg7 : Memref sig .tc .vmem S3x16x9 .f32) (harg7 : arg7.IsWhole) (arg8 : Memref sig .tc .vmem S3x9 .f32) (harg8 : arg8.IsWhole) (arg9 : Memref sig .tc .vmem S27x27 .f32) (harg9 : arg9.IsWhole) (arg10 : Memref sig .tc .vmem S1x27 .f32) (harg10 : arg10.IsWhole) (arg11 : Memref sig .tc .vmem S256x27 .f32) (harg11 : arg11.IsWhole) (arg12 : Memref sig .tc .vmem S3x4096x16 .f32) (harg12 : arg12.IsWhole) (hc : ¬cond0 i)
    (x1 : Vec F S3x4096x128 .f32) (x2 x3 x4 : Vec F S1x256x4096 .f32) (x5 : Vec F S3x128x16 .f32) (x6 : Vec F S3x16 .f32) (x7 : Vec F S3x16x9 .f32) (x8 : Vec F S3x9 .f32) (x9 : Vec F S27x27 .f32) (x10 : Vec F S1x27 .f32) (xs : Vec F S3x4096x16 .f32) (y : S256x27.Idx) :
    ∃ pc ∈ (stepLater c i arg1 harg1 arg2 harg2 arg3 harg3 arg4 harg4 arg5 harg5 arg6 harg6 arg7 harg7 arg8 harg8 arg9 harg9 arg10 harg10 arg11 harg11 arg12 harg12 hc x1 x2 x3 x4 x5 x6 x7 x8 x9 x10 xs).1, y ∈ pc.1.set :=
  View.cover_of_tiledL (stepLater c i arg1 harg1 arg2 harg2 arg3 harg3 arg4 harg4 arg5 harg5 arg6 harg6 arg7 harg7 arg8 harg8 arg9 harg9 arg10 harg10 arg11 harg11 arg12 harg12 hc x1 x2 x3 x4 x5 x6 x7 x8 x9 x10 xs).1 S256x27.size (by sl_kernel_rfl) y

/-- What a later step leaves in the output tile's buffer. -/
def tileLater (c : Dev nD) (i : grid0.Coords) (arg1 : Memref sig .tc .vmem S3x4096x128 .f32) (harg1 : arg1.IsWhole) (arg2 : Memref sig .tc .vmem S1x256x4096 .f32) (harg2 : arg2.IsWhole) (arg3 : Memref sig .tc .vmem S1x256x4096 .f32) (harg3 : arg3.IsWhole) (arg4 : Memref sig .tc .vmem S1x256x4096 .f32) (harg4 : arg4.IsWhole) (arg5 : Memref sig .tc .vmem S3x128x16 .f32) (harg5 : arg5.IsWhole) (arg6 : Memref sig .tc .vmem S3x16 .f32) (harg6 : arg6.IsWhole) (arg7 : Memref sig .tc .vmem S3x16x9 .f32) (harg7 : arg7.IsWhole) (arg8 : Memref sig .tc .vmem S3x9 .f32) (harg8 : arg8.IsWhole) (arg9 : Memref sig .tc .vmem S27x27 .f32) (harg9 : arg9.IsWhole) (arg10 : Memref sig .tc .vmem S1x27 .f32) (harg10 : arg10.IsWhole) (arg11 : Memref sig .tc .vmem S256x27 .f32) (harg11 : arg11.IsWhole) (arg12 : Memref sig .tc .vmem S3x4096x16 .f32) (harg12 : arg12.IsWhole) (hc : ¬cond0 i)
    (x1 : Vec F S3x4096x128 .f32) (x2 x3 x4 : Vec F S1x256x4096 .f32) (x5 : Vec F S3x128x16 .f32) (x6 : Vec F S3x16 .f32) (x7 : Vec F S3x16x9 .f32) (x8 : Vec F S3x9 .f32) (x9 : Vec F S27x27 .f32) (x10 : Vec F S1x27 .f32) (xs : Vec F S3x4096x16 .f32) : Vec F S256x27 .f32 :=
  VO.read (Elt F) (VO.writes (Elt F) VO.junk (stepLater c i arg1 harg1 arg2 harg2 arg3 harg3 arg4 harg4 arg5 harg5 arg6 harg6 arg7 harg7 arg8 harg8 arg9 harg9 arg10 harg10 arg11 harg11 arg12 harg12 hc x1 x2 x3 x4 x5 x6 x7 x8 x9 x10 xs).1)

/-- The first step's pieces for the output tile cover it. -/
theorem coverFirst (c : Dev nD) (i : grid0.Coords) (arg1 : Memref sig .tc .vmem S3x4096x128 .f32) (harg1 : arg1.IsWhole) (arg2 : Memref sig .tc .vmem S1x256x4096 .f32) (harg2 : arg2.IsWhole) (arg3 : Memref sig .tc .vmem S1x256x4096 .f32) (harg3 : arg3.IsWhole) (arg4 : Memref sig .tc .vmem S1x256x4096 .f32) (harg4 : arg4.IsWhole) (arg5 : Memref sig .tc .vmem S3x128x16 .f32) (harg5 : arg5.IsWhole) (arg6 : Memref sig .tc .vmem S3x16 .f32) (harg6 : arg6.IsWhole) (arg7 : Memref sig .tc .vmem S3x16x9 .f32) (harg7 : arg7.IsWhole) (arg8 : Memref sig .tc .vmem S3x9 .f32) (harg8 : arg8.IsWhole) (arg9 : Memref sig .tc .vmem S27x27 .f32) (harg9 : arg9.IsWhole) (arg10 : Memref sig .tc .vmem S1x27 .f32) (harg10 : arg10.IsWhole) (arg11 : Memref sig .tc .vmem S256x27 .f32) (harg11 : arg11.IsWhole) (arg12 : Memref sig .tc .vmem S3x4096x16 .f32) (harg12 : arg12.IsWhole) (hc : cond0 i)
    (x1 : Vec F S3x4096x128 .f32) (x2 x3 x4 : Vec F S1x256x4096 .f32) (x5 : Vec F S3x128x16 .f32) (x6 : Vec F S3x16 .f32) (x7 : Vec F S3x16x9 .f32) (x8 : Vec F S3x9 .f32) (x9 : Vec F S27x27 .f32) (x10 : Vec F S1x27 .f32) (y : S256x27.Idx) :
    ∃ pc ∈ (stepFirst c i arg1 harg1 arg2 harg2 arg3 harg3 arg4 harg4 arg5 harg5 arg6 harg6 arg7 harg7 arg8 harg8 arg9 harg9 arg10 harg10 arg11 harg11 arg12 harg12 hc x1 x2 x3 x4 x5 x6 x7 x8 x9 x10).1, y ∈ pc.1.set :=
  View.cover_of_tiledL (stepFirst c i arg1 harg1 arg2 harg2 arg3 harg3 arg4 harg4 arg5 harg5 arg6 harg6 arg7 harg7 arg8 harg8 arg9 harg9 arg10 harg10 arg11 harg11 arg12 harg12 hc x1 x2 x3 x4 x5 x6 x7 x8 x9 x10).1 S256x27.size (by sl_kernel_rfl) y

/-- What the first step leaves in the output tile's buffer. -/
def tileFirst (c : Dev nD) (i : grid0.Coords) (arg1 : Memref sig .tc .vmem S3x4096x128 .f32) (harg1 : arg1.IsWhole) (arg2 : Memref sig .tc .vmem S1x256x4096 .f32) (harg2 : arg2.IsWhole) (arg3 : Memref sig .tc .vmem S1x256x4096 .f32) (harg3 : arg3.IsWhole) (arg4 : Memref sig .tc .vmem S1x256x4096 .f32) (harg4 : arg4.IsWhole) (arg5 : Memref sig .tc .vmem S3x128x16 .f32) (harg5 : arg5.IsWhole) (arg6 : Memref sig .tc .vmem S3x16 .f32) (harg6 : arg6.IsWhole) (arg7 : Memref sig .tc .vmem S3x16x9 .f32) (harg7 : arg7.IsWhole) (arg8 : Memref sig .tc .vmem S3x9 .f32) (harg8 : arg8.IsWhole) (arg9 : Memref sig .tc .vmem S27x27 .f32) (harg9 : arg9.IsWhole) (arg10 : Memref sig .tc .vmem S1x27 .f32) (harg10 : arg10.IsWhole) (arg11 : Memref sig .tc .vmem S256x27 .f32) (harg11 : arg11.IsWhole) (arg12 : Memref sig .tc .vmem S3x4096x16 .f32) (harg12 : arg12.IsWhole) (hc : cond0 i)
    (x1 : Vec F S3x4096x128 .f32) (x2 x3 x4 : Vec F S1x256x4096 .f32) (x5 : Vec F S3x128x16 .f32) (x6 : Vec F S3x16 .f32) (x7 : Vec F S3x16x9 .f32) (x8 : Vec F S3x9 .f32) (x9 : Vec F S27x27 .f32) (x10 : Vec F S1x27 .f32) : Vec F S256x27 .f32 :=
  VO.read (Elt F) (VO.writes (Elt F) VO.junk (stepFirst c i arg1 harg1 arg2 harg2 arg3 harg3 arg4 harg4 arg5 harg5 arg6 harg6 arg7 harg7 arg8 harg8 arg9 harg9 arg10 harg10 arg11 harg11 arg12 harg12 hc x1 x2 x3 x4 x5 x6 x7 x8 x9 x10).1)

/-- The first step's pieces for the support scratch (one slice per modality) cover it. -/
theorem scoverFirst (c : Dev nD) (i : grid0.Coords) (arg1 : Memref sig .tc .vmem S3x4096x128 .f32) (harg1 : arg1.IsWhole) (arg2 : Memref sig .tc .vmem S1x256x4096 .f32) (harg2 : arg2.IsWhole) (arg3 : Memref sig .tc .vmem S1x256x4096 .f32) (harg3 : arg3.IsWhole) (arg4 : Memref sig .tc .vmem S1x256x4096 .f32) (harg4 : arg4.IsWhole) (arg5 : Memref sig .tc .vmem S3x128x16 .f32) (harg5 : arg5.IsWhole) (arg6 : Memref sig .tc .vmem S3x16 .f32) (harg6 : arg6.IsWhole) (arg7 : Memref sig .tc .vmem S3x16x9 .f32) (harg7 : arg7.IsWhole) (arg8 : Memref sig .tc .vmem S3x9 .f32) (harg8 : arg8.IsWhole) (arg9 : Memref sig .tc .vmem S27x27 .f32) (harg9 : arg9.IsWhole) (arg10 : Memref sig .tc .vmem S1x27 .f32) (harg10 : arg10.IsWhole) (arg11 : Memref sig .tc .vmem S256x27 .f32) (harg11 : arg11.IsWhole) (arg12 : Memref sig .tc .vmem S3x4096x16 .f32) (harg12 : arg12.IsWhole) (hc : cond0 i)
    (x1 : Vec F S3x4096x128 .f32) (x2 x3 x4 : Vec F S1x256x4096 .f32) (x5 : Vec F S3x128x16 .f32) (x6 : Vec F S3x16 .f32) (x7 : Vec F S3x16x9 .f32) (x8 : Vec F S3x9 .f32) (x9 : Vec F S27x27 .f32) (x10 : Vec F S1x27 .f32) (y : S3x4096x16.Idx) :
    ∃ pc ∈ (stepFirst c i arg1 harg1 arg2 harg2 arg3 harg3 arg4 harg4 arg5 harg5 arg6 harg6 arg7 harg7 arg8 harg8 arg9 harg9 arg10 harg10 arg11 harg11 arg12 harg12 hc x1 x2 x3 x4 x5 x6 x7 x8 x9 x10).2.1, y ∈ pc.1.set :=
  View.cover_of_tiledL (stepFirst c i arg1 harg1 arg2 harg2 arg3 harg3 arg4 harg4 arg5 harg5 arg6 harg6 arg7 harg7 arg8 harg8 arg9 harg9 arg10 harg10 arg11 harg11 arg12 harg12 hc x1 x2 x3 x4 x5 x6 x7 x8 x9 x10).2.1 S1x4096x16.size (by sl_kernel_rfl) y

/-- What the first step leaves in the support scratch. -/
def supFirst (c : Dev nD) (i : grid0.Coords) (arg1 : Memref sig .tc .vmem S3x4096x128 .f32) (harg1 : arg1.IsWhole) (arg2 : Memref sig .tc .vmem S1x256x4096 .f32) (harg2 : arg2.IsWhole) (arg3 : Memref sig .tc .vmem S1x256x4096 .f32) (harg3 : arg3.IsWhole) (arg4 : Memref sig .tc .vmem S1x256x4096 .f32) (harg4 : arg4.IsWhole) (arg5 : Memref sig .tc .vmem S3x128x16 .f32) (harg5 : arg5.IsWhole) (arg6 : Memref sig .tc .vmem S3x16 .f32) (harg6 : arg6.IsWhole) (arg7 : Memref sig .tc .vmem S3x16x9 .f32) (harg7 : arg7.IsWhole) (arg8 : Memref sig .tc .vmem S3x9 .f32) (harg8 : arg8.IsWhole) (arg9 : Memref sig .tc .vmem S27x27 .f32) (harg9 : arg9.IsWhole) (arg10 : Memref sig .tc .vmem S1x27 .f32) (harg10 : arg10.IsWhole) (arg11 : Memref sig .tc .vmem S256x27 .f32) (harg11 : arg11.IsWhole) (arg12 : Memref sig .tc .vmem S3x4096x16 .f32) (harg12 : arg12.IsWhole) (hc : cond0 i)
    (x1 : Vec F S3x4096x128 .f32) (x2 x3 x4 : Vec F S1x256x4096 .f32) (x5 : Vec F S3x128x16 .f32) (x6 : Vec F S3x16 .f32) (x7 : Vec F S3x16x9 .f32) (x8 : Vec F S3x9 .f32) (x9 : Vec F S27x27 .f32) (x10 : Vec F S1x27 .f32) : Vec F S3x4096x16 .f32 :=
  VS.read (Elt F) (VS.writes (Elt F) VS.junk (stepFirst c i arg1 harg1 arg2 harg2 arg3 harg3 arg4 harg4 arg5 harg5 arg6 harg6 arg7 harg7 arg8 harg8 arg9 harg9 arg10 harg10 arg11 harg11 arg12 harg12 hc x1 x2 x3 x4 x5 x6 x7 x8 x9 x10).2.1)

/-! ## Step by step -/

/-- The support scratch after the first step, on core `c`. -/
def sup0 (c : Dev nD) : Vec F S3x4096x16 .f32 :=
  supFirst c (grid0.coords t0_0) (ms0 t0_0) (hs0 t0_0) (ms1 t0_0) (hs1 t0_0) (ms2 t0_0) (hs2 t0_0) (ms3 t0_0) (hs3 t0_0) (ms4 t0_0) (hs4 t0_0) (ms5 t0_0) (hs5 t0_0) (ms6 t0_0) (hs6 t0_0) (ms7 t0_0) (hs7 t0_0) (ms8 t0_0) (hs8 t0_0) (ms9 t0_0) (hs9 t0_0) (ms10 t0_0) (hs10 t0_0) scM (Memref.isWhole_whole _) ((hcond0 t0_0).mpr rfl) (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0)

/-- The output tile's buffer after step `t`. -/
def tile (c : Dev nD) (t : Fin cfg0.N) : Vec F S256x27 .f32 :=
  if h : t.val = 0 then
    tileFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scM (Memref.isWhole_whole _) ((hcond0 t).mpr h) (iblk m c 0 t) (iblk m c 1 t) (iblk m c 2 t) (iblk m c 3 t) (iblk m c 4 t) (iblk m c 5 t) (iblk m c 6 t) (iblk m c 7 t) (iblk m c 8 t) (iblk m c 9 t)
  else
    tileLater c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scM (Memref.isWhole_whole _) (fun hc => h ((hcond0 t).mp hc)) (iblk m c 0 t) (iblk m c 1 t) (iblk m c 2 t) (iblk m c 3 t) (iblk m c 4 t) (iblk m c 5 t) (iblk m c 6 t) (iblk m c 7 t) (iblk m c 8 t) (iblk m c 9 t) (sup0 m c)

/-- Between steps: before the first, the scratch at anything; afterwards at the first step's contents. -/
def PhiS (c : Dev nD) : ℕ → sProp 𝕄
  | 0 => iprop(∃ d, owns (c : Thread nD τ) scM fullShare d)
  | _ + 1 => owns (c : Thread nD τ) scM fullShare (sup0 m c)

theorem PhiS_pos (c : Dev nD) (n : ℕ) (hz : n ≠ 0) : PhiS m c n = owns (c : Thread nD τ) scM fullShare (sup0 m c) := by
  cases n with
  | zero => exact absurd rfl hz
  | succ n => rfl

/-! ## The pipeline's proof data -/

/-- The proof data on core `c`: the arrays as the region finds them; each input window's buffer at its block, the
    output's at `tile`; the scratch invariant; the adjacency's share split among its three windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => tile m c t
  Φ t := PhiS m c t.val
  q w := match w with
    | ⟨0, _⟩ => fullShare
    | ⟨1, _⟩ => fullShare.left
    | ⟨2, _⟩ => fullShare.right.left
    | ⟨3, _⟩ => fullShare.right.right
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = tile m c t := by dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem before_9 (c : Dev nD) (t : Fin cfg0.N) (d) : (dats m 0 c).before 9 t d = iblk m c 9 t :=
  ((dats m 0 c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 4800000 in
/-- The body at any step: the inputs' buffers hold their blocks; at the first step the scratch is filled, at a later
    one it is found filled and handed back; the tile's buffer ends at `tile`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).owesAt () t.succ = (dats m 0 c).owesAt () t.castSucc from rfl]
  rw [show (dats m 0 c).Φ t.succ = owns (c : Thread nD τ) scM fullShare (sup0 m c) from rfl]
  rw [show (dats m 0 c).Φ t.castSucc = PhiS m c t.val from by dsimp only [dats]; simp only [Fin.coe_castSucc]]
  rw [show (dats m 0 c).leavesExact 0 t = owns (c : Thread nD τ) (ms0 t) fullShare ((dats m 0 c).after 0 t) from rfl, after_0]
  rw [show (dats m 0 c).leavesExact 1 t = owns (c : Thread nD τ) (ms1 t) fullShare ((dats m 0 c).after 1 t) from rfl, after_1]
  rw [show (dats m 0 c).leavesExact 2 t = owns (c : Thread nD τ) (ms2 t) fullShare ((dats m 0 c).after 2 t) from rfl, after_2]
  rw [show (dats m 0 c).leavesExact 3 t = owns (c : Thread nD τ) (ms3 t) fullShare ((dats m 0 c).after 3 t) from rfl, after_3]
  rw [show (dats m 0 c).leavesExact 4 t = owns (c : Thread nD τ) (ms4 t) fullShare ((dats m 0 c).after 4 t) from rfl, after_4]
  rw [show (dats m 0 c).leavesExact 5 t = owns (c : Thread nD τ) (ms5 t) fullShare ((dats m 0 c).after 5 t) from rfl, after_5]
  rw [show (dats m 0 c).leavesExact 6 t = owns (c : Thread nD τ) (ms6 t) fullShare ((dats m 0 c).after 6 t) from rfl, after_6]
  rw [show (dats m 0 c).leavesExact 7 t = owns (c : Thread nD τ) (ms7 t) fullShare ((dats m 0 c).after 7 t) from rfl, after_7]
  rw [show (dats m 0 c).leavesExact 8 t = owns (c : Thread nD τ) (ms8 t) fullShare ((dats m 0 c).after 8 t) from rfl, after_8]
  rw [show (dats m 0 c).leavesExact 9 t = owns (c : Thread nD τ) (ms9 t) fullShare ((dats m 0 c).after 9 t) from rfl, after_9]
  rw [show (dats m 0 c).leavesExact 10 t = owns (c : Thread nD τ) (ms10 t) fullShare ((dats m 0 c).after 10 t) from rfl, after_10]
  by_cases hz : t.val = 0
  · obtain rfl : t = t0_0 := Fin.ext hz
    rw [show PhiS m c (t0_0 : Fin cfg0.N).val = iprop(∃ d, owns (c : Thread nD τ) scM fullShare d) from rfl]
    rw [show tile m c t0_0 = tileFirst c (grid0.coords t0_0) (ms0 t0_0) (hs0 t0_0) (ms1 t0_0) (hs1 t0_0) (ms2 t0_0) (hs2 t0_0) (ms3 t0_0) (hs3 t0_0) (ms4 t0_0) (hs4 t0_0) (ms5 t0_0) (hs5 t0_0) (ms6 t0_0) (hs6 t0_0) (ms7 t0_0) (hs7 t0_0) (ms8 t0_0) (hs8 t0_0) (ms9 t0_0) (hs9 t0_0) (ms10 t0_0) (hs10 t0_0) scM (Memref.isWhole_whole _) ((hcond0 t0_0).mpr rfl) (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) from dif_pos rfl]
    unfold tileFirst sup0 supFirst
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((stepFirst c (grid0.coords t0_0) (ms0 t0_0) (hs0 t0_0) (ms1 t0_0) (hs1 t0_0) (ms2 t0_0) (hs2 t0_0) (ms3 t0_0) (hs3 t0_0) (ms4 t0_0) (hs4 t0_0) (ms5 t0_0) (hs5 t0_0) (ms6 t0_0) (hs6 t0_0) (ms7 t0_0) (hs7 t0_0) (ms8 t0_0) (hs8 t0_0) (ms9 t0_0) (hs9 t0_0) (ms10 t0_0) (hs10 t0_0) scM (Memref.isWhole_whole _) ((hcond0 t0_0).mpr rfl) (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [HS]; · iexact HS
    iintro ⟨H0, H1, H2, H3, H4, H5, H6, H7, H8, H9, ⟨%e10, H10⟩, ⟨%es, HS⟩⟩
    isplitl [HS]
    · unfold owns; iexists _; isplitr
      swap; · iexact HS
      ipureintro; exact View.read_writes_of_cover _ _ _ _ _ (scoverFirst c _ _ _ _ _ _ _ _ _ _ _ _ _ _ _ _ _ _ _ _ _ _ _ _ _ _ _ _ _ _ _ _ _ _ _ _ )
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    unfold owns; iexists _; isplitr
    swap; · iexact H10
    ipureintro; exact View.read_writes_of_cover _ _ _ _ _ (coverFirst c _ _ _ _ _ _ _ _ _ _ _ _ _ _ _ _ _ _ _ _ _ _ _ _ _ _ _ _ _ _ _ _ _ _ _ _ )
  · rw [PhiS_pos m c _ hz]
    rw [show tile m c t = tileLater c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scM (Memref.isWhole_whole _) (fun hc => hz ((hcond0 t).mp hc)) (iblk m c 0 t) (iblk m c 1 t) (iblk m c 2 t) (iblk m c 3 t) (iblk m c 4 t) (iblk m c 5 t) (iblk m c 6 t) (iblk m c 7 t) (iblk m c 8 t) (iblk m c 9 t) (sup0 m c) from dif_neg hz]
    unfold tileLater
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((stepLater c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scM (Memref.isWhole_whole _) (fun hc => hz ((hcond0 t).mp hc)) (iblk m c 0 t) (iblk m c 1 t) (iblk m c 2 t) (iblk m c 3 t) (iblk m c 4 t) (iblk m c 5 t) (iblk m c 6 t) (iblk m c 7 t) (iblk m c 8 t) (iblk m c 9 t) (sup0 m c)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [HS]; · iexact HS
    iintro ⟨H0, H1, H2, H3, H4, H5, H6, H7, H8, H9, ⟨%e10, H10⟩, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    unfold owns; iexists _; isplitr
    swap; · iexact H10
    ipureintro; exact View.read_writes_of_cover _ _ _ _ _ (coverLater c _ _ _ _ _ _ _ _ _ _ _ _ _ _ _ _ _ _ _ _ _ _ _ _ _ _ _ _ _ _ _ _ _ _ _ _ _)

/-- The library's body obligation, at every step. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.K.Split.lean ====
/-
  How the adjacency array, handed to the kernel through three windows, is dealt among them at the region's entry.
  The launch holds each distinct array's buffer whole; the proof data hold one points-to per window. For the adjacency
  the whole points-to is split in two and its right half in two again, one part per window: reading through a part is
  all a fetch needs, and no window writes the adjacency.
-/
import proofs.«141574_g37280316129400_cont_sun_m_331_21_alg».proof.Proof.K.Frame
import Idealize.ShloMosaic.Lib.Pipeline.Launch

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the eleven windows' arrays, one by one. -/
theorem arrBufs_list (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_arg1) ↦{fullShare} W main_arg1)
          ∗ (((c : Thread nD τ).loc main_arg2) ↦{fullShare} W main_arg2) ∗ (((c : Thread nD τ).loc main_arg3) ↦{fullShare} W main_arg3)
          ∗ (((c : Thread nD τ).loc main_arg4) ↦{fullShare} W main_arg4) ∗ (((c : Thread nD τ).loc main_arg5) ↦{fullShare} W main_arg5)
          ∗ (((c : Thread nD τ).loc main_arg6) ↦{fullShare} W main_arg6) ∗ (((c : Thread nD τ).loc main_call0_v0) ↦{fullShare} W main_call0_v0)
          ∗ (((c : Thread nD τ).loc main_v0) ↦{fullShare} W main_v0)) := by
  unfold Pipeline.arrBufs
  exact bigSep_eq_bigSepL_of_eq [main_arg0, main_arg1, main_arg2, main_arg3, main_arg4, main_arg5, main_arg6, main_call0_v0, main_v0]
    (by decide) (by decide) _

/-- A window's array is a whole buffer: its points-to over the array's element set is the buffer's. -/
theorem arr_pt (c : Dev nD) (w : Fin cfg0.W) (q : PosShare TreeShare) (f : Buf (Elt F) ((cfg0.win w).arr.view.loc (c : Thread nD τ))) :
    (((cfg0.win w).arr.view.loc (c : Thread nD τ)) ↦[(cfg0.win w).arr.view.set]{q} f : sProp 𝕄)
      = (((c : Thread nD τ).loc (Pipeline.arrRef spec0 w)) ↦{q} f) := by
  rw [(arr_whole0 w).set_eq_univ]

/-- At entry every array holds the region-entry contents. -/
theorem arrAt_zero (c : Dev nD) (w : Fin cfg0.W) : (dats m 0 c).arrAt w 0 = V m c (Pipeline.arrRef spec0 w) := rfl

/-- The share each window holds of its array: the adjacency's three windows a third part each (a half and two
    quarters), every other window its whole array. -/
theorem share_0 (c : Dev nD) : (dats m 0 c).share 0 = fullShare := rfl
theorem share_1 (c : Dev nD) : (dats m 0 c).share 1 = fullShare.left := rfl
theorem share_2 (c : Dev nD) : (dats m 0 c).share 2 = fullShare.right.left := rfl
theorem share_3 (c : Dev nD) : (dats m 0 c).share 3 = fullShare.right.right := rfl
theorem share_4 (c : Dev nD) : (dats m 0 c).share 4 = fullShare := rfl
theorem share_5 (c : Dev nD) : (dats m 0 c).share 5 = fullShare := rfl
theorem share_6 (c : Dev nD) : (dats m 0 c).share 6 = fullShare := rfl
theorem share_7 (c : Dev nD) : (dats m 0 c).share 7 = fullShare := rfl
theorem share_8 (c : Dev nD) : (dats m 0 c).share 8 = fullShare := rfl
theorem share_9 (c : Dev nD) : (dats m 0 c).share 9 = fullShare := rfl
theorem share_10 (c : Dev nD) : (dats m 0 c).share 10 = fullShare := rfl

/-- Three conjuncts in place of the middle one of three. -/
theorem deal3 {M : Type _} [URA M] (A B B1 B2 B3 C : sProp M) (h : B ⊢ iprop(B1 ∗ B2 ∗ B3)) :
    iprop(A ∗ B ∗ C) ⊢ iprop(A ∗ B1 ∗ B2 ∗ B3 ∗ C) := by
  iintro ⟨HA, HB, HC⟩
  ihave HB' := h $$ HB
  icases HB' with ⟨H1, H2, H3⟩
  isplitl [HA]; · iexact HA
  isplitl [H1]; · iexact H1
  isplitl [H2]; · iexact H2
  isplitl [H3]; · iexact H3
  iexact HC

/-- A points-to at a share that is the composite of `qa` and `qr`, itself the composite of `qb` and `qc`, is three
    points-tos at the three parts. -/
theorem share3 (ℓ : Loc nD τ sig) (f : Buf (Elt F) ℓ) (q qa qr qb qc : PosShare TreeShare) (h1 : q ∈ PCS.op qa qr) (h2 : qr ∈ PCS.op qb qc) :
    (ℓ ↦{q} f : sProp 𝕄) ⊢ iprop((ℓ ↦{qa} f) ∗ (ℓ ↦{qb} f) ∗ (ℓ ↦{qc} f)) := by
  iintro H
  ihave H' := (pointsTo_share h1).1 $$ H
  icases H' with ⟨Ha, Hr⟩
  ihave H'' := (pointsTo_share h2).1 $$ Hr
  icases H'' with ⟨Hb, Hc⟩
  isplitl [Ha]; · iexact Ha
  isplitl [Hb]; · iexact Hb
  iexact Hc

set_option maxHeartbeats 2000000 in
/-- The proof data's arrays at entry, window by window. -/
theorem arrays_entry (c : Dev nD) :
    ((dats m 0 c).arrays ((dats m 0 c).arrAt · 0) : sProp 𝕄)
      = iprop((((c : Thread nD τ).loc main_arg0) ↦{fullShare} V m c main_arg0)
          ∗ (((c : Thread nD τ).loc main_arg1) ↦{fullShare.left} V m c main_arg1)
          ∗ (((c : Thread nD τ).loc main_arg1) ↦{fullShare.right.left} V m c main_arg1)
          ∗ (((c : Thread nD τ).loc main_arg1) ↦{fullShare.right.right} V m c main_arg1)
          ∗ (((c : Thread nD τ).loc main_arg2) ↦{fullShare} V m c main_arg2) ∗ (((c : Thread nD τ).loc main_arg3) ↦{fullShare} V m c main_arg3)
          ∗ (((c : Thread nD τ).loc main_arg4) ↦{fullShare} V m c main_arg4) ∗ (((c : Thread nD τ).loc main_arg5) ↦{fullShare} V m c main_arg5)
          ∗ (((c : Thread nD τ).loc main_arg6) ↦{fullShare} V m c main_arg6) ∗ (((c : Thread nD τ).loc main_call0_v0) ↦{fullShare} V m c main_call0_v0)
          ∗ (((c : Thread nD τ).loc main_v0) ↦{fullShare} V m c main_v0)) := by
  unfold Dat.arrays
  rw [bigSep_W0]
  beta_reduce
  rw [arr_pt c 0, arr_pt c 1, arr_pt c 2, arr_pt c 3, arr_pt c 4, arr_pt c 5, arr_pt c 6, arr_pt c 7, arr_pt c 8,
    arr_pt c 9, arr_pt c 10]
  rfl

/-- The buffers behind the arrays, each whole at the region-entry contents, are the proof data's arrays at entry: the
    adjacency's points-to split among its three windows. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_list, arrays_entry]
  exact deal3 _ _ _ _ _ _ (share3 _ _ _ _ _ _ _ (PosShare.mem_left_op_right fullShare) (PosShare.mem_left_op_right fullShare.right))

end Cert.Kernel.Hand

end
-- ==== Proof.K.Launch.lean ====
/-
  The launch of the graph-convolution kernel: from any memory with zero counters every weakly fair execution of @main
  terminates without a fault, every array a window stages ends at what the write-backs of the sixteen steps make of
  its entry contents, and every other unscoped buffer ends as the region found it.

  The adjacency array is read through three windows. Its whole-buffer points-to is split in two, and the right half
  in two again; each window holds one part for the run, which is enough to fetch from the array.
-/
import proofs.«141574_g37280316129400_cont_sun_m_331_21_alg».proof.Proof.K.Split

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H; isplitr; · iempintro
      iexact H)
    (hin := fun c => by
      rw [scopedRest_scM, show (dats m 0 c).Φ 0 = iprop(∃ d, owns (c : Thread nD τ) scM fullShare d) from rfl]
      iintro ⟨-, H⟩; iexact H)
    (hout := fun c => by
      rw [scopedRest_scM, show (dats m 0 c).Φ (Fin.last cfg0.N) = owns (c : Thread nD τ) scM fullShare (sup0 m c) from rfl]
      iintro H; isplitr; · iempintro
      iexists _; iexact H)
    (QY := fun c s => ∀ b ∈ Pipeline.restRefs sig spec0, s.mem ((c : Thread nD τ).loc b) = V m c b)
    (hY := fun c s' => by
      iintro ⟨-, HU, HSI⟩
      unfold Pipeline.unscopedRest
      imodintro
      iapply (pointsTo_read_all (Pipeline.restRefs sig spec0) (fun b => (c : Thread nD τ).loc b) (V m c) s')
      isplitl [HU] <;> iassumption)
    (hQ := fun s h => h)

/-- An input window's array ends at its launch contents: no write-back touches it, the region found it as launched. -/
theorem kept_in (r : PUnit × MemSt nD τ sig (Elt F)) (h : Pipeline.FramePost cfgs (dats m) 0 (V m) r) (c : Dev nD) (w : Fin cfg0.W)
    (hw : (cfg0.win w).isOut = false) (hb : Pipeline.arrRef spec0 w ≠ main_call0_v0) :
    r.2.mem ((c : Thread nD τ).loc (Pipeline.arrRef spec0 w)) = m ((c : Thread nD τ).loc (Pipeline.arrRef spec0 w)) :=
  ((h c).1 w).trans (((dats m 0 c).arrAt_in w hw _).trans ((A_eq m c w).trans (V_arg m c _ hb)))

/-- The classifier bias vector is no window's array (the kernel stages its reshaped copy): it bypasses the region. -/
theorem kept_bias (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 rfl (by decide))).trans (V_arg m c main_arg7 (by decide))

/-- THE FRAME, at any float instance: @main runs to the end without a fault and its eight arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨kept_in m r h c 0 rfl (by decide), kept_in m r h c 1 rfl (by decide), kept_in m r h c 4 rfl (by decide),
    kept_in m r h c 5 rfl (by decide), kept_in m r h c 6 rfl (by decide), kept_in m r h c 7 rfl (by decide), kept_in m r h c 8 rfl (by decide),
    kept_bias m r h c⟩) (run_main m ρ)

/-- The run with the result array named: after the sixteen write-backs. -/
theorem run_out : θ_run defs (onTc (τ := τ) (main (F := F))) ⟨m, fun _ => 0, ρ⟩ (fun r => ∀ c : Dev nD,
      r.2.mem ((c.tc : Thread nD τ).loc main_v0) = (dats m 0 c).arrAt 10 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1 10, kept_in m r h c 0 rfl (by decide), kept_in m r h c 1 rfl (by decide), kept_in m r h c 4 rfl (by decide),
    kept_in m r h c 5 rfl (by decide), kept_in m r h c 6 rfl (by decide), kept_in m r h c 7 rfl (by decide), kept_in m r h c 8 rfl (by decide),
    kept_bias m r h c⟩) (run_main m ρ)

end Cert.Kernel.Hand

end
-- ==== Proof.KIBlock.lean ====
/-
  What one grid step stores into its 256 × 27 output tile, as ONE term of the values the step loads: the classifier
  bias row, the three adjacency tiles, the three support matrices, and each modality's biases and weights. The term
  is the composition of the step's four arithmetic stretches: bias plus modality 0's band, plus modality 1's band,
  modality 2's hidden tile, and modality 2's band.
-/
import proofs.«141574_g37280316129400_cont_sun_m_331_21_alg».proof.Proof.Gen.KernelIdeal.Skeleton

noncomputable section

namespace Cert.KernelIdeal.Hand

open Idealize.ShloMosaic Cert.KernelIdeal Cert.KernelIdeal.Gen

variable {F : FTy → Type} [FloatOps F]

/-- The tile a grid step stores, from what it loads. -/
def blockOut (bc : Vec F S1x27 .f32) (a0 a1 a2 : Vec F S1x256x4096 .f32) (s0 s1 s2 : Vec F S1x4096x16 .f32)
    (bg0 bg1 bg2 : Vec F S1x16 .f32) (wm0 wm1 wm2 : Vec F S1x16x9 .f32) (bm0 bm1 bm2 : Vec F S1x9 .f32)
    (wc0 wc1 wc2 : Vec F S9x27 .f32) : FVec F S256x27 .f32 :=
  k0_pay1 (k0_pay6 (k0_pay5 bc a0 s0 bg0 wm0 bm0 wc0) a1 s1 bg1 wm1 bm1 wc1) (k0_pay7 a2 s2) bg2 wm2 bm2 wc2

end Cert.KernelIdeal.Hand

end
-- ==== Proof.KI.Base.lean ====
/-
  What the frame and value proofs of the graph-convolution kernel share: the arrays as the kernel region finds them
  (the one host operation before it reshapes the classifier bias into a one-row matrix and touches no argument), each
  window's block at a grid step, the branch condition of the step (the support matrices are computed at step 0 only),
  and the names of the staging memrefs a step is called with.
-/
import proofs.«141574_g37280316129400_cont_sun_m_331_21_alg».proof.Proof.Gen.KernelIdeal.Launch
import proofs.«141574_g37280316129400_cont_sun_m_331_21_alg».proof.Proof.Gen.KernelIdeal.Skeleton
import proofs.«141574_g37280316129400_cont_sun_m_331_21_alg».proof.Proof.Gen.KernelIdeal.Points
import proofs.«141574_g37280316129400_cont_sun_m_331_21_alg».proof.Proof.KIBlock
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry -/

/-- Core `c`'s buffers when the region is entered: after the reshape of the classifier bias. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the reshape, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes no argument array: the region finds argument `b` as launched. -/
theorem V_arg (c : Dev nD) (b : Ref sig .tc) (hb : b ≠ main_call0_v0) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

/-! ## The windows' blocks -/

/-- Window `w`'s block at step `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The step's branch -/

/-- The condition under which a step computes the support matrices: the step index is zero. -/
abbrev cond0 (i : grid0.Coords) : Prop := (Scalar.cmpi .ne (Scalar.extui (Scalar.cmpi .eq (BitVec.ofNat 32 (i 0).val) 0#32)) 0#32) = 1#1
/-- It holds at the first step only. -/
theorem hcond0 : ∀ t : Fin cfg0.N, cond0 (grid0.coords t) ↔ t.val = 0 :=
  (by decide +kernel : ∀ t : Fin grid0.N, cond0 (grid0.coords t) ↔ t.val = 0)

/-! ## The memrefs a step is called with -/

abbrev ms0 (t : Fin cfg0.N) : Memref sig .tc .vmem S3x4096x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x256x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x256x4096 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256x4096 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S3x128x16 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S3x16 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S3x16x9 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S3x9 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S27x27 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x27 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S256x27 .f32 := win0_10.stage (cfg0.slots t 10)
abbrev hs10 (t : Fin cfg0.N) : (ms10 t).IsWhole := hstage0_10 ((cfg0.slots t 10).cast nbuf0_10)
/-- The support scratch: a whole buffer of the kernel's own, kept from step to step. -/
abbrev scM : Memref sig .tc .vmem S3x4096x16 .f32 := Memref.whole cc0_scratch0
/-- One staging buffer of the output window, through which a tile's contents are stated. -/
abbrev VO : View sig .tc .vmem S256x27 .f32 := (Memref.whole cc0_stg10_0 : Memref sig .tc .vmem S256x27 .f32).view
/-- The scratch as a view. -/
abbrev VS : View sig .tc .vmem S3x4096x16 .f32 := scM.view

/-- The kernel's one scoped buffer that is no staging buffer is the support scratch, owned at some contents. -/
theorem scopedRest_scM (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

end Cert.KernelIdeal.Hand

end
-- ==== Proof.KI.RunB.lean ====
/-
  One grid step after the first, on any whole staging memrefs: the step reads its ten input windows and the support
  scratch, writes nothing but its output tile, and hands the scratch back as it found it. What the tile's buffer
  ends with is recorded as the list of pieces the step's stores wrote.
-/
import proofs.«141574_g37280316129400_cont_sun_m_331_21_alg».proof.Proof.KI.Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces a later step's stores leave in the output tile's buffer, with the proof that from the inputs at their
    contents, the tile's buffer at anything and the scratch at contents `xs`, the step runs to the continuation
    holding the inputs and the scratch as they were and the tile's buffer with those pieces written. -/
noncomputable def stepLater (c : Dev nD) (i : grid0.Coords) (arg1 : Memref sig .tc .vmem S3x4096x128 .f32) (harg1 : arg1.IsWhole) (arg2 : Memref sig .tc .vmem S1x256x4096 .f32) (harg2 : arg2.IsWhole) (arg3 : Memref sig .tc .vmem S1x256x4096 .f32) (harg3 : arg3.IsWhole) (arg4 : Memref sig .tc .vmem S1x256x4096 .f32) (harg4 : arg4.IsWhole) (arg5 : Memref sig .tc .vmem S3x128x16 .f32) (harg5 : arg5.IsWhole) (arg6 : Memref sig .tc .vmem S3x16 .f32) (harg6 : arg6.IsWhole) (arg7 : Memref sig .tc .vmem S3x16x9 .f32) (harg7 : arg7.IsWhole) (arg8 : Memref sig .tc .vmem S3x9 .f32) (harg8 : arg8.IsWhole) (arg9 : Memref sig .tc .vmem S27x27 .f32) (harg9 : arg9.IsWhole) (arg10 : Memref sig .tc .vmem S1x27 .f32) (harg10 : arg10.IsWhole) (arg11 : Memref sig .tc .vmem S256x27 .f32) (harg11 : arg11.IsWhole) (arg12 : Memref sig .tc .vmem S3x4096x16 .f32) (harg12 : arg12.IsWhole) (hc : ¬cond0 i)
    (x1 : Vec F S3x4096x128 .f32) (x2 x3 x4 : Vec F S1x256x4096 .f32) (x5 : Vec F S3x128x16 .f32) (x6 : Vec F S3x16 .f32) (x7 : Vec F S3x16x9 .f32) (x8 : Vec F S3x9 .f32) (x9 : Vec F S27x27 .f32) (x10 : Vec F S1x27 .f32) (xs : Vec F S3x4096x16 .f32) :
    { L : List (View.Piece (Elt F) S256x27 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ owns (c : Thread nD τ) arg12 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ f, arg11.view.loc (c : Thread nD τ) ↦[arg11.view.set]{fullShare} arg11.view.writes (Elt F) f L) ∗ owns (c : Thread nD τ) arg12 fullShare xs) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__body_eq_skeleton]; unfold cc0__body_skel
    simp only [k0_part1_eq_skeleton, k0_part2_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%fs, %hfs, HS⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    obtain rfl := harg7.eq_unread hf7; obtain rfl := harg8.eq_unread hf8; obtain rfl := harg9.eq_unread hf9
    obtain rfl := harg10.eq_unread hf10; obtain rfl := harg12.eq_unread hfs
    sl_exec (disch := exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; iexact H11
    iexists _; isplitr; · ipureintro; exact harg12.read_unread _
    iexact HS

end Cert.KernelIdeal.Hand

end
-- ==== Proof.KI.RunA.lean ====
/-
  The first grid step, on any whole staging memrefs: the step fills the three slices of the support scratch (one
  product per modality), then computes its output tile from the scratch it has just filled. What the scratch and
  the tile's buffer end with is recorded as the lists of pieces the step's stores wrote.
-/
import proofs.«141574_g37280316129400_cont_sun_m_331_21_alg».proof.Proof.KI.RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the first step's stores leave in the output tile's buffer and in the support scratch, with the proof
    that from the inputs at their contents and the tile's buffer and the scratch at anything, the step runs to the
    continuation holding the inputs as they were and the two buffers with those pieces written. -/
noncomputable def stepFirst (c : Dev nD) (i : grid0.Coords) (arg1 : Memref sig .tc .vmem S3x4096x128 .f32) (harg1 : arg1.IsWhole) (arg2 : Memref sig .tc .vmem S1x256x4096 .f32) (harg2 : arg2.IsWhole) (arg3 : Memref sig .tc .vmem S1x256x4096 .f32) (harg3 : arg3.IsWhole) (arg4 : Memref sig .tc .vmem S1x256x4096 .f32) (harg4 : arg4.IsWhole) (arg5 : Memref sig .tc .vmem S3x128x16 .f32) (harg5 : arg5.IsWhole) (arg6 : Memref sig .tc .vmem S3x16 .f32) (harg6 : arg6.IsWhole) (arg7 : Memref sig .tc .vmem S3x16x9 .f32) (harg7 : arg7.IsWhole) (arg8 : Memref sig .tc .vmem S3x9 .f32) (harg8 : arg8.IsWhole) (arg9 : Memref sig .tc .vmem S27x27 .f32) (harg9 : arg9.IsWhole) (arg10 : Memref sig .tc .vmem S1x27 .f32) (harg10 : arg10.IsWhole) (arg11 : Memref sig .tc .vmem S256x27 .f32) (harg11 : arg11.IsWhole) (arg12 : Memref sig .tc .vmem S3x4096x16 .f32) (harg12 : arg12.IsWhole) (hc : cond0 i)
    (x1 : Vec F S3x4096x128 .f32) (x2 x3 x4 : Vec F S1x256x4096 .f32) (x5 : Vec F S3x128x16 .f32) (x6 : Vec F S3x16 .f32) (x7 : Vec F S3x16x9 .f32) (x8 : Vec F S3x9 .f32) (x9 : Vec F S27x27 .f32) (x10 : Vec F S1x27 .f32) :
    Σ' (L : List (View.Piece (Elt F) S256x27 .f32)), { LS : List (View.Piece (Elt F) S3x4096x16 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ f, arg11.view.loc (c : Thread nD τ) ↦[arg11.view.set]{fullShare} arg11.view.writes (Elt F) f L) ∗ (∃ f, arg12.view.loc (c : Thread nD τ) ↦[arg12.view.set]{fullShare} arg12.view.writes (Elt F) f LS)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__body_eq_skeleton]; unfold cc0__body_skel
    simp only [k0_part1_eq_skeleton, k0_part2_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%ds, %fs, -, HS⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    obtain rfl := harg7.eq_unread hf7; obtain rfl := harg8.eq_unread hf8; obtain rfl := harg9.eq_unread hf9
    obtain rfl := harg10.eq_unread hf10
    sl_exec (disch := exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; iexact H11
    iexists _; iexact HS

end Cert.KernelIdeal.Hand

end
-- ==== Proof.KI.Frame.lean ====
/-
  The graph-convolution kernel's run, step by step.

  After the first grid step the support scratch holds the three products x_i · Wgc_i, and no later step writes it;
  every step leaves in its output tile's buffer what its stores wrote, a function of the step's input blocks and of
  the scratch. These two facts are the proof data of the pipeline: the invariant between steps is the scratch at the
  first step's contents, and the output array after the run is the sixteen tiles written back in order.
  The adjacency array is handed to the kernel three times (one window per modality); its points-to is split into
  three shares, one per window, when the region is entered.
-/
import proofs.«141574_g37280316129400_cont_sun_m_331_21_alg».proof.Proof.KI.RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a step leaves -/

/-- A later step's pieces for the output tile cover it. -/
theorem coverLater (c : Dev nD) (i : grid0.Coords) (arg1 : Memref sig .tc .vmem S3x4096x128 .f32) (harg1 : arg1.IsWhole) (arg2 : Memref sig .tc .vmem S1x256x4096 .f32) (harg2 : arg2.IsWhole) (arg3 : Memref sig .tc .vmem S1x256x4096 .f32) (harg3 : arg3.IsWhole) (arg4 : Memref sig .tc .vmem S1x256x4096 .f32) (harg4 : arg4.IsWhole) (arg5 : Memref sig .tc .vmem S3x128x16 .f32) (harg5 : arg5.IsWhole) (arg6 : Memref sig .tc .vmem S3x16 .f32) (harg6 : arg6.IsWhole) (arg7 : Memref sig .tc .vmem S3x16x9 .f32) (harg7 : arg7.IsWhole) (arg8 : Memref sig .tc .vmem S3x9 .f32) (harg8 : arg8.IsWhole) (arg9 : Memref sig .tc .vmem S27x27 .f32) (harg9 : arg9.IsWhole) (arg10 : Memref sig .tc .vmem S1x27 .f32) (harg10 : arg10.IsWhole) (arg11 : Memref sig .tc .vmem S256x27 .f32) (harg11 : arg11.IsWhole) (arg12 : Memref sig .tc .vmem S3x4096x16 .f32) (harg12 : arg12.IsWhole) (hc : ¬cond0 i)
    (x1 : Vec F S3x4096x128 .f32) (x2 x3 x4 : Vec F S1x256x4096 .f32) (x5 : Vec F S3x128x16 .f32) (x6 : Vec F S3x16 .f32) (x7 : Vec F S3x16x9 .f32) (x8 : Vec F S3x9 .f32) (x9 : Vec F S27x27 .f32) (x10 : Vec F S1x27 .f32) (xs : Vec F S3x4096x16 .f32) (y : S256x27.Idx) :
    ∃ pc ∈ (stepLater c i arg1 harg1 arg2 harg2 arg3 harg3 arg4 harg4 arg5 harg5 arg6 harg6 arg7 harg7 arg8 harg8 arg9 harg9 arg10 harg10 arg11 harg11 arg12 harg12 hc x1 x2 x3 x4 x5 x6 x7 x8 x9 x10 xs).1, y ∈ pc.1.set :=
  View.cover_of_tiledL (stepLater c i arg1 harg1 arg2 harg2 arg3 harg3 arg4 harg4 arg5 harg5 arg6 harg6 arg7 harg7 arg8 harg8 arg9 harg9 arg10 harg10 arg11 harg11 arg12 harg12 hc x1 x2 x3 x4 x5 x6 x7 x8 x9 x10 xs).1 S256x27.size (by sl_kernel_rfl) y

/-- What a later step leaves in the output tile's buffer. -/
def tileLater (c : Dev nD) (i : grid0.Coords) (arg1 : Memref sig .tc .vmem S3x4096x128 .f32) (harg1 : arg1.IsWhole) (arg2 : Memref sig .tc .vmem S1x256x4096 .f32) (harg2 : arg2.IsWhole) (arg3 : Memref sig .tc .vmem S1x256x4096 .f32) (harg3 : arg3.IsWhole) (arg4 : Memref sig .tc .vmem S1x256x4096 .f32) (harg4 : arg4.IsWhole) (arg5 : Memref sig .tc .vmem S3x128x16 .f32) (harg5 : arg5.IsWhole) (arg6 : Memref sig .tc .vmem S3x16 .f32) (harg6 : arg6.IsWhole) (arg7 : Memref sig .tc .vmem S3x16x9 .f32) (harg7 : arg7.IsWhole) (arg8 : Memref sig .tc .vmem S3x9 .f32) (harg8 : arg8.IsWhole) (arg9 : Memref sig .tc .vmem S27x27 .f32) (harg9 : arg9.IsWhole) (arg10 : Memref sig .tc .vmem S1x27 .f32) (harg10 : arg10.IsWhole) (arg11 : Memref sig .tc .vmem S256x27 .f32) (harg11 : arg11.IsWhole) (arg12 : Memref sig .tc .vmem S3x4096x16 .f32) (harg12 : arg12.IsWhole) (hc : ¬cond0 i)
    (x1 : Vec F S3x4096x128 .f32) (x2 x3 x4 : Vec F S1x256x4096 .f32) (x5 : Vec F S3x128x16 .f32) (x6 : Vec F S3x16 .f32) (x7 : Vec F S3x16x9 .f32) (x8 : Vec F S3x9 .f32) (x9 : Vec F S27x27 .f32) (x10 : Vec F S1x27 .f32) (xs : Vec F S3x4096x16 .f32) : Vec F S256x27 .f32 :=
  VO.read (Elt F) (VO.writes (Elt F) VO.junk (stepLater c i arg1 harg1 arg2 harg2 arg3 harg3 arg4 harg4 arg5 harg5 arg6 harg6 arg7 harg7 arg8 harg8 arg9 harg9 arg10 harg10 arg11 harg11 arg12 harg12 hc x1 x2 x3 x4 x5 x6 x7 x8 x9 x10 xs).1)

/-- The first step's pieces for the output tile cover it. -/
theorem coverFirst (c : Dev nD) (i : grid0.Coords) (arg1 : Memref sig .tc .vmem S3x4096x128 .f32) (harg1 : arg1.IsWhole) (arg2 : Memref sig .tc .vmem S1x256x4096 .f32) (harg2 : arg2.IsWhole) (arg3 : Memref sig .tc .vmem S1x256x4096 .f32) (harg3 : arg3.IsWhole) (arg4 : Memref sig .tc .vmem S1x256x4096 .f32) (harg4 : arg4.IsWhole) (arg5 : Memref sig .tc .vmem S3x128x16 .f32) (harg5 : arg5.IsWhole) (arg6 : Memref sig .tc .vmem S3x16 .f32) (harg6 : arg6.IsWhole) (arg7 : Memref sig .tc .vmem S3x16x9 .f32) (harg7 : arg7.IsWhole) (arg8 : Memref sig .tc .vmem S3x9 .f32) (harg8 : arg8.IsWhole) (arg9 : Memref sig .tc .vmem S27x27 .f32) (harg9 : arg9.IsWhole) (arg10 : Memref sig .tc .vmem S1x27 .f32) (harg10 : arg10.IsWhole) (arg11 : Memref sig .tc .vmem S256x27 .f32) (harg11 : arg11.IsWhole) (arg12 : Memref sig .tc .vmem S3x4096x16 .f32) (harg12 : arg12.IsWhole) (hc : cond0 i)
    (x1 : Vec F S3x4096x128 .f32) (x2 x3 x4 : Vec F S1x256x4096 .f32) (x5 : Vec F S3x128x16 .f32) (x6 : Vec F S3x16 .f32) (x7 : Vec F S3x16x9 .f32) (x8 : Vec F S3x9 .f32) (x9 : Vec F S27x27 .f32) (x10 : Vec F S1x27 .f32) (y : S256x27.Idx) :
    ∃ pc ∈ (stepFirst c i arg1 harg1 arg2 harg2 arg3 harg3 arg4 harg4 arg5 harg5 arg6 harg6 arg7 harg7 arg8 harg8 arg9 harg9 arg10 harg10 arg11 harg11 arg12 harg12 hc x1 x2 x3 x4 x5 x6 x7 x8 x9 x10).1, y ∈ pc.1.set :=
  View.cover_of_tiledL (stepFirst c i arg1 harg1 arg2 harg2 arg3 harg3 arg4 harg4 arg5 harg5 arg6 harg6 arg7 harg7 arg8 harg8 arg9 harg9 arg10 harg10 arg11 harg11 arg12 harg12 hc x1 x2 x3 x4 x5 x6 x7 x8 x9 x10).1 S256x27.size (by sl_kernel_rfl) y

/-- What the first step leaves in the output tile's buffer. -/
def tileFirst (c : Dev nD) (i : grid0.Coords) (arg1 : Memref sig .tc .vmem S3x4096x128 .f32) (harg1 : arg1.IsWhole) (arg2 : Memref sig .tc .vmem S1x256x4096 .f32) (harg2 : arg2.IsWhole) (arg3 : Memref sig .tc .vmem S1x256x4096 .f32) (harg3 : arg3.IsWhole) (arg4 : Memref sig .tc .vmem S1x256x4096 .f32) (harg4 : arg4.IsWhole) (arg5 : Memref sig .tc .vmem S3x128x16 .f32) (harg5 : arg5.IsWhole) (arg6 : Memref sig .tc .vmem S3x16 .f32) (harg6 : arg6.IsWhole) (arg7 : Memref sig .tc .vmem S3x16x9 .f32) (harg7 : arg7.IsWhole) (arg8 : Memref sig .tc .vmem S3x9 .f32) (harg8 : arg8.IsWhole) (arg9 : Memref sig .tc .vmem S27x27 .f32) (harg9 : arg9.IsWhole) (arg10 : Memref sig .tc .vmem S1x27 .f32) (harg10 : arg10.IsWhole) (arg11 : Memref sig .tc .vmem S256x27 .f32) (harg11 : arg11.IsWhole) (arg12 : Memref sig .tc .vmem S3x4096x16 .f32) (harg12 : arg12.IsWhole) (hc : cond0 i)
    (x1 : Vec F S3x4096x128 .f32) (x2 x3 x4 : Vec F S1x256x4096 .f32) (x5 : Vec F S3x128x16 .f32) (x6 : Vec F S3x16 .f32) (x7 : Vec F S3x16x9 .f32) (x8 : Vec F S3x9 .f32) (x9 : Vec F S27x27 .f32) (x10 : Vec F S1x27 .f32) : Vec F S256x27 .f32 :=
  VO.read (Elt F) (VO.writes (Elt F) VO.junk (stepFirst c i arg1 harg1 arg2 harg2 arg3 harg3 arg4 harg4 arg5 harg5 arg6 harg6 arg7 harg7 arg8 harg8 arg9 harg9 arg10 harg10 arg11 harg11 arg12 harg12 hc x1 x2 x3 x4 x5 x6 x7 x8 x9 x10).1)

/-- The first step's pieces for the support scratch (one slice per modality) cover it. -/
theorem scoverFirst (c : Dev nD) (i : grid0.Coords) (arg1 : Memref sig .tc .vmem S3x4096x128 .f32) (harg1 : arg1.IsWhole) (arg2 : Memref sig .tc .vmem S1x256x4096 .f32) (harg2 : arg2.IsWhole) (arg3 : Memref sig .tc .vmem S1x256x4096 .f32) (harg3 : arg3.IsWhole) (arg4 : Memref sig .tc .vmem S1x256x4096 .f32) (harg4 : arg4.IsWhole) (arg5 : Memref sig .tc .vmem S3x128x16 .f32) (harg5 : arg5.IsWhole) (arg6 : Memref sig .tc .vmem S3x16 .f32) (harg6 : arg6.IsWhole) (arg7 : Memref sig .tc .vmem S3x16x9 .f32) (harg7 : arg7.IsWhole) (arg8 : Memref sig .tc .vmem S3x9 .f32) (harg8 : arg8.IsWhole) (arg9 : Memref sig .tc .vmem S27x27 .f32) (harg9 : arg9.IsWhole) (arg10 : Memref sig .tc .vmem S1x27 .f32) (harg10 : arg10.IsWhole) (arg11 : Memref sig .tc .vmem S256x27 .f32) (harg11 : arg11.IsWhole) (arg12 : Memref sig .tc .vmem S3x4096x16 .f32) (harg12 : arg12.IsWhole) (hc : cond0 i)
    (x1 : Vec F S3x4096x128 .f32) (x2 x3 x4 : Vec F S1x256x4096 .f32) (x5 : Vec F S3x128x16 .f32) (x6 : Vec F S3x16 .f32) (x7 : Vec F S3x16x9 .f32) (x8 : Vec F S3x9 .f32) (x9 : Vec F S27x27 .f32) (x10 : Vec F S1x27 .f32) (y : S3x4096x16.Idx) :
    ∃ pc ∈ (stepFirst c i arg1 harg1 arg2 harg2 arg3 harg3 arg4 harg4 arg5 harg5 arg6 harg6 arg7 harg7 arg8 harg8 arg9 harg9 arg10 harg10 arg11 harg11 arg12 harg12 hc x1 x2 x3 x4 x5 x6 x7 x8 x9 x10).2.1, y ∈ pc.1.set :=
  View.cover_of_tiledL (stepFirst c i arg1 harg1 arg2 harg2 arg3 harg3 arg4 harg4 arg5 harg5 arg6 harg6 arg7 harg7 arg8 harg8 arg9 harg9 arg10 harg10 arg11 harg11 arg12 harg12 hc x1 x2 x3 x4 x5 x6 x7 x8 x9 x10).2.1 S1x4096x16.size (by sl_kernel_rfl) y

/-- What the first step leaves in the support scratch. -/
def supFirst (c : Dev nD) (i : grid0.Coords) (arg1 : Memref sig .tc .vmem S3x4096x128 .f32) (harg1 : arg1.IsWhole) (arg2 : Memref sig .tc .vmem S1x256x4096 .f32) (harg2 : arg2.IsWhole) (arg3 : Memref sig .tc .vmem S1x256x4096 .f32) (harg3 : arg3.IsWhole) (arg4 : Memref sig .tc .vmem S1x256x4096 .f32) (harg4 : arg4.IsWhole) (arg5 : Memref sig .tc .vmem S3x128x16 .f32) (harg5 : arg5.IsWhole) (arg6 : Memref sig .tc .vmem S3x16 .f32) (harg6 : arg6.IsWhole) (arg7 : Memref sig .tc .vmem S3x16x9 .f32) (harg7 : arg7.IsWhole) (arg8 : Memref sig .tc .vmem S3x9 .f32) (harg8 : arg8.IsWhole) (arg9 : Memref sig .tc .vmem S27x27 .f32) (harg9 : arg9.IsWhole) (arg10 : Memref sig .tc .vmem S1x27 .f32) (harg10 : arg10.IsWhole) (arg11 : Memref sig .tc .vmem S256x27 .f32) (harg11 : arg11.IsWhole) (arg12 : Memref sig .tc .vmem S3x4096x16 .f32) (harg12 : arg12.IsWhole) (hc : cond0 i)
    (x1 : Vec F S3x4096x128 .f32) (x2 x3 x4 : Vec F S1x256x4096 .f32) (x5 : Vec F S3x128x16 .f32) (x6 : Vec F S3x16 .f32) (x7 : Vec F S3x16x9 .f32) (x8 : Vec F S3x9 .f32) (x9 : Vec F S27x27 .f32) (x10 : Vec F S1x27 .f32) : Vec F S3x4096x16 .f32 :=
  VS.read (Elt F) (VS.writes (Elt F) VS.junk (stepFirst c i arg1 harg1 arg2 harg2 arg3 harg3 arg4 harg4 arg5 harg5 arg6 harg6 arg7 harg7 arg8 harg8 arg9 harg9 arg10 harg10 arg11 harg11 arg12 harg12 hc x1 x2 x3 x4 x5 x6 x7 x8 x9 x10).2.1)

/-! ## Step by step -/

/-- The support scratch after the first step, on core `c`. -/
def sup0 (c : Dev nD) : Vec F S3x4096x16 .f32 :=
  supFirst c (grid0.coords t0_0) (ms0 t0_0) (hs0 t0_0) (ms1 t0_0) (hs1 t0_0) (ms2 t0_0) (hs2 t0_0) (ms3 t0_0) (hs3 t0_0) (ms4 t0_0) (hs4 t0_0) (ms5 t0_0) (hs5 t0_0) (ms6 t0_0) (hs6 t0_0) (ms7 t0_0) (hs7 t0_0) (ms8 t0_0) (hs8 t0_0) (ms9 t0_0) (hs9 t0_0) (ms10 t0_0) (hs10 t0_0) scM (Memref.isWhole_whole _) ((hcond0 t0_0).mpr rfl) (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0)

/-- The output tile's buffer after step `t`. -/
def tile (c : Dev nD) (t : Fin cfg0.N) : Vec F S256x27 .f32 :=
  if h : t.val = 0 then
    tileFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scM (Memref.isWhole_whole _) ((hcond0 t).mpr h) (iblk m c 0 t) (iblk m c 1 t) (iblk m c 2 t) (iblk m c 3 t) (iblk m c 4 t) (iblk m c 5 t) (iblk m c 6 t) (iblk m c 7 t) (iblk m c 8 t) (iblk m c 9 t)
  else
    tileLater c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scM (Memref.isWhole_whole _) (fun hc => h ((hcond0 t).mp hc)) (iblk m c 0 t) (iblk m c 1 t) (iblk m c 2 t) (iblk m c 3 t) (iblk m c 4 t) (iblk m c 5 t) (iblk m c 6 t) (iblk m c 7 t) (iblk m c 8 t) (iblk m c 9 t) (sup0 m c)

/-- Between steps: before the first, the scratch at anything; afterwards at the first step's contents. -/
def PhiS (c : Dev nD) : ℕ → sProp 𝕄
  | 0 => iprop(∃ d, owns (c : Thread nD τ) scM fullShare d)
  | _ + 1 => owns (c : Thread nD τ) scM fullShare (sup0 m c)

theorem PhiS_pos (c : Dev nD) (n : ℕ) (hz : n ≠ 0) : PhiS m c n = owns (c : Thread nD τ) scM fullShare (sup0 m c) := by
  cases n with
  | zero => exact absurd rfl hz
  | succ n => rfl

/-! ## The pipeline's proof data -/

/-- The proof data on core `c`: the arrays as the region finds them; each input window's buffer at its block, the
    output's at `tile`; the scratch invariant; the adjacency's share split among its three windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => tile m c t
  Φ t := PhiS m c t.val
  q w := match w with
    | ⟨0, _⟩ => fullShare
    | ⟨1, _⟩ => fullShare.left
    | ⟨2, _⟩ => fullShare.right.left
    | ⟨3, _⟩ => fullShare.right.right
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = tile m c t := by dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem before_9 (c : Dev nD) (t : Fin cfg0.N) (d) : (dats m 0 c).before 9 t d = iblk m c 9 t :=
  ((dats m 0 c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 4800000 in
/-- The body at any step: the inputs' buffers hold their blocks; at the first step the scratch is filled, at a later
    one it is found filled and handed back; the tile's buffer ends at `tile`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).owesAt () t.succ = (dats m 0 c).owesAt () t.castSucc from rfl]
  rw [show (dats m 0 c).Φ t.succ = owns (c : Thread nD τ) scM fullShare (sup0 m c) from rfl]
  rw [show (dats m 0 c).Φ t.castSucc = PhiS m c t.val from by dsimp only [dats]; simp only [Fin.coe_castSucc]]
  rw [show (dats m 0 c).leavesExact 0 t = owns (c : Thread nD τ) (ms0 t) fullShare ((dats m 0 c).after 0 t) from rfl, after_0]
  rw [show (dats m 0 c).leavesExact 1 t = owns (c : Thread nD τ) (ms1 t) fullShare ((dats m 0 c).after 1 t) from rfl, after_1]
  rw [show (dats m 0 c).leavesExact 2 t = owns (c : Thread nD τ) (ms2 t) fullShare ((dats m 0 c).after 2 t) from rfl, after_2]
  rw [show (dats m 0 c).leavesExact 3 t = owns (c : Thread nD τ) (ms3 t) fullShare ((dats m 0 c).after 3 t) from rfl, after_3]
  rw [show (dats m 0 c).leavesExact 4 t = owns (c : Thread nD τ) (ms4 t) fullShare ((dats m 0 c).after 4 t) from rfl, after_4]
  rw [show (dats m 0 c).leavesExact 5 t = owns (c : Thread nD τ) (ms5 t) fullShare ((dats m 0 c).after 5 t) from rfl, after_5]
  rw [show (dats m 0 c).leavesExact 6 t = owns (c : Thread nD τ) (ms6 t) fullShare ((dats m 0 c).after 6 t) from rfl, after_6]
  rw [show (dats m 0 c).leavesExact 7 t = owns (c : Thread nD τ) (ms7 t) fullShare ((dats m 0 c).after 7 t) from rfl, after_7]
  rw [show (dats m 0 c).leavesExact 8 t = owns (c : Thread nD τ) (ms8 t) fullShare ((dats m 0 c).after 8 t) from rfl, after_8]
  rw [show (dats m 0 c).leavesExact 9 t = owns (c : Thread nD τ) (ms9 t) fullShare ((dats m 0 c).after 9 t) from rfl, after_9]
  rw [show (dats m 0 c).leavesExact 10 t = owns (c : Thread nD τ) (ms10 t) fullShare ((dats m 0 c).after 10 t) from rfl, after_10]
  by_cases hz : t.val = 0
  · obtain rfl : t = t0_0 := Fin.ext hz
    rw [show PhiS m c (t0_0 : Fin cfg0.N).val = iprop(∃ d, owns (c : Thread nD τ) scM fullShare d) from rfl]
    rw [show tile m c t0_0 = tileFirst c (grid0.coords t0_0) (ms0 t0_0) (hs0 t0_0) (ms1 t0_0) (hs1 t0_0) (ms2 t0_0) (hs2 t0_0) (ms3 t0_0) (hs3 t0_0) (ms4 t0_0) (hs4 t0_0) (ms5 t0_0) (hs5 t0_0) (ms6 t0_0) (hs6 t0_0) (ms7 t0_0) (hs7 t0_0) (ms8 t0_0) (hs8 t0_0) (ms9 t0_0) (hs9 t0_0) (ms10 t0_0) (hs10 t0_0) scM (Memref.isWhole_whole _) ((hcond0 t0_0).mpr rfl) (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) from dif_pos rfl]
    unfold tileFirst sup0 supFirst
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((stepFirst c (grid0.coords t0_0) (ms0 t0_0) (hs0 t0_0) (ms1 t0_0) (hs1 t0_0) (ms2 t0_0) (hs2 t0_0) (ms3 t0_0) (hs3 t0_0) (ms4 t0_0) (hs4 t0_0) (ms5 t0_0) (hs5 t0_0) (ms6 t0_0) (hs6 t0_0) (ms7 t0_0) (hs7 t0_0) (ms8 t0_0) (hs8 t0_0) (ms9 t0_0) (hs9 t0_0) (ms10 t0_0) (hs10 t0_0) scM (Memref.isWhole_whole _) ((hcond0 t0_0).mpr rfl) (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [HS]; · iexact HS
    iintro ⟨H0, H1, H2, H3, H4, H5, H6, H7, H8, H9, ⟨%e10, H10⟩, ⟨%es, HS⟩⟩
    isplitl [HS]
    · unfold owns; iexists _; isplitr
      swap; · iexact HS
      ipureintro; exact View.read_writes_of_cover _ _ _ _ _ (scoverFirst c _ _ _ _ _ _ _ _ _ _ _ _ _ _ _ _ _ _ _ _ _ _ _ _ _ _ _ _ _ _ _ _ _ _ _ _ )
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    unfold owns; iexists _; isplitr
    swap; · iexact H10
    ipureintro; exact View.read_writes_of_cover _ _ _ _ _ (coverFirst c _ _ _ _ _ _ _ _ _ _ _ _ _ _ _ _ _ _ _ _ _ _ _ _ _ _ _ _ _ _ _ _ _ _ _ _ )
  · rw [PhiS_pos m c _ hz]
    rw [show tile m c t = tileLater c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scM (Memref.isWhole_whole _) (fun hc => hz ((hcond0 t).mp hc)) (iblk m c 0 t) (iblk m c 1 t) (iblk m c 2 t) (iblk m c 3 t) (iblk m c 4 t) (iblk m c 5 t) (iblk m c 6 t) (iblk m c 7 t) (iblk m c 8 t) (iblk m c 9 t) (sup0 m c) from dif_neg hz]
    unfold tileLater
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((stepLater c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scM (Memref.isWhole_whole _) (fun hc => hz ((hcond0 t).mp hc)) (iblk m c 0 t) (iblk m c 1 t) (iblk m c 2 t) (iblk m c 3 t) (iblk m c 4 t) (iblk m c 5 t) (iblk m c 6 t) (iblk m c 7 t) (iblk m c 8 t) (iblk m c 9 t) (sup0 m c)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [HS]; · iexact HS
    iintro ⟨H0, H1, H2, H3, H4, H5, H6, H7, H8, H9, ⟨%e10, H10⟩, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    unfold owns; iexists _; isplitr
    swap; · iexact H10
    ipureintro; exact View.read_writes_of_cover _ _ _ _ _ (coverLater c _ _ _ _ _ _ _ _ _ _ _ _ _ _ _ _ _ _ _ _ _ _ _ _ _ _ _ _ _ _ _ _ _ _ _ _ _)

/-- The library's body obligation, at every step. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Split.lean ====
/-
  How the adjacency array, handed to the kernel through three windows, is dealt among them at the region's entry.
  The launch holds each distinct array's buffer whole; the proof data hold one points-to per window. For the adjacency
  the whole points-to is split in two and its right half in two again, one part per window: reading through a part is
  all a fetch needs, and no window writes the adjacency.
-/
import proofs.«141574_g37280316129400_cont_sun_m_331_21_alg».proof.Proof.KI.Frame
import Idealize.ShloMosaic.Lib.Pipeline.Launch

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the eleven windows' arrays, one by one. -/
theorem arrBufs_list (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_arg1) ↦{fullShare} W main_arg1)
          ∗ (((c : Thread nD τ).loc main_arg2) ↦{fullShare} W main_arg2) ∗ (((c : Thread nD τ).loc main_arg3) ↦{fullShare} W main_arg3)
          ∗ (((c : Thread nD τ).loc main_arg4) ↦{fullShare} W main_arg4) ∗ (((c : Thread nD τ).loc main_arg5) ↦{fullShare} W main_arg5)
          ∗ (((c : Thread nD τ).loc main_arg6) ↦{fullShare} W main_arg6) ∗ (((c : Thread nD τ).loc main_call0_v0) ↦{fullShare} W main_call0_v0)
          ∗ (((c : Thread nD τ).loc main_v0) ↦{fullShare} W main_v0)) := by
  unfold Pipeline.arrBufs
  exact bigSep_eq_bigSepL_of_eq [main_arg0, main_arg1, main_arg2, main_arg3, main_arg4, main_arg5, main_arg6, main_call0_v0, main_v0]
    (by decide) (by decide) _

/-- A window's array is a whole buffer: its points-to over the array's element set is the buffer's. -/
theorem arr_pt (c : Dev nD) (w : Fin cfg0.W) (q : PosShare TreeShare) (f : Buf (Elt F) ((cfg0.win w).arr.view.loc (c : Thread nD τ))) :
    (((cfg0.win w).arr.view.loc (c : Thread nD τ)) ↦[(cfg0.win w).arr.view.set]{q} f : sProp 𝕄)
      = (((c : Thread nD τ).loc (Pipeline.arrRef spec0 w)) ↦{q} f) := by
  rw [(arr_whole0 w).set_eq_univ]

/-- At entry every array holds the region-entry contents. -/
theorem arrAt_zero (c : Dev nD) (w : Fin cfg0.W) : (dats m 0 c).arrAt w 0 = V m c (Pipeline.arrRef spec0 w) := rfl

/-- The share each window holds of its array: the adjacency's three windows a third part each (a half and two
    quarters), every other window its whole array. -/
theorem share_0 (c : Dev nD) : (dats m 0 c).share 0 = fullShare := rfl
theorem share_1 (c : Dev nD) : (dats m 0 c).share 1 = fullShare.left := rfl
theorem share_2 (c : Dev nD) : (dats m 0 c).share 2 = fullShare.right.left := rfl
theorem share_3 (c : Dev nD) : (dats m 0 c).share 3 = fullShare.right.right := rfl
theorem share_4 (c : Dev nD) : (dats m 0 c).share 4 = fullShare := rfl
theorem share_5 (c : Dev nD) : (dats m 0 c).share 5 = fullShare := rfl
theorem share_6 (c : Dev nD) : (dats m 0 c).share 6 = fullShare := rfl
theorem share_7 (c : Dev nD) : (dats m 0 c).share 7 = fullShare := rfl
theorem share_8 (c : Dev nD) : (dats m 0 c).share 8 = fullShare := rfl
theorem share_9 (c : Dev nD) : (dats m 0 c).share 9 = fullShare := rfl
theorem share_10 (c : Dev nD) : (dats m 0 c).share 10 = fullShare := rfl

/-- Three conjuncts in place of the middle one of three. -/
theorem deal3 {M : Type _} [URA M] (A B B1 B2 B3 C : sProp M) (h : B ⊢ iprop(B1 ∗ B2 ∗ B3)) :
    iprop(A ∗ B ∗ C) ⊢ iprop(A ∗ B1 ∗ B2 ∗ B3 ∗ C) := by
  iintro ⟨HA, HB, HC⟩
  ihave HB' := h $$ HB
  icases HB' with ⟨H1, H2, H3⟩
  isplitl [HA]; · iexact HA
  isplitl [H1]; · iexact H1
  isplitl [H2]; · iexact H2
  isplitl [H3]; · iexact H3
  iexact HC

/-- A points-to at a share that is the composite of `qa` and `qr`, itself the composite of `qb` and `qc`, is three
    points-tos at the three parts. -/
theorem share3 (ℓ : Loc nD τ sig) (f : Buf (Elt F) ℓ) (q qa qr qb qc : PosShare TreeShare) (h1 : q ∈ PCS.op qa qr) (h2 : qr ∈ PCS.op qb qc) :
    (ℓ ↦{q} f : sProp 𝕄) ⊢ iprop((ℓ ↦{qa} f) ∗ (ℓ ↦{qb} f) ∗ (ℓ ↦{qc} f)) := by
  iintro H
  ihave H' := (pointsTo_share h1).1 $$ H
  icases H' with ⟨Ha, Hr⟩
  ihave H'' := (pointsTo_share h2).1 $$ Hr
  icases H'' with ⟨Hb, Hc⟩
  isplitl [Ha]; · iexact Ha
  isplitl [Hb]; · iexact Hb
  iexact Hc

set_option maxHeartbeats 2000000 in
/-- The proof data's arrays at entry, window by window. -/
theorem arrays_entry (c : Dev nD) :
    ((dats m 0 c).arrays ((dats m 0 c).arrAt · 0) : sProp 𝕄)
      = iprop((((c : Thread nD τ).loc main_arg0) ↦{fullShare} V m c main_arg0)
          ∗ (((c : Thread nD τ).loc main_arg1) ↦{fullShare.left} V m c main_arg1)
          ∗ (((c : Thread nD τ).loc main_arg1) ↦{fullShare.right.left} V m c main_arg1)
          ∗ (((c : Thread nD τ).loc main_arg1) ↦{fullShare.right.right} V m c main_arg1)
          ∗ (((c : Thread nD τ).loc main_arg2) ↦{fullShare} V m c main_arg2) ∗ (((c : Thread nD τ).loc main_arg3) ↦{fullShare} V m c main_arg3)
          ∗ (((c : Thread nD τ).loc main_arg4) ↦{fullShare} V m c main_arg4) ∗ (((c : Thread nD τ).loc main_arg5) ↦{fullShare} V m c main_arg5)
          ∗ (((c : Thread nD τ).loc main_arg6) ↦{fullShare} V m c main_arg6) ∗ (((c : Thread nD τ).loc main_call0_v0) ↦{fullShare} V m c main_call0_v0)
          ∗ (((c : Thread nD τ).loc main_v0) ↦{fullShare} V m c main_v0)) := by
  unfold Dat.arrays
  rw [bigSep_W0]
  beta_reduce
  rw [arr_pt c 0, arr_pt c 1, arr_pt c 2, arr_pt c 3, arr_pt c 4, arr_pt c 5, arr_pt c 6, arr_pt c 7, arr_pt c 8,
    arr_pt c 9, arr_pt c 10]
  rfl

/-- The buffers behind the arrays, each whole at the region-entry contents, are the proof data's arrays at entry: the
    adjacency's points-to split among its three windows. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_list, arrays_entry]
  exact deal3 _ _ _ _ _ _ (share3 _ _ _ _ _ _ _ (PosShare.mem_left_op_right fullShare) (PosShare.mem_left_op_right fullShare.right))

end Cert.KernelIdeal.Hand

end
-- ==== Proof.KI.Launch.lean ====
/-
  The launch of the graph-convolution kernel: from any memory with zero counters every weakly fair execution of @main
  terminates without a fault, every array a window stages ends at what the write-backs of the sixteen steps make of
  its entry contents, and every other unscoped buffer ends as the region found it.

  The adjacency array is read through three windows. Its whole-buffer points-to is split in two, and the right half
  in two again; each window holds one part for the run, which is enough to fetch from the array.
-/
import proofs.«141574_g37280316129400_cont_sun_m_331_21_alg».proof.Proof.KI.Split

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H; isplitr; · iempintro
      iexact H)
    (hin := fun c => by
      rw [scopedRest_scM, show (dats m 0 c).Φ 0 = iprop(∃ d, owns (c : Thread nD τ) scM fullShare d) from rfl]
      iintro ⟨-, H⟩; iexact H)
    (hout := fun c => by
      rw [scopedRest_scM, show (dats m 0 c).Φ (Fin.last cfg0.N) = owns (c : Thread nD τ) scM fullShare (sup0 m c) from rfl]
      iintro H; isplitr; · iempintro
      iexists _; iexact H)
    (QY := fun c s => ∀ b ∈ Pipeline.restRefs sig spec0, s.mem ((c : Thread nD τ).loc b) = V m c b)
    (hY := fun c s' => by
      iintro ⟨-, HU, HSI⟩
      unfold Pipeline.unscopedRest
      imodintro
      iapply (pointsTo_read_all (Pipeline.restRefs sig spec0) (fun b => (c : Thread nD τ).loc b) (V m c) s')
      isplitl [HU] <;> iassumption)
    (hQ := fun s h => h)

/-- An input window's array ends at its launch contents: no write-back touches it, the region found it as launched. -/
theorem kept_in (r : PUnit × MemSt nD τ sig (Elt F)) (h : Pipeline.FramePost cfgs (dats m) 0 (V m) r) (c : Dev nD) (w : Fin cfg0.W)
    (hw : (cfg0.win w).isOut = false) (hb : Pipeline.arrRef spec0 w ≠ main_call0_v0) :
    r.2.mem ((c : Thread nD τ).loc (Pipeline.arrRef spec0 w)) = m ((c : Thread nD τ).loc (Pipeline.arrRef spec0 w)) :=
  ((h c).1 w).trans (((dats m 0 c).arrAt_in w hw _).trans ((A_eq m c w).trans (V_arg m c _ hb)))

/-- The classifier bias vector is no window's array (the kernel stages its reshaped copy): it bypasses the region. -/
theorem kept_bias (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 rfl (by decide))).trans (V_arg m c main_arg7 (by decide))

/-- THE FRAME, at any float instance: @main runs to the end without a fault and its eight arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨kept_in m r h c 0 rfl (by decide), kept_in m r h c 1 rfl (by decide), kept_in m r h c 4 rfl (by decide),
    kept_in m r h c 5 rfl (by decide), kept_in m r h c 6 rfl (by decide), kept_in m r h c 7 rfl (by decide), kept_in m r h c 8 rfl (by decide),
    kept_bias m r h c⟩) (run_main m ρ)

/-- The run with the result array named: after the sixteen write-backs. -/
theorem run_out : θ_run defs (onTc (τ := τ) (main (F := F))) ⟨m, fun _ => 0, ρ⟩ (fun r => ∀ c : Dev nD,
      r.2.mem ((c.tc : Thread nD τ).loc main_v0) = (dats m 0 c).arrAt 10 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1 10, kept_in m r h c 0 rfl (by decide), kept_in m r h c 1 rfl (by decide), kept_in m r h c 4 rfl (by decide),
    kept_in m r h c 5 rfl (by decide), kept_in m r h c 6 rfl (by decide), kept_in m r h c 7 rfl (by decide), kept_in m r h c 8 rfl (by decide),
    kept_bias m r h c⟩) (run_main m ρ)

end Cert.KernelIdeal.Hand

end
-- ==== Proof.KI.Cover.lean ====
/-
  From the sixteen tiles to the output array. The output window's block at step t is rows 256 t … 256 t + 255 of the
  4096 × 27 output, all 27 columns, and every step writes its tile back. So if the tile of step t, entry (r, j), is
  entry (256 t + r, j) of one array G, then what step t writes back is block t of G; and row R of the output lies in
  the block of step R / 256, so the blocks cover the output and it ends holding G.
-/
import proofs.«141574_g37280316129400_cont_sun_m_331_21_alg».proof.Proof.KI.Frame
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

/-! ## The output window's index map over the grid -/

/-- The output window's block index at step t is (t, 0). -/
theorem idx_out : ∀ t : Fin cfg0.N, win0_10.index t (0 : Fin 2) = t.val ∧ win0_10.index t (1 : Fin 2) = 0 :=
  (by decide +kernel : ∀ t : Fin grid0.N, _)

/-! ## What a step writes back -/

/-- If every tile is its rows of one array, step t writes back block t of that array. -/
theorem flushed_out_eq (c : Dev nD) (G : S4096x27.Idx → Elt F .f32)
    (hG : ∀ (t : Fin cfg0.N) (r : Fin 256) (j : Fin 27) (R : Fin 4096), R.val = 256 * t.val + r.val →
      tile m c t (ix2 r j) = G (ix2 R j))
    (t : Fin cfg0.N) : (dats m 0 c).flushed 10 t = ((cfg0.win 10).blk t).view.read (Elt F) G := by
  show (cfg0.win 10).cut (grid0.coords t) ((dats m 0 c).after 10 t) = _
  rw [after_10]
  funext y
  show tile m c t ((cfg0.win 10).xinj (grid0.coords t) y) = G (((cfg0.win 10).blk t).view.emb y)
  have hy0 : (y 0).val < 256 := (y 0).isLt
  have hy1 : (y 1).val < 27 := (y 1).isLt
  obtain ⟨e0, e1⟩ := idx_out t
  have hN : cfg0.N = 16 := N_0
  have ht : t.val < 16 := by have := t.isLt; omega
  have hx : (cfg0.win 10).xinj (grid0.coords t) y = ix2 (⟨(y 0).val, hy0⟩ : Fin 256) (⟨(y 1).val, hy1⟩ : Fin 27) :=
    funext fun a => Fin.ext (by
      match a with
      | ⟨0, _⟩ => rfl
      | ⟨1, _⟩ => rfl)
  have he : ((cfg0.win 10).blk t).view.emb y
      = ix2 (⟨256 * t.val + (y 0).val, by omega⟩ : Fin 4096) (⟨(y 1).val, hy1⟩ : Fin 27) :=
    funext fun a => Fin.ext (by
      match a with
      | ⟨0, _⟩ => show win0_10.index t (0 : Fin 2) * 256 + 1 * (y 0).val = 256 * t.val + (y 0).val; omega
      | ⟨1, _⟩ => show win0_10.index t (1 : Fin 2) * 27 + 1 * (y 1).val = (y 1).val; omega)
  exact (congrArg (tile m c t) hx).trans ((hG t _ _ _ rfl).trans (congrArg G he.symm))

/-! ## The blocks cover the output -/

/-- An index of the output is in step t's block iff each coordinate is in the block's range on its axis. -/
theorem mem_blk_out (t : Fin cfg0.N) (i : S4096x27.Idx) :
    i ∈ ((cfg0.win 10).blk t).view.set
      ↔ ∀ a : Fin 2, win0_10.index t a * S256x27.size a ≤ (i a).val ∧ (i a).val < win0_10.index t a * S256x27.size a + S256x27.size a := by
  show i ∈ ((View.whole main_v0).slice (win0_10.rect t)).set ↔ _
  rw [View.set_slice_whole, Rect.mem_set_unit]
  exact Iff.rfl

/-- Row R of the output is in the block of step R / 256, which is written back. -/
theorem covered_out (i : S4096x27.Idx) :
    ∃ t : Fin cfg0.N, (cfg0.win 10).flush t = true ∧ i ∈ ((cfg0.win 10).blk t).view.set := by
  have hN : cfg0.N = 16 := N_0
  have hi0 : (i 0).val < 4096 := (i 0).isLt
  have hi1 : (i 1).val < 27 := (i 1).isLt
  let t : Fin cfg0.N := ⟨(i 0).val / 256, by omega⟩
  have htv : t.val = (i 0).val / 256 := rfl
  obtain ⟨e0, e1⟩ := idx_out t
  refine ⟨t, flush0_10 t, ?_⟩
  rw [mem_blk_out]
  intro a
  match a with
  | ⟨0, _⟩ =>
    show win0_10.index t (0 : Fin 2) * 256 ≤ (i 0).val ∧ (i 0).val < win0_10.index t (0 : Fin 2) * 256 + 256
    omega
  | ⟨1, _⟩ =>
    show win0_10.index t (1 : Fin 2) * 27 ≤ (i 1).val ∧ (i 1).val < win0_10.index t (1 : Fin 2) * 27 + 27
    omega

/-! ## The output array after the run -/

/-- If every tile is its rows of one array, the output ends holding that array. -/
theorem out_final (c : Dev nD) (G : S4096x27.Idx → Elt F .f32)
    (hG : ∀ (t : Fin cfg0.N) (r : Fin 256) (j : Fin 27) (R : Fin 4096), R.val = 256 * t.val + r.val →
      tile m c t (ix2 r j) = G (ix2 R j)) :
    (dats m 0 c).arrAt 10 cfg0.N = G :=
  (dats m 0 c).arrAt_eq_of_cover 10 G (fun t _ => flushed_out_eq m c G hG t) covered_out

end Cert.KernelIdeal.Hand

end
-- ==== Proof.KI.Blocks.lean ====
/-
  Where each window's block sits in its array at a grid step. Seven windows stage the whole of their array at every
  step, so their block read at an index is the array at that index. The three adjacency windows stage, at step t,
  rows 256 t … 256 t + 255 of one modality's adjacency matrix: window 1 modality 0, window 2 modality 1, window 3
  modality 2. The array the bias window stages is the one the host operation before the region writes: the 27 bias
  entries laid out as one row.
-/
import proofs.«141574_g37280316129400_cont_sun_m_331_21_alg».proof.Proof.KI.Base
import Idealize.ShloMosaic.Lib.ValueIdx
import Idealize.ShloMosaic.Lib.ValueLayout
import Idealize.ShloMosaic.Lib.Pipeline.Value

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

/-! ## The index maps over the grid -/

/-- The whole-array windows' block index is zero on every axis at every step. -/
theorem idx_whole : ∀ t : Fin cfg0.N,
    (win0_0.index t (0 : Fin 3) = 0 ∧ win0_0.index t (1 : Fin 3) = 0 ∧ win0_0.index t (2 : Fin 3) = 0)
    ∧ (win0_4.index t (0 : Fin 3) = 0 ∧ win0_4.index t (1 : Fin 3) = 0 ∧ win0_4.index t (2 : Fin 3) = 0)
    ∧ (win0_5.index t (0 : Fin 2) = 0 ∧ win0_5.index t (1 : Fin 2) = 0)
    ∧ (win0_6.index t (0 : Fin 3) = 0 ∧ win0_6.index t (1 : Fin 3) = 0 ∧ win0_6.index t (2 : Fin 3) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0) :=
  (by decide +kernel : ∀ t : Fin grid0.N, _)

/-- The adjacency windows' block index at step t is (modality, t, 0). -/
theorem idx_adj : ∀ t : Fin cfg0.N,
    (win0_1.index t (0 : Fin 3) = 0 ∧ win0_1.index t (1 : Fin 3) = t.val ∧ win0_1.index t (2 : Fin 3) = 0)
    ∧ (win0_2.index t (0 : Fin 3) = 1 ∧ win0_2.index t (1 : Fin 3) = t.val ∧ win0_2.index t (2 : Fin 3) = 0)
    ∧ (win0_3.index t (0 : Fin 3) = 2 ∧ win0_3.index t (1 : Fin 3) = t.val ∧ win0_3.index t (2 : Fin 3) = 0) :=
  (by decide +kernel : ∀ t : Fin grid0.N, _)

/-! ## The whole-array windows -/

/-- Window 0 stages the whole feature array. -/
theorem iblk_whole0 (c : Dev nD) (t : Fin cfg0.N) (y : S3x4096x128.Idx) : iblk m c 0 t y = V m c main_arg0 y := by
  show V m c main_arg0 (((cfg0.win 0).blk t).view.emb y) = V m c main_arg0 y
  obtain ⟨⟨e0, e1, e2⟩, -⟩ := idx_whole t
  refine congrArg (V m c main_arg0) (funext fun a => Fin.ext ?_)
  match a with
  | ⟨0, _⟩ => show win0_0.index t (0 : Fin 3) * 3 + 1 * (y 0).val = (y 0).val; omega
  | ⟨1, _⟩ => show win0_0.index t (1 : Fin 3) * 4096 + 1 * (y 1).val = (y 1).val; omega
  | ⟨2, _⟩ => show win0_0.index t (2 : Fin 3) * 128 + 1 * (y 2).val = (y 2).val; omega

/-- Window 4 stages the whole graph-convolution weight array. -/
theorem iblk_whole4 (c : Dev nD) (t : Fin cfg0.N) (y : S3x128x16.Idx) : iblk m c 4 t y = V m c main_arg2 y := by
  show V m c main_arg2 (((cfg0.win 4).blk t).view.emb y) = V m c main_arg2 y
  obtain ⟨-, ⟨e0, e1, e2⟩, -⟩ := idx_whole t
  refine congrArg (V m c main_arg2) (funext fun a => Fin.ext ?_)
  match a with
  | ⟨0, _⟩ => show win0_4.index t (0 : Fin 3) * 3 + 1 * (y 0).val = (y 0).val; omega
  | ⟨1, _⟩ => show win0_4.index t (1 : Fin 3) * 128 + 1 * (y 1).val = (y 1).val; omega
  | ⟨2, _⟩ => show win0_4.index t (2 : Fin 3) * 16 + 1 * (y 2).val = (y 2).val; omega

/-- Window 5 stages the whole graph-convolution bias array. -/
theorem iblk_whole5 (c : Dev nD) (t : Fin cfg0.N) (y : S3x16.Idx) : iblk m c 5 t y = V m c main_arg3 y := by
  show V m c main_arg3 (((cfg0.win 5).blk t).view.emb y) = V m c main_arg3 y
  obtain ⟨-, -, ⟨e0, e1⟩, -⟩ := idx_whole t
  refine congrArg (V m c main_arg3) (funext fun a => Fin.ext ?_)
  match a with
  | ⟨0, _⟩ => show win0_5.index t (0 : Fin 2) * 3 + 1 * (y 0).val = (y 0).val; omega
  | ⟨1, _⟩ => show win0_5.index t (1 : Fin 2) * 16 + 1 * (y 1).val = (y 1).val; omega

/-- Window 6 stages the whole perceptron weight array. -/
theorem iblk_whole6 (c : Dev nD) (t : Fin cfg0.N) (y : S3x16x9.Idx) : iblk m c 6 t y = V m c main_arg4 y := by
  show V m c main_arg4 (((cfg0.win 6).blk t).view.emb y) = V m c main_arg4 y
  obtain ⟨-, -, -, ⟨e0, e1, e2⟩, -⟩ := idx_whole t
  refine congrArg (V m c main_arg4) (funext fun a => Fin.ext ?_)
  match a with
  | ⟨0, _⟩ => show win0_6.index t (0 : Fin 3) * 3 + 1 * (y 0).val = (y 0).val; omega
  | ⟨1, _⟩ => show win0_6.index t (1 : Fin 3) * 16 + 1 * (y 1).val = (y 1).val; omega
  | ⟨2, _⟩ => show win0_6.index t (2 : Fin 3) * 9 + 1 * (y 2).val = (y 2).val; omega

/-- Window 7 stages the whole perceptron bias array. -/
theorem iblk_whole7 (c : Dev nD) (t : Fin cfg0.N) (y : S3x9.Idx) : iblk m c 7 t y = V m c main_arg5 y := by
  show V m c main_arg5 (((cfg0.win 7).blk t).view.emb y) = V m c main_arg5 y
  obtain ⟨-, -, -, -, ⟨e0, e1⟩, -⟩ := idx_whole t
  refine congrArg (V m c main_arg5) (funext fun a => Fin.ext ?_)
  match a with
  | ⟨0, _⟩ => show win0_7.index t (0 : Fin 2) * 3 + 1 * (y 0).val = (y 0).val; omega
  | ⟨1, _⟩ => show win0_7.index t (1 : Fin 2) * 9 + 1 * (y 1).val = (y 1).val; omega

/-- Window 8 stages the whole classifier matrix. -/
theorem iblk_whole8 (c : Dev nD) (t : Fin cfg0.N) (y : S27x27.Idx) : iblk m c 8 t y = V m c main_arg6 y := by
  show V m c main_arg6 (((cfg0.win 8).blk t).view.emb y) = V m c main_arg6 y
  obtain ⟨-, -, -, -, -, ⟨e0, e1⟩, -⟩ := idx_whole t
  refine congrArg (V m c main_arg6) (funext fun a => Fin.ext ?_)
  match a with
  | ⟨0, _⟩ => show win0_8.index t (0 : Fin 2) * 27 + 1 * (y 0).val = (y 0).val; omega
  | ⟨1, _⟩ => show win0_8.index t (1 : Fin 2) * 27 + 1 * (y 1).val = (y 1).val; omega

/-- Window 9 stages the whole one-row classifier bias. -/
theorem iblk_whole9 (c : Dev nD) (t : Fin cfg0.N) (y : S1x27.Idx) : iblk m c 9 t y = V m c main_call0_v0 y := by
  show V m c main_call0_v0 (((cfg0.win 9).blk t).view.emb y) = V m c main_call0_v0 y
  obtain ⟨-, -, -, -, -, -, ⟨e0, e1⟩⟩ := idx_whole t
  refine congrArg (V m c main_call0_v0) (funext fun a => Fin.ext ?_)
  match a with
  | ⟨0, _⟩ => show win0_9.index t (0 : Fin 2) * 1 + 1 * (y 0).val = (y 0).val; omega
  | ⟨1, _⟩ => show win0_9.index t (1 : Fin 2) * 27 + 1 * (y 1).val = (y 1).val; omega

/-! ## The adjacency windows -/

/-- Window 1 at step t stages rows 256 t … of modality 0's adjacency matrix. -/
theorem iblk_adj1 (c : Dev nD) (t : Fin cfg0.N) (r : Fin 256) (n : Fin 4096) (R : Fin 4096) (hR : R.val = 256 * t.val + r.val) :
    iblk m c 1 t (ix3 (0 : Fin 1) r n) = V m c main_arg1 (ix3 (0 : Fin 3) R n) := by
  show V m c main_arg1 (((cfg0.win 1).blk t).view.emb (ix3 (0 : Fin 1) r n)) = V m c main_arg1 (ix3 (0 : Fin 3) R n)
  obtain ⟨⟨e0, e1, e2⟩, -⟩ := idx_adj t
  refine congrArg (V m c main_arg1) (funext fun a => Fin.ext ?_)
  match a with
  | ⟨0, _⟩ => show win0_1.index t (0 : Fin 3) * 1 + 1 * 0 = 0; omega
  | ⟨1, _⟩ => show win0_1.index t (1 : Fin 3) * 256 + 1 * r.val = R.val; omega
  | ⟨2, _⟩ => show win0_1.index t (2 : Fin 3) * 4096 + 1 * n.val = n.val; omega

/-- Window 2 at step t stages rows 256 t … of modality 1's adjacency matrix. -/
theorem iblk_adj2 (c : Dev nD) (t : Fin cfg0.N) (r : Fin 256) (n : Fin 4096) (R : Fin 4096) (hR : R.val = 256 * t.val + r.val) :
    iblk m c 2 t (ix3 (0 : Fin 1) r n) = V m c main_arg1 (ix3 (1 : Fin 3) R n) := by
  show V m c main_arg1 (((cfg0.win 2).blk t).view.emb (ix3 (0 : Fin 1) r n)) = V m c main_arg1 (ix3 (1 : Fin 3) R n)
  obtain ⟨-, ⟨e0, e1, e2⟩, -⟩ := idx_adj t
  refine congrArg (V m c main_arg1) (funext fun a => Fin.ext ?_)
  match a with
  | ⟨0, _⟩ => show win0_2.index t (0 : Fin 3) * 1 + 1 * 0 = 1; omega
  | ⟨1, _⟩ => show win0_2.index t (1 : Fin 3) * 256 + 1 * r.val = R.val; omega
  | ⟨2, _⟩ => show win0_2.index t (2 : Fin 3) * 4096 + 1 * n.val = n.val; omega

/-- Window 3 at step t stages rows 256 t … of modality 2's adjacency matrix. -/
theorem iblk_adj3 (c : Dev nD) (t : Fin cfg0.N) (r : Fin 256) (n : Fin 4096) (R : Fin 4096) (hR : R.val = 256 * t.val + r.val) :
    iblk m c 3 t (ix3 (0 : Fin 1) r n) = V m c main_arg1 (ix3 (2 : Fin 3) R n) := by
  show V m c main_arg1 (((cfg0.win 3).blk t).view.emb (ix3 (0 : Fin 1) r n)) = V m c main_arg1 (ix3 (2 : Fin 3) R n)
  obtain ⟨-, -, ⟨e0, e1, e2⟩⟩ := idx_adj t
  refine congrArg (V m c main_arg1) (funext fun a => Fin.ext ?_)
  match a with
  | ⟨0, _⟩ => show win0_3.index t (0 : Fin 3) * 1 + 1 * 0 = 2; omega
  | ⟨1, _⟩ => show win0_3.index t (1 : Fin 3) * 256 + 1 * r.val = R.val; omega
  | ⟨2, _⟩ => show win0_3.index t (2 : Fin 3) * 4096 + 1 * n.val = n.val; omega

/-! ## The bias row -/

/-- The array the bias window stages is the bias vector laid out as one row. -/
theorem V_bias (c : Dev nD) (j : Fin 27) :
    V m c main_call0_v0 (ix2 (0 : Fin 1) j) = m ((c : Thread nD τ).loc main_arg7) (ix1 j) := by
  have e : (V m c main_call0_v0 : S1x27.Idx → Elt F .f32)
      = shapeCast S1x27 (m ((c : Thread nD τ).loc main_arg7) : S27.Idx → Elt F .f32) shapeCasts_S27_S1x27 := by
    dsimp only [V, hostOps0]; after_results; rfl
  exact (congrFun e (ix2 (0 : Fin 1) j)).trans (shapeCast_a_1a_apply _ _ (0 : Fin 1) j)

end Cert.KernelIdeal.Hand

end
-- ==== Proof.Spec.lean ====
/-
  The graph-convolution head as one function of its eight argument arrays, on the extended reals.

  For each of three modalities i: a support matrix  sup i n h = ∑ k, x[i,n,k] · Wgc[i,k,h]  (4096 × 16);
  a hidden row  (∑ n, adj[i,r,n] · sup i n h) + bgc[i,h];  an activation row
  act i r j = tanh ((∑ h, hidden · Wmlp[i,h,j]) + bmlp[i,j])  (9 entries).  The result at (r, c) is
  bcls[c] plus, modality after modality, ∑ j, act i r j · Wcls[9 i + j, c].
  A row of the result depends on the adjacency only through row r of each modality, which is why a tile of
  256 rows can be computed from a tile of 256 adjacency rows.
-/
import Idealize.ShloMosaic.Lib.ValueIdx
import Idealize.ShloMosaic.PureOps.Ideal

noncomputable section

namespace Cert.Spec

open Idealize.ShloMosaic Idealize.ShloMosaic.ValueIdx

/-- One modality's activation row from ONE adjacency row `arow`, the modality's support matrix `s`, its
    graph-convolution bias `bg`, and its perceptron weights `wm` and bias `bm`. -/
def actRow (arow : Fin 4096 → EReal) (s : Fin 4096 → Fin 16 → EReal) (bg : Fin 16 → EReal)
    (wm : Fin 16 → Fin 9 → EReal) (bm : Fin 9 → EReal) (j : Fin 9) : EReal :=
  Ideal.tanh ((∑ h : Fin 16, ((∑ n : Fin 4096, arow n * s n h) + bg h) * wm h j) + bm j)

/-- One entry of the result from the classifier bias `b`, the three activation rows and the three 9-row bands of
    one classifier column. -/
def outRow (b : EReal) (t0 t1 t2 : Fin 9 → EReal) (w0 w1 w2 : Fin 9 → EReal) : EReal :=
  ((b + ∑ j : Fin 9, t0 j * w0 j) + ∑ j : Fin 9, t1 j * w1 j) + ∑ j : Fin 9, t2 j * w2 j

abbrev SX : Shape := ⟨3, ![3, 4096, 128]⟩
abbrev SA : Shape := ⟨3, ![3, 4096, 4096]⟩
abbrev SWg : Shape := ⟨3, ![3, 128, 16]⟩
abbrev SBg : Shape := ⟨2, ![3, 16]⟩
abbrev SWm : Shape := ⟨3, ![3, 16, 9]⟩
abbrev SBm : Shape := ⟨2, ![3, 9]⟩
abbrev SWc : Shape := ⟨2, ![27, 27]⟩
abbrev SBc : Shape := ⟨1, ![27]⟩
abbrev SO : Shape := ⟨2, ![4096, 27]⟩

/-- The support matrix of modality `i`. -/
def sup (x : SX.Idx → EReal) (wg : SWg.Idx → EReal) (i : Fin 3) (n : Fin 4096) (h : Fin 16) : EReal :=
  ∑ k : Fin 128, x (ix3 i n k) * wg (ix3 i k h)

/-- Row `9 i + j` of the classifier matrix. -/
def band (i : Fin 3) (j : Fin 9) : Fin 27 := ⟨9 * i.val + j.val, by have := i.isLt; have := j.isLt; omega⟩

/-- Modality `i`'s activation row at row `r` of the whole arrays. -/
def act (x : SX.Idx → EReal) (a : SA.Idx → EReal) (wg : SWg.Idx → EReal) (bg : SBg.Idx → EReal)
    (wm : SWm.Idx → EReal) (bm : SBm.Idx → EReal) (i : Fin 3) (r : Fin 4096) : Fin 9 → EReal :=
  actRow (fun n => a (ix3 i r n)) (sup x wg i) (fun h => bg (ix2 i h)) (fun h j => wm (ix3 i h j)) (fun j => bm (ix2 i j))

/-- The whole result, entry (r, c). -/
def G (x : SX.Idx → EReal) (a : SA.Idx → EReal) (wg : SWg.Idx → EReal) (bg : SBg.Idx → EReal)
    (wm : SWm.Idx → EReal) (bm : SBm.Idx → EReal) (wc : SWc.Idx → EReal) (bc : SBc.Idx → EReal)
    (r : Fin 4096) (c : Fin 27) : EReal :=
  outRow (bc (ix1 c)) (act x a wg bg wm bm 0 r) (act x a wg bg wm bm 1 r) (act x a wg bg wm bm 2 r)
    (fun j => wc (ix2 (band 0 j) c)) (fun j => wc (ix2 (band 1 j) c)) (fun j => wc (ix2 (band 2 j) c))

/-- The result as an array. -/
def Garr (x : SX.Idx → EReal) (a : SA.Idx → EReal) (wg : SWg.Idx → EReal) (bg : SBg.Idx → EReal)
    (wm : SWm.Idx → EReal) (bm : SBm.Idx → EReal) (wc : SWc.Idx → EReal) (bc : SBc.Idx → EReal) : SO.Idx → EReal :=
  fun i => G x a wg bg wm bm wc bc (i 0) (i 1)

end Cert.Spec

end
-- ==== Proof.LibDense.lean ====
/-
  One dense layer with ReLU, row by row.

  For a row `h` of `K` numbers, a `K × N` weight matrix `W` and a bias row `b`, the layer's entry `j` is
  `max (∑ k, h k · W k j + b j) 0` on the extended reals. A rows-by-columns matrix product (no batch axis, the left
  operand contracted on its columns, the right on its rows) read at (r, j) is `∑ k, lhs (r, k) · rhs (k, j)`, whether
  it is accumulated into a zero array or has no accumulator; adding a bias row laid along every row and taking the
  maximum with zero then gives the layer of row `r`. Nothing here depends on the number of rows, so a product over
  a tile of rows and a product over all rows read the same way.
-/
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws

noncomputable section

namespace Cert.LibDense

open Idealize.ShloMosaic Idealize.ShloMosaic.ValueIdx

/-- One dense layer followed by ReLU on one row: entry `j` is `max (∑ k, h k · W k j + b j) 0`. -/
def dense {K N : ℕ} (h : Fin K → EReal) (W : Fin K → Fin N → EReal) (b : Fin N → EReal) (j : Fin N) : EReal :=
  max (∑ k : Fin K, h k * W k j + b j) 0

/-- The layer depends on its input row only through the row's entries. -/
theorem dense_congr {K N : ℕ} {h h' : Fin K → EReal} (e : ∀ k, h k = h' k) (W : Fin K → Fin N → EReal) (b : Fin N → EReal)
    (j : Fin N) : dense h W b j = dense h' W b j := by
  rw [show h = h' from funext e]

section Plain

variable {M K N : ℕ}

/-- The rows-by-columns product's left operand index keeps the result's row. -/
theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from fun h => nomatch h),
    dif_pos (show (0 : Fin (⟨2, ![M, K]⟩ : Shape).rank) ∈ (DotDims.plain M K N).lhsNonContracting from List.mem_singleton.mpr rfl)]
  rfl

/-- Its column is the contraction position. -/
theorem plain_lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction position. -/
theorem plain_rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- Its column is the result's column. -/
theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from fun h => nomatch h),
    dif_pos (show (1 : Fin (⟨2, ![K, N]⟩ : Shape).rank) ∈ (DotDims.plain M K N).rhsNonContracting from List.mem_singleton.mpr rfl)]
  rfl

/-- The sum over the product's contraction index, re-indexed by the contracted coordinate `k : Fin K`, with the
    operands read at (r, k) and (k, j). -/
theorem plain_sum {φ₁ φ₂ : FTy} (lhs : FVec Ideal ⟨2, ![M, K]⟩ φ₁) (rhs : FVec Ideal ⟨2, ![K, N]⟩ φ₂) (r : Fin M) (j : Fin N) :
    (∑ q : (DotDims.plain M K N).contr.Idx,
        lhs ((DotDims.plain M K N).lhsIdx (ix2 r j) q) * rhs ((DotDims.plain M K N).rhsIdx (ix2 r j) q))
      = ∑ k : Fin K, lhs (ix2 r k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun a => Fin.ext (by
      match a with
      | ⟨0, _⟩ => exact plain_lhs_row _ _
      | ⟨1, _⟩ => exact (plain_lhs_col _ _).trans hk)
  have er : (DotDims.plain M K N).rhsIdx (ix2 r j) ((contrEquiv1 (DotDims.plain M K N) K rfl rfl).symm k) = ix2 k j :=
    funext fun a => Fin.ext (by
      match a with
      | ⟨0, _⟩ => exact (plain_rhs_row _ _).trans hk
      | ⟨1, _⟩ => exact plain_rhs_col _ _)
  rw [el, er]

/-- A rows-by-columns product accumulated into a zero array, read at (r, j). -/
theorem matmul_plain_zero_apply {φ₁ φ₂ : FTy} (prec : Option ContractPrecision) (lhs : FVec Ideal ⟨2, ![M, K]⟩ φ₁)
    (rhs : FVec Ideal ⟨2, ![K, N]⟩ φ₂) (r : Fin M) (j : Fin N) :
    FloatOps.matmul (DotDims.plain M K N) prec lhs rhs (constant ⟨2, ![M, N]⟩ .f32 0x00000000#32) (ix2 r j)
      = ∑ k : Fin K, lhs (ix2 r k) * rhs (ix2 k j) := by
  rw [Ideal.matmul_constant_zero_apply]
  exact plain_sum lhs rhs r j

/-- The host's rows-by-columns product, read at (r, j). -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (r : Fin M) (j : Fin N) :
    FloatOps.dotGeneral (DotDims.plain M K N) prec sched lhs rhs (ix2 r j) = ∑ k : Fin K, lhs (ix2 r k) * rhs (ix2 k j) := by
  rw [Ideal.dotGeneral_apply]
  exact plain_sum lhs rhs r j

end Plain

/-! ## The layer as a kernel and as a host program spell it -/

section Layers

variable {M K N : ℕ} {φ₁ φ₂ : FTy}

/-- A kernel's layer — the product into a zero accumulator, a one-row bias laid along every row, the maximum with a
    splat zero — read at (r, j), given the input's row `r`. The product's dimension numbers may be any record that
    IS the rows-by-columns one. -/
theorem kernel_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨2, ![1, N]⟩ .f32) (hb : (⟨2, ![1, N]⟩ : Shape).Broadcasts ⟨2, ![M, N]⟩) (r : Fin M) (j : Fin N)
    (row : Fin K → EReal) (hrow : ∀ k, h (ix2 r k) = row k) :
    maximumf (addf (matmul d prec h W (constant (F := Ideal) ⟨2, ![M, N]⟩ .f32 0x00000000#32)) (broadcastTo ⟨2, ![M, N]⟩ b hb))
        (broadcast ⟨2, ![M, N]⟩ (Scalar.ofBits (F := Ideal) .f32 0x00000000#32)) (ix2 r j)
      = dense row (fun k j => W (ix2 k j)) (fun j => b (ix2 (0 : Fin 1) j)) j := by
  subst hd
  show max (FloatOps.matmul (DotDims.plain M K N) prec h W (constant ⟨2, ![M, N]⟩ .f32 0x00000000#32) (ix2 r j)
      + broadcastTo ⟨2, ![M, N]⟩ b hb (ix2 r j)) (Ideal.ofBits .f32 0x00000000#32) = _
  rw [matmul_plain_zero_apply, broadcastTo_1b_ab_apply, Ideal.ofBits_zero_f32]
  unfold dense
  simp only [hrow]

/-- A host program's layer — the product, a bias vector laid along axis 1 of a one-row matrix and that row down the
    rows, the maximum with a broadcast zero — read at (e, j), given the input's row `e`. -/
theorem host_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (e : Fin M) (j : Fin N)
    (row : Fin K → EReal) (hrow : ∀ k, h (ix2 e k) = row k) :
    maximumf (addf (Host.dotGeneral d prec h W)
          (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)) (ix2 e j)
      = dense row (fun k j => W (ix2 k j)) (fun j => b (ix1 j)) j := by
  subst hd
  have e2 := broadcastInDim_oneRow_apply h2 (broadcastInDim ⟨2, ![1, N]⟩ ![1] h1 b) e j
  have e1 := broadcastInDim_apply ![1] h1 b (ix2 (0 : Fin 1) j) (ix1 j) (fun a => by
    match a with
    | ⟨0, _⟩ =>
      show j.val = if N = 1 then 0 else j.val
      split
      · have := j.isLt; omega
      · rfl)
  have e0 := broadcastInDim_apply ![] h0 (constant (F := Ideal) ⟨0, ![]⟩ .f32 0x00000000#32) (ix2 e j) (fun a => a.elim0)
    (fun a => a.elim0)
  show max (FloatOps.dotGeneral (DotDims.plain M K N) prec .single h W (ix2 e j)
      + broadcastInDim ⟨2, ![M, N]⟩ ![0, 1] h2 (broadcastInDim ⟨2, ![1, N]⟩ ![1] h1 b) (ix2 e j))
      (broadcastInDim ⟨2, ![M, N]⟩ ![] h0 (constant (F := Ideal) ⟨0, ![]⟩ .f32 0x00000000#32) (ix2 e j)) = _
  rw [dotGeneral_plain_apply, e2, e1, e0]
  show max _ (Ideal.ofBits .f32 0x00000000#32) = _
  rw [Ideal.ofBits_zero_f32]
  unfold dense
  simp only [hrow]

end Layers

end Cert.LibDense

end
-- ==== Proof.PayIdeal.lean ====
/-
  The arithmetic of one grid step on the extended reals, entry by entry.

  One step forms, for each of three modalities, the hidden tile  (A · S) + bg  from a tile A of 256 adjacency rows
  and the modality's support matrix S, then the activation tile  tanh (hidden · Wm + bm),  and adds the activation
  tile times a 9-row band of the classifier matrix to a running tile that starts as the classifier bias laid along
  every row. On the extended reals a number always equals itself, so replacing the entries that differ from
  themselves by zero changes nothing; zero plus a number is the number; and a matrix product accumulated into a zero
  tile is the plain sum of products. Entry (r, c) of the stored tile is therefore the closed form of the
  specification, with row r of each adjacency tile as the adjacency row.
-/
import proofs.«141574_g37280316129400_cont_sun_m_331_21_alg».proof.Proof.KIBlock
import proofs.«141574_g37280316129400_cont_sun_m_331_21_alg».proof.Proof.Spec
import proofs.«141574_g37280316129400_cont_sun_m_331_21_alg».proof.Proof.LibDense
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

namespace Cert.KernelIdeal.PayIdeal

open Idealize.ShloMosaic Idealize.ShloMosaic.ValueIdx Cert.KernelIdeal Cert.KernelIdeal.Gen

/-! ## The four products are rows-by-columns products -/

theorem dotX_eq : dot_S4096x128_S128x16_S4096x16_1_0_0_1_n_n = DotDims.plain 4096 128 16 := rfl
theorem dotA_eq : dot_S256x4096_S4096x16_S256x16_1_0_0_1_n_n = DotDims.plain 256 4096 16 := rfl
theorem dotM_eq : dot_S256x16_S16x9_S256x9_1_0_0_1_n_n = DotDims.plain 256 16 9 := rfl
theorem dotC_eq : dot_S256x9_S9x27_S256x27_1_0_0_1_n_n = DotDims.plain 256 9 27 := rfl

/-- A rows-by-columns product into a zero tile, read at (r, j), for any record that is the rows-by-columns one. -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision) (lhs : FVec Ideal ⟨2, ![M, K]⟩ φ₁)
    (rhs : FVec Ideal ⟨2, ![K, N]⟩ φ₂) (r : Fin M) (j : Fin N) :
    matmul d prec lhs rhs (constant (F := Ideal) ⟨2, ![M, N]⟩ .f32 0x00000000#32) (ix2 r j)
      = ∑ k : Fin K, lhs (ix2 r k) * rhs (ix2 k j) := by
  subst hd
  exact Cert.LibDense.matmul_plain_zero_apply prec lhs rhs r j

/-- An extended real never differs from itself, so the masked array is the array. -/
theorem mask_apply {s : Shape} (x : FVec Ideal s .f32) (i : s.Idx) :
    select (cmpf .one x x) (broadcast s (Scalar.ofBits (F := Ideal) .f32 0x00000000#32)) x i = x i := by
  show Scalar.select (Ideal.cmp .one (x i) (x i)) _ (x i) = x i
  have h0 : Ideal.cmp .one (x i) (x i) = 0#1 := by
    unfold Ideal.cmp
    simp
  rw [h0, select_zero]

/-! ## The hidden tile before its bias -/

/-- A masked tile of adjacency rows times the support matrix, at (r, h). -/
theorem pay7_apply (a : Vec Ideal S1x256x4096 .f32) (s : Vec Ideal S1x4096x16 .f32) (r : Fin 256) (h : Fin 16) :
    k0_pay7 (F := Ideal) a s (ix2 r h) = ∑ n : Fin 4096, a (ix3 0 r n) * s (ix3 0 n h) := by
  unfold k0_pay7
  refine (matmul_zero_apply _ dotA_eq none _ _ r h).trans ?_
  refine Finset.sum_congr rfl fun n _ => ?_
  rw [mask_apply, shapeCast_1ab_ab_apply, shapeCast_1ab_ab_apply]

/-! ## From a hidden tile to the running tile -/

/-- The last stretch: the hidden tile gets its bias row, goes through the perceptron and the hyperbolic tangent, and
    the activation tile times a band of the classifier matrix is added to the running tile. At (r, c). -/
theorem pay1_apply (acc : FVec Ideal S256x27 .f32) (hid : FVec Ideal S256x16 .f32) (bg : Vec Ideal S1x16 .f32)
    (wm : Vec Ideal S1x16x9 .f32) (bm : Vec Ideal S1x9 .f32) (wc : Vec Ideal S9x27 .f32) (r : Fin 256) (c : Fin 27) :
    k0_pay1 (F := Ideal) acc hid bg wm bm wc (ix2 r c)
      = acc (ix2 r c) + ∑ j : Fin 9,
          Ideal.tanh ((∑ h : Fin 16, (hid (ix2 r h) + bg (ix2 (0 : Fin 1) h)) * wm (ix3 (0 : Fin 1) h j)) + bm (ix2 (0 : Fin 1) j))
            * wc (ix2 j c) := by
  unfold k0_pay1
  rw [shapeCast_shapeCast, shapeCast_shapeCast, addf_apply]
  refine congrArg (acc (ix2 r c) + ·) ?_
  refine (matmul_zero_apply _ dotC_eq none _ _ r c).trans ?_
  refine Finset.sum_congr rfl fun j _ => ?_
  refine congrArg (· * wc (ix2 j c)) ?_
  show Ideal.tanh (_ + _) = _
  rw [broadcastTo_1b_ab_apply]
  refine congrArg (fun t => Ideal.tanh (t + bm (ix2 (0 : Fin 1) j))) ?_
  refine (matmul_zero_apply _ dotM_eq none _ _ r j).trans ?_
  refine Finset.sum_congr rfl fun h _ => ?_
  rw [addf_apply, broadcastTo_1b_ab_apply, shapeCast_1ab_ab_apply]

/-! ## The stretches of modalities 0 and 1 are the same two steps -/

/-- Modality 1's stretch is the hidden tile followed by the last stretch. -/
theorem pay6_eq (acc : FVec Ideal S256x27 .f32) (a : Vec Ideal S1x256x4096 .f32) (s : Vec Ideal S1x4096x16 .f32)
    (bg : Vec Ideal S1x16 .f32) (wm : Vec Ideal S1x16x9 .f32) (bm : Vec Ideal S1x9 .f32) (wc : Vec Ideal S9x27 .f32) :
    k0_pay6 (F := Ideal) acc a s bg wm bm wc = k0_pay1 (F := Ideal) acc (k0_pay7 (F := Ideal) a s) bg wm bm wc := rfl

/-- The running tile's first value: zero plus the classifier bias row laid along every row. -/
def acc0 (bc : Vec Ideal S1x27 .f32) : FVec Ideal S256x27 .f32 :=
  addf (broadcast S256x27 (Scalar.ofBits (F := Ideal) .f32 0x00000000#32))
    (broadcastTo S256x27 (shapeCast S1x27 (shapeCast S27 bc shapeCasts_S1x27_S27) shapeCasts_S27_S1x27) broadcasts_S1x27_S256x27)

/-- It is the bias row's entry. -/
theorem acc0_apply (bc : Vec Ideal S1x27 .f32) (r : Fin 256) (c : Fin 27) : acc0 bc (ix2 r c) = bc (ix2 (0 : Fin 1) c) := by
  unfold acc0
  rw [shapeCast_shapeCast, addf_apply, broadcast_apply, broadcastTo_1b_ab_apply]
  show Ideal.ofBits .f32 0x00000000#32 + _ = _
  rw [Ideal.ofBits_zero_f32, zero_add]

/-- Modality 0's stretch is the first value, the hidden tile and the last stretch. -/
theorem pay5_eq (bc : Vec Ideal S1x27 .f32) (a : Vec Ideal S1x256x4096 .f32) (s : Vec Ideal S1x4096x16 .f32)
    (bg : Vec Ideal S1x16 .f32) (wm : Vec Ideal S1x16x9 .f32) (bm : Vec Ideal S1x9 .f32) (wc : Vec Ideal S9x27 .f32) :
    k0_pay5 (F := Ideal) bc a s bg wm bm wc = k0_pay1 (F := Ideal) (acc0 bc) (k0_pay7 (F := Ideal) a s) bg wm bm wc := rfl

/-! ## One modality's band -/

/-- The hidden tile followed by the last stretch adds, at (r, c), the modality's activation row of adjacency row r
    times column c of the band. -/
theorem band_apply (acc : FVec Ideal S256x27 .f32) (a : Vec Ideal S1x256x4096 .f32) (s : Vec Ideal S1x4096x16 .f32)
    (bg : Vec Ideal S1x16 .f32) (wm : Vec Ideal S1x16x9 .f32) (bm : Vec Ideal S1x9 .f32) (wc : Vec Ideal S9x27 .f32)
    (r : Fin 256) (c : Fin 27) :
    k0_pay1 (F := Ideal) acc (k0_pay7 (F := Ideal) a s) bg wm bm wc (ix2 r c)
      = acc (ix2 r c) + ∑ j : Fin 9,
          Cert.Spec.actRow (fun n => a (ix3 (0 : Fin 1) r n)) (fun n h => s (ix3 (0 : Fin 1) n h)) (fun h => bg (ix2 (0 : Fin 1) h))
            (fun h j => wm (ix3 (0 : Fin 1) h j)) (fun j => bm (ix2 (0 : Fin 1) j)) j * wc (ix2 j c) := by
  rw [pay1_apply]
  simp only [pay7_apply]
  rfl

/-- Modality 0's stretch at (r, c). -/
theorem pay5_apply (bc : Vec Ideal S1x27 .f32) (a : Vec Ideal S1x256x4096 .f32) (s : Vec Ideal S1x4096x16 .f32)
    (bg : Vec Ideal S1x16 .f32) (wm : Vec Ideal S1x16x9 .f32) (bm : Vec Ideal S1x9 .f32) (wc : Vec Ideal S9x27 .f32)
    (r : Fin 256) (c : Fin 27) :
    k0_pay5 (F := Ideal) bc a s bg wm bm wc (ix2 r c)
      = bc (ix2 (0 : Fin 1) c) + ∑ j : Fin 9,
          Cert.Spec.actRow (fun n => a (ix3 (0 : Fin 1) r n)) (fun n h => s (ix3 (0 : Fin 1) n h)) (fun h => bg (ix2 (0 : Fin 1) h))
            (fun h j => wm (ix3 (0 : Fin 1) h j)) (fun j => bm (ix2 (0 : Fin 1) j)) j * wc (ix2 j c) := by
  rw [pay5_eq, band_apply, acc0_apply]

/-- Modality 1's stretch at (r, c). -/
theorem pay6_apply (acc : FVec Ideal S256x27 .f32) (a : Vec Ideal S1x256x4096 .f32) (s : Vec Ideal S1x4096x16 .f32)
    (bg : Vec Ideal S1x16 .f32) (wm : Vec Ideal S1x16x9 .f32) (bm : Vec Ideal S1x9 .f32) (wc : Vec Ideal S9x27 .f32)
    (r : Fin 256) (c : Fin 27) :
    k0_pay6 (F := Ideal) acc a s bg wm bm wc (ix2 r c)
      = acc (ix2 r c) + ∑ j : Fin 9,
          Cert.Spec.actRow (fun n => a (ix3 (0 : Fin 1) r n)) (fun n h => s (ix3 (0 : Fin 1) n h)) (fun h => bg (ix2 (0 : Fin 1) h))
            (fun h j => wm (ix3 (0 : Fin 1) h j)) (fun j => bm (ix2 (0 : Fin 1) j)) j * wc (ix2 j c) := by
  rw [pay6_eq, band_apply]

/-! ## The stored tile -/

/-- Entry (r, c) of the tile a grid step stores is the specification's entry, with row r of each adjacency tile as
    the adjacency row and each 9-row band of the classifier matrix as loaded. -/
theorem blockOut_apply (bc : Vec Ideal S1x27 .f32) (a0 a1 a2 : Vec Ideal S1x256x4096 .f32) (s0 s1 s2 : Vec Ideal S1x4096x16 .f32)
    (bg0 bg1 bg2 : Vec Ideal S1x16 .f32) (wm0 wm1 wm2 : Vec Ideal S1x16x9 .f32) (bm0 bm1 bm2 : Vec Ideal S1x9 .f32)
    (wc0 wc1 wc2 : Vec Ideal S9x27 .f32) (r : Fin 256) (c : Fin 27) :
    Cert.KernelIdeal.Hand.blockOut (F := Ideal) bc a0 a1 a2 s0 s1 s2 bg0 bg1 bg2 wm0 wm1 wm2 bm0 bm1 bm2 wc0 wc1 wc2 (ix2 r c)
      = Cert.Spec.outRow (bc (ix2 (0 : Fin 1) c))
          (Cert.Spec.actRow (fun n => a0 (ix3 (0 : Fin 1) r n)) (fun n h => s0 (ix3 (0 : Fin 1) n h)) (fun h => bg0 (ix2 (0 : Fin 1) h))
            (fun h j => wm0 (ix3 (0 : Fin 1) h j)) (fun j => bm0 (ix2 (0 : Fin 1) j)))
          (Cert.Spec.actRow (fun n => a1 (ix3 (0 : Fin 1) r n)) (fun n h => s1 (ix3 (0 : Fin 1) n h)) (fun h => bg1 (ix2 (0 : Fin 1) h))
            (fun h j => wm1 (ix3 (0 : Fin 1) h j)) (fun j => bm1 (ix2 (0 : Fin 1) j)))
          (Cert.Spec.actRow (fun n => a2 (ix3 (0 : Fin 1) r n)) (fun n h => s2 (ix3 (0 : Fin 1) n h)) (fun h => bg2 (ix2 (0 : Fin 1) h))
            (fun h j => wm2 (ix3 (0 : Fin 1) h j)) (fun j => bm2 (ix2 (0 : Fin 1) j)))
          (fun j => wc0 (ix2 j c)) (fun j => wc1 (ix2 j c)) (fun j => wc2 (ix2 j c)) := by
  unfold Cert.KernelIdeal.Hand.blockOut
  rw [band_apply, pay6_apply, pay5_apply]
  rfl

/-! ## The support matrices -/

/-- A modality's features times its graph-convolution weights, at (n, h). -/
theorem pay2_apply (v85 : Vec Ideal S1x4096x128 .f32) (v87 : Vec Ideal S1x128x16 .f32) (n : Fin 4096) (h : Fin 16) :
    k0_pay2 (F := Ideal) v85 v87 (ix3 (0 : Fin 1) n h) = ∑ k : Fin 128, v85 (ix3 (0 : Fin 1) n k) * v87 (ix3 (0 : Fin 1) k h) := by
  unfold k0_pay2
  rw [shapeCast_ab_1ab_apply]
  refine (matmul_zero_apply _ dotX_eq none _ _ n h).trans ?_
  refine Finset.sum_congr rfl fun k _ => ?_
  rw [shapeCast_1ab_ab_apply, shapeCast_1ab_ab_apply]

/-- The second modality's support matrix is the same term. -/
theorem pay3_eq (x : Vec Ideal S1x4096x128 .f32) (w : Vec Ideal S1x128x16 .f32) :
    k0_pay3 (F := Ideal) x w = k0_pay2 (F := Ideal) x w := rfl

/-- The third's too. -/
theorem pay4_eq (x : Vec Ideal S1x4096x128 .f32) (w : Vec Ideal S1x128x16 .f32) :
    k0_pay4 (F := Ideal) x w = k0_pay2 (F := Ideal) x w := rfl

theorem pay3_apply (v93 : Vec Ideal S1x4096x128 .f32) (v95 : Vec Ideal S1x128x16 .f32) (n : Fin 4096) (h : Fin 16) :
    k0_pay3 (F := Ideal) v93 v95 (ix3 (0 : Fin 1) n h) = ∑ k : Fin 128, v93 (ix3 (0 : Fin 1) n k) * v95 (ix3 (0 : Fin 1) k h) := by
  rw [pay3_eq, pay2_apply]

theorem pay4_apply (v101 : Vec Ideal S1x4096x128 .f32) (v103 : Vec Ideal S1x128x16 .f32) (n : Fin 4096) (h : Fin 16) :
    k0_pay4 (F := Ideal) v101 v103 (ix3 (0 : Fin 1) n h) = ∑ k : Fin 128, v101 (ix3 (0 : Fin 1) n k) * v103 (ix3 (0 : Fin 1) k h) := by
  rw [pay4_eq, pay2_apply]

end Cert.KernelIdeal.PayIdeal

end
-- ==== Proof.KI.Pieces.lean ====
/-
  What a grid step of the graph-convolution kernel leaves, entry by entry.

  A step's stores are recorded as pieces (a rectangle of the buffer and the payload written there). The output tile
  gets ONE piece covering it, whose payload is the step's arithmetic applied to loads of its windows; the first step
  also stores three slices into the support scratch, modality a's features times its weights in slice a, and reads
  each slice back for the tile (a read of a slice after the stores is the payload of the store into that slice, the
  slices being disjoint). A load of leading position o of a stacked array reads the array at o; a load of nine rows of
  the classifier matrix from row 9 a reads its band a. On the extended reals the tile's entry (r, j) is therefore the
  specification's entry built from row r of the three adjacency tiles, and the scratch's entry (a, n, h) is the
  specification's support matrix.
-/
import proofs.«141574_g37280316129400_cont_sun_m_331_21_alg».proof.Proof.KI.Frame
import proofs.«141574_g37280316129400_cont_sun_m_331_21_alg».proof.Proof.PayIdeal
import proofs.«141574_g37280316129400_cont_sun_m_331_21_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

/-! ## What the stores wrote, as functions of the loads (any float family) -/

/-- The zero offsets of a rank-2 whole-buffer access. -/
theorem zero2 : (![0, 0] : Fin 2 → ℕ) = fun _ => 0 := by
  funext a
  match a with
  | ⟨0, _⟩ => rfl
  | ⟨1, _⟩ => rfl

/-- The tile a step stores, from its windows' contents and the three support matrices it uses: every operand but the
    support matrices is a load of a window (the whole window, or one leading position of it, or a band of nine
    rows of the classifier matrix). -/
def tileOf (x2 x3 x4 : Vec F S1x256x4096 .f32) (x6 : Vec F S3x16 .f32) (x7 : Vec F S3x16x9 .f32) (x8 : Vec F S3x9 .f32)
    (x9 : Vec F S27x27 .f32) (x10 : Vec F S1x27 .f32) (s0 s1 s2 : Vec F S1x4096x16 .f32) : FVec F S256x27 .f32 :=
  blockOut (View.ld x10 (Rect.unit ![0, 0] ![1, 27] inb_S1x27_S1x27_0_0))
    (View.ld x2 (Rect.unit ![0, 0, 0] ![1, 256, 4096] inb_S1x256x4096_S1x256x4096_0_0_0))
    (View.ld x3 (Rect.unit ![0, 0, 0] ![1, 256, 4096] inb_S1x256x4096_S1x256x4096_0_0_0))
    (View.ld x4 (Rect.unit ![0, 0, 0] ![1, 256, 4096] inb_S1x256x4096_S1x256x4096_0_0_0))
    s0 s1 s2
    (View.ld x6 (Rect.unit ![0, 0] ![1, 16] inb_S3x16_S1x16_0_0))
    (View.ld x6 (Rect.unit ![1, 0] ![1, 16] inb_S3x16_S1x16_1_0))
    (View.ld x6 (Rect.unit ![2, 0] ![1, 16] inb_S3x16_S1x16_2_0))
    (View.ld x7 (Rect.unit ![0, 0, 0] ![1, 16, 9] inb_S3x16x9_S1x16x9_0_0_0))
    (View.ld x7 (Rect.unit ![1, 0, 0] ![1, 16, 9] inb_S3x16x9_S1x16x9_1_0_0))
    (View.ld x7 (Rect.unit ![2, 0, 0] ![1, 16, 9] inb_S3x16x9_S1x16x9_2_0_0))
    (View.ld x8 (Rect.unit ![0, 0] ![1, 9] inb_S3x9_S1x9_0_0))
    (View.ld x8 (Rect.unit ![1, 0] ![1, 9] inb_S3x9_S1x9_1_0))
    (View.ld x8 (Rect.unit ![2, 0] ![1, 9] inb_S3x9_S1x9_2_0))
    (View.ld x9 (Rect.unit ![0, 0] ![9, 27] inb_S27x27_S9x27_0_0))
    (View.ld x9 (Rect.unit ![9, 0] ![9, 27] inb_S27x27_S9x27_9_0))
    (View.ld x9 (Rect.unit ![18, 0] ![9, 27] inb_S27x27_S9x27_18_0))

/-- The three slices the first step stores into the support scratch, last store first: slice `a` holds modality
    `a`'s features times its graph-convolution weights. -/
def supPieces (x1 : Vec F S3x4096x128 .f32) (x5 : Vec F S3x128x16 .f32) : List (View.Piece (Elt F) S3x4096x16 .f32) :=
  [⟨Rect.unit ![2, 0, 0] ![1, 4096, 16] inb_S3x4096x16_S1x4096x16_2_0_0,
      k0_pay4 (View.ld x1 (Rect.unit ![2, 0, 0] ![1, 4096, 128] inb_S3x4096x128_S1x4096x128_2_0_0))
        (View.ld x5 (Rect.unit ![2, 0, 0] ![1, 128, 16] inb_S3x128x16_S1x128x16_2_0_0))⟩,
    ⟨Rect.unit ![1, 0, 0] ![1, 4096, 16] inb_S3x4096x16_S1x4096x16_1_0_0,
      k0_pay3 (View.ld x1 (Rect.unit ![1, 0, 0] ![1, 4096, 128] inb_S3x4096x128_S1x4096x128_1_0_0))
        (View.ld x5 (Rect.unit ![1, 0, 0] ![1, 128, 16] inb_S3x128x16_S1x128x16_1_0_0))⟩,
    ⟨Rect.unit ![0, 0, 0] ![1, 4096, 16] inb_S3x4096x16_S1x4096x16_0_0_0,
      k0_pay2 (View.ld x1 (Rect.unit ![0, 0, 0] ![1, 4096, 128] inb_S3x4096x128_S1x4096x128_0_0_0))
        (View.ld x5 (Rect.unit ![0, 0, 0] ![1, 128, 16] inb_S3x128x16_S1x128x16_0_0_0))⟩]

/-- A later step stores the tile of its windows and the three slices of the scratch it finds. -/
theorem tileLater_eq (c : Dev nD) (i : grid0.Coords) (arg1 : Memref sig .tc .vmem S3x4096x128 .f32) (harg1 : arg1.IsWhole) (arg2 : Memref sig .tc .vmem S1x256x4096 .f32) (harg2 : arg2.IsWhole) (arg3 : Memref sig .tc .vmem S1x256x4096 .f32) (harg3 : arg3.IsWhole) (arg4 : Memref sig .tc .vmem S1x256x4096 .f32) (harg4 : arg4.IsWhole) (arg5 : Memref sig .tc .vmem S3x128x16 .f32) (harg5 : arg5.IsWhole) (arg6 : Memref sig .tc .vmem S3x16 .f32) (harg6 : arg6.IsWhole) (arg7 : Memref sig .tc .vmem S3x16x9 .f32) (harg7 : arg7.IsWhole) (arg8 : Memref sig .tc .vmem S3x9 .f32) (harg8 : arg8.IsWhole) (arg9 : Memref sig .tc .vmem S27x27 .f32) (harg9 : arg9.IsWhole) (arg10 : Memref sig .tc .vmem S1x27 .f32) (harg10 : arg10.IsWhole) (arg11 : Memref sig .tc .vmem S256x27 .f32) (harg11 : arg11.IsWhole) (arg12 : Memref sig .tc .vmem S3x4096x16 .f32) (harg12 : arg12.IsWhole) (hc : ¬cond0 i) (x1 : Vec F S3x4096x128 .f32) (x2 x3 x4 : Vec F S1x256x4096 .f32) (x5 : Vec F S3x128x16 .f32) (x6 : Vec F S3x16 .f32) (x7 : Vec F S3x16x9 .f32) (x8 : Vec F S3x9 .f32) (x9 : Vec F S27x27 .f32) (x10 : Vec F S1x27 .f32) (xs : Vec F S3x4096x16 .f32) :
    tileLater c i arg1 harg1 arg2 harg2 arg3 harg3 arg4 harg4 arg5 harg5 arg6 harg6 arg7 harg7 arg8 harg8 arg9 harg9 arg10 harg10 arg11 harg11 arg12 harg12 hc x1 x2 x3 x4 x5 x6 x7 x8 x9 x10 xs
      = tileOf x2 x3 x4 x6 x7 x8 x9 x10
          (View.ld xs (Rect.unit ![0, 0, 0] ![1, 4096, 16] inb_S3x4096x16_S1x4096x16_0_0_0))
          (View.ld xs (Rect.unit ![1, 0, 0] ![1, 4096, 16] inb_S3x4096x16_S1x4096x16_1_0_0))
          (View.ld xs (Rect.unit ![2, 0, 0] ![1, 4096, 16] inb_S3x4096x16_S1x4096x16_2_0_0)) := by
  unfold tileLater
  rw [View.read_writes_eq_canon _ _ _ (coverLater c i arg1 harg1 arg2 harg2 arg3 harg3 arg4 harg4 arg5 harg5 arg6 harg6 arg7 harg7 arg8 harg8 arg9 harg9 arg10 harg10 arg11 harg11 arg12 harg12 hc x1 x2 x3 x4 x5 x6 x7 x8 x9 x10 xs)]
  unfold stepLater
  dsimp only
  sl_unfold_words
  rw [View.canon_unit_zero zero2]
  simp only [View.readAt_eq_ld, Memref.IsWhole.read_unread]
  rfl

/-- The first step leaves the three slices in the support scratch. -/
theorem supFirst_eq (c : Dev nD) (i : grid0.Coords) (arg1 : Memref sig .tc .vmem S3x4096x128 .f32) (harg1 : arg1.IsWhole) (arg2 : Memref sig .tc .vmem S1x256x4096 .f32) (harg2 : arg2.IsWhole) (arg3 : Memref sig .tc .vmem S1x256x4096 .f32) (harg3 : arg3.IsWhole) (arg4 : Memref sig .tc .vmem S1x256x4096 .f32) (harg4 : arg4.IsWhole) (arg5 : Memref sig .tc .vmem S3x128x16 .f32) (harg5 : arg5.IsWhole) (arg6 : Memref sig .tc .vmem S3x16 .f32) (harg6 : arg6.IsWhole) (arg7 : Memref sig .tc .vmem S3x16x9 .f32) (harg7 : arg7.IsWhole) (arg8 : Memref sig .tc .vmem S3x9 .f32) (harg8 : arg8.IsWhole) (arg9 : Memref sig .tc .vmem S27x27 .f32) (harg9 : arg9.IsWhole) (arg10 : Memref sig .tc .vmem S1x27 .f32) (harg10 : arg10.IsWhole) (arg11 : Memref sig .tc .vmem S256x27 .f32) (harg11 : arg11.IsWhole) (arg12 : Memref sig .tc .vmem S3x4096x16 .f32) (harg12 : arg12.IsWhole) (hc : cond0 i) (x1 : Vec F S3x4096x128 .f32) (x2 x3 x4 : Vec F S1x256x4096 .f32) (x5 : Vec F S3x128x16 .f32) (x6 : Vec F S3x16 .f32) (x7 : Vec F S3x16x9 .f32) (x8 : Vec F S3x9 .f32) (x9 : Vec F S27x27 .f32) (x10 : Vec F S1x27 .f32) :
    supFirst c i arg1 harg1 arg2 harg2 arg3 harg3 arg4 harg4 arg5 harg5 arg6 harg6 arg7 harg7 arg8 harg8 arg9 harg9 arg10 harg10 arg11 harg11 arg12 harg12 hc x1 x2 x3 x4 x5 x6 x7 x8 x9 x10 = View.canon (supPieces x1 x5) := by
  unfold supFirst
  rw [View.read_writes_eq_canon _ _ _ (scoverFirst c i arg1 harg1 arg2 harg2 arg3 harg3 arg4 harg4 arg5 harg5 arg6 harg6 arg7 harg7 arg8 harg8 arg9 harg9 arg10 harg10 arg11 harg11 arg12 harg12 hc x1 x2 x3 x4 x5 x6 x7 x8 x9 x10)]
  unfold stepFirst
  dsimp only
  sl_unfold_words
  simp only [View.readAt_eq_ld, Memref.IsWhole.read_unread]
  rfl

/-- Reading slice 2 of the scratch back after the three stores gives the last store's payload. -/
theorem scr2_eq (v : View sig .tc .vmem S3x4096x16 .f32) (x1 : Vec F S3x4096x128 .f32) (x5 : Vec F S3x128x16 .f32) :
    v.readCov (supPieces x1 x5) (Rect.unit ![2, 0, 0] ![1, 4096, 16] inb_S3x4096x16_S1x4096x16_2_0_0).toLoadRect
      = k0_pay4 (View.ld x1 (Rect.unit ![2, 0, 0] ![1, 4096, 128] inb_S3x4096x128_S1x4096x128_2_0_0))
          (View.ld x5 (Rect.unit ![2, 0, 0] ![1, 128, 16] inb_S3x128x16_S1x128x16_2_0_0)) := by
  unfold supPieces
  exact View.readCov_cons_toLoadRect v _ _ _

/-- Slice 1 is disjoint from the last store and is the second store's payload. -/
theorem scr1_eq (v : View sig .tc .vmem S3x4096x16 .f32) (x1 : Vec F S3x4096x128 .f32) (x5 : Vec F S3x128x16 .f32) :
    v.readCov (supPieces x1 x5) (Rect.unit ![1, 0, 0] ![1, 4096, 16] inb_S3x4096x16_S1x4096x16_1_0_0).toLoadRect
      = k0_pay3 (View.ld x1 (Rect.unit ![1, 0, 0] ![1, 4096, 128] inb_S3x4096x128_S1x4096x128_1_0_0))
          (View.ld x5 (Rect.unit ![1, 0, 0] ![1, 128, 16] inb_S3x128x16_S1x128x16_1_0_0)) := by
  have d21 : Disjoint (Rect.unit (s := S3x4096x16) ![2, 0, 0] ![1, 4096, 16] inb_S3x4096x16_S1x4096x16_2_0_0).set
      (Rect.unit (s := S3x4096x16) ![1, 0, 0] ![1, 4096, 16] inb_S3x4096x16_S1x4096x16_1_0_0).set :=
    Rect.unit_disjoint 0 (Or.inr (by decide))
  unfold supPieces
  refine (View.readCov_cons_of_disjoint v _ _ _ ?_).trans (View.readCov_cons_toLoadRect v _ _ _)
  exact d21

/-- Slice 0 is disjoint from the two later stores and is the first store's payload. -/
theorem scr0_eq (v : View sig .tc .vmem S3x4096x16 .f32) (x1 : Vec F S3x4096x128 .f32) (x5 : Vec F S3x128x16 .f32) :
    v.readCov (supPieces x1 x5) (Rect.unit ![0, 0, 0] ![1, 4096, 16] inb_S3x4096x16_S1x4096x16_0_0_0).toLoadRect
      = k0_pay2 (View.ld x1 (Rect.unit ![0, 0, 0] ![1, 4096, 128] inb_S3x4096x128_S1x4096x128_0_0_0))
          (View.ld x5 (Rect.unit ![0, 0, 0] ![1, 128, 16] inb_S3x128x16_S1x128x16_0_0_0)) := by
  have d20 : Disjoint (Rect.unit (s := S3x4096x16) ![2, 0, 0] ![1, 4096, 16] inb_S3x4096x16_S1x4096x16_2_0_0).set
      (Rect.unit (s := S3x4096x16) ![0, 0, 0] ![1, 4096, 16] inb_S3x4096x16_S1x4096x16_0_0_0).set :=
    Rect.unit_disjoint 0 (Or.inr (by decide))
  have d10 : Disjoint (Rect.unit (s := S3x4096x16) ![1, 0, 0] ![1, 4096, 16] inb_S3x4096x16_S1x4096x16_1_0_0).set
      (Rect.unit (s := S3x4096x16) ![0, 0, 0] ![1, 4096, 16] inb_S3x4096x16_S1x4096x16_0_0_0).set :=
    Rect.unit_disjoint 0 (Or.inr (by decide))
  unfold supPieces
  refine ((View.readCov_cons_of_disjoint v _ _ _ ?_).trans (View.readCov_cons_of_disjoint v _ _ _ ?_)).trans
    (View.readCov_cons_toLoadRect v _ _ _)
  · exact d20
  · exact d10

/-- The first step stores the tile of its windows and the three support matrices it has just formed. -/
theorem tileFirst_eq (c : Dev nD) (i : grid0.Coords) (arg1 : Memref sig .tc .vmem S3x4096x128 .f32) (harg1 : arg1.IsWhole) (arg2 : Memref sig .tc .vmem S1x256x4096 .f32) (harg2 : arg2.IsWhole) (arg3 : Memref sig .tc .vmem S1x256x4096 .f32) (harg3 : arg3.IsWhole) (arg4 : Memref sig .tc .vmem S1x256x4096 .f32) (harg4 : arg4.IsWhole) (arg5 : Memref sig .tc .vmem S3x128x16 .f32) (harg5 : arg5.IsWhole) (arg6 : Memref sig .tc .vmem S3x16 .f32) (harg6 : arg6.IsWhole) (arg7 : Memref sig .tc .vmem S3x16x9 .f32) (harg7 : arg7.IsWhole) (arg8 : Memref sig .tc .vmem S3x9 .f32) (harg8 : arg8.IsWhole) (arg9 : Memref sig .tc .vmem S27x27 .f32) (harg9 : arg9.IsWhole) (arg10 : Memref sig .tc .vmem S1x27 .f32) (harg10 : arg10.IsWhole) (arg11 : Memref sig .tc .vmem S256x27 .f32) (harg11 : arg11.IsWhole) (arg12 : Memref sig .tc .vmem S3x4096x16 .f32) (harg12 : arg12.IsWhole) (hc : cond0 i) (x1 : Vec F S3x4096x128 .f32) (x2 x3 x4 : Vec F S1x256x4096 .f32) (x5 : Vec F S3x128x16 .f32) (x6 : Vec F S3x16 .f32) (x7 : Vec F S3x16x9 .f32) (x8 : Vec F S3x9 .f32) (x9 : Vec F S27x27 .f32) (x10 : Vec F S1x27 .f32) :
    tileFirst c i arg1 harg1 arg2 harg2 arg3 harg3 arg4 harg4 arg5 harg5 arg6 harg6 arg7 harg7 arg8 harg8 arg9 harg9 arg10 harg10 arg11 harg11 arg12 harg12 hc x1 x2 x3 x4 x5 x6 x7 x8 x9 x10
      = tileOf x2 x3 x4 x6 x7 x8 x9 x10
          (k0_pay2 (View.ld x1 (Rect.unit ![0, 0, 0] ![1, 4096, 128] inb_S3x4096x128_S1x4096x128_0_0_0))
            (View.ld x5 (Rect.unit ![0, 0, 0] ![1, 128, 16] inb_S3x128x16_S1x128x16_0_0_0)))
          (k0_pay3 (View.ld x1 (Rect.unit ![1, 0, 0] ![1, 4096, 128] inb_S3x4096x128_S1x4096x128_1_0_0))
            (View.ld x5 (Rect.unit ![1, 0, 0] ![1, 128, 16] inb_S3x128x16_S1x128x16_1_0_0)))
          (k0_pay4 (View.ld x1 (Rect.unit ![2, 0, 0] ![1, 4096, 128] inb_S3x4096x128_S1x4096x128_2_0_0))
            (View.ld x5 (Rect.unit ![2, 0, 0] ![1, 128, 16] inb_S3x128x16_S1x128x16_2_0_0))) := by
  rw [← scr0_eq arg12.view x1 x5, ← scr1_eq arg12.view x1 x5, ← scr2_eq arg12.view x1 x5]
  unfold tileFirst
  rw [View.read_writes_eq_canon _ _ _ (coverFirst c i arg1 harg1 arg2 harg2 arg3 harg3 arg4 harg4 arg5 harg5 arg6 harg6 arg7 harg7 arg8 harg8 arg9 harg9 arg10 harg10 arg11 harg11 arg12 harg12 hc x1 x2 x3 x4 x5 x6 x7 x8 x9 x10)]
  unfold stepFirst
  dsimp only
  sl_unfold_words
  rw [View.canon_unit_zero zero2]
  simp only [View.readAt_eq_ld, Memref.IsWhole.read_unread]
  rfl

/-! ## The loads at an index -/

/-- A rank-2 index is the pair of its coordinates' values. -/
theorem idx2_ext {n0 n1 : ℕ} (j : (⟨2, ![n0, n1]⟩ : Shape).Idx) (a : Fin n0) (b : Fin n1)
    (h0 : (j 0).val = a.val) (h1 : (j 1).val = b.val) : j = ix2 a b := by
  funext d
  match d with
  | ⟨0, _⟩ => exact Fin.ext h0
  | ⟨1, _⟩ => exact Fin.ext h1

/-- A rank-3 index is the triple of its coordinates' values. -/
theorem idx3_ext {n0 n1 n2 : ℕ} (j : (⟨3, ![n0, n1, n2]⟩ : Shape).Idx) (a : Fin n0) (b : Fin n1) (c : Fin n2)
    (h0 : (j 0).val = a.val) (h1 : (j 1).val = b.val) (h2 : (j 2).val = c.val) : j = ix3 a b c := by
  funext d
  match d with
  | ⟨0, _⟩ => exact Fin.ext h0
  | ⟨1, _⟩ => exact Fin.ext h1
  | ⟨2, _⟩ => exact Fin.ext h2

/-- A load of leading position `o` of a rank-3 array reads the array at `o`. -/
theorem ld_lead3 {Val : EltTy → Type} {e : EltTy} {n0 n1 n2 : ℕ} (X : (⟨3, ![n0, n1, n2]⟩ : Shape).Idx → Val e) (o : ℕ) (ho : o < n0)
    (inb : ∀ a, (![o, 0, 0] : Fin 3 → ℕ) a + (![1, n1, n2] : Fin 3 → ℕ) a ≤ (⟨3, ![n0, n1, n2]⟩ : Shape).size a)
    (p : Fin n1) (q : Fin n2) :
    View.ld X (Rect.unit ![o, 0, 0] ![1, n1, n2] inb) (ix3 (0 : Fin 1) p q) = X (ix3 ⟨o, ho⟩ p q) :=
  congrArg X (idx3_ext _ _ _ _ (by show o + 1 * 0 = o; omega) (by show 0 + 1 * p.val = p.val; omega)
    (by show 0 + 1 * q.val = q.val; omega))

/-- A load of leading position `o` of a rank-2 array reads the array at `o`. -/
theorem ld_lead2 {Val : EltTy → Type} {e : EltTy} {n0 n1 : ℕ} (X : (⟨2, ![n0, n1]⟩ : Shape).Idx → Val e) (o : ℕ) (ho : o < n0)
    (inb : ∀ a, (![o, 0] : Fin 2 → ℕ) a + (![1, n1] : Fin 2 → ℕ) a ≤ (⟨2, ![n0, n1]⟩ : Shape).size a) (p : Fin n1) :
    View.ld X (Rect.unit ![o, 0] ![1, n1] inb) (ix2 (0 : Fin 1) p) = X (ix2 ⟨o, ho⟩ p) :=
  congrArg X (idx2_ext _ _ _ (by show o + 1 * 0 = o; omega) (by show 0 + 1 * p.val = p.val; omega))

/-- A load of `m` rows from row `o` of a matrix reads row `o + k` at row `k`. -/
theorem ld_rows {Val : EltTy → Type} {e : EltTy} {n0 n1 m : ℕ} (X : (⟨2, ![n0, n1]⟩ : Shape).Idx → Val e) (o : ℕ)
    (inb : ∀ a, (![o, 0] : Fin 2 → ℕ) a + (![m, n1] : Fin 2 → ℕ) a ≤ (⟨2, ![n0, n1]⟩ : Shape).size a) (k : Fin m) (j : Fin n1)
    (k' : Fin n0) (hk : o + k.val = k'.val) :
    View.ld X (Rect.unit ![o, 0] ![m, n1] inb) (ix2 k j) = X (ix2 k' j) :=
  congrArg X (idx2_ext _ _ _ (by show o + 1 * k.val = k'.val; omega) (by show 0 + 1 * j.val = j.val; omega))

/-! ## On the extended reals -/

/-- The stored tile at (r, j), from its windows' contents and what the three support matrices hold. -/
theorem tileOf_at (x2 x3 x4 : Vec Ideal S1x256x4096 .f32) (x6 : Vec Ideal S3x16 .f32) (x7 : Vec Ideal S3x16x9 .f32) (x8 : Vec Ideal S3x9 .f32)
    (x9 : Vec Ideal S27x27 .f32) (x10 : Vec Ideal S1x27 .f32) (s0 s1 s2 : Vec Ideal S1x4096x16 .f32)
    (S0 S1 S2 : Fin 4096 → Fin 16 → EReal) (h0 : ∀ n h, s0 (ix3 (0 : Fin 1) n h) = S0 n h)
    (h1 : ∀ n h, s1 (ix3 (0 : Fin 1) n h) = S1 n h) (h2 : ∀ n h, s2 (ix3 (0 : Fin 1) n h) = S2 n h) (r : Fin 256) (j : Fin 27) :
    tileOf (F := Ideal) x2 x3 x4 x6 x7 x8 x9 x10 s0 s1 s2 (ix2 r j)
      = Cert.Spec.outRow (x10 (ix2 (0 : Fin 1) j))
          (Cert.Spec.actRow (fun n => x2 (ix3 (0 : Fin 1) r n)) S0 (fun h => x6 (ix2 (0 : Fin 3) h))
            (fun h k => x7 (ix3 (0 : Fin 3) h k)) (fun k => x8 (ix2 (0 : Fin 3) k)))
          (Cert.Spec.actRow (fun n => x3 (ix3 (0 : Fin 1) r n)) S1 (fun h => x6 (ix2 (1 : Fin 3) h))
            (fun h k => x7 (ix3 (1 : Fin 3) h k)) (fun k => x8 (ix2 (1 : Fin 3) k)))
          (Cert.Spec.actRow (fun n => x4 (ix3 (0 : Fin 1) r n)) S2 (fun h => x6 (ix2 (2 : Fin 3) h))
            (fun h k => x7 (ix3 (2 : Fin 3) h k)) (fun k => x8 (ix2 (2 : Fin 3) k)))
          (fun k => x9 (ix2 (Cert.Spec.band 0 k) j)) (fun k => x9 (ix2 (Cert.Spec.band 1 k) j))
          (fun k => x9 (ix2 (Cert.Spec.band 2 k) j)) := by
  unfold tileOf
  rw [Cert.KernelIdeal.PayIdeal.blockOut_apply]
  have e10 : View.ld x10 (Rect.unit ![0, 0] ![1, 27] inb_S1x27_S1x27_0_0) (ix2 (0 : Fin 1) j) = x10 (ix2 (0 : Fin 1) j) :=
    ld_lead2 x10 0 (by decide) _ j
  have ea2 : (fun n => View.ld x2 (Rect.unit ![0, 0, 0] ![1, 256, 4096] inb_S1x256x4096_S1x256x4096_0_0_0) (ix3 (0 : Fin 1) r n))
      = fun n => x2 (ix3 (0 : Fin 1) r n) := funext fun n => ld_lead3 x2 0 (by decide) _ r n
  have ea3 : (fun n => View.ld x3 (Rect.unit ![0, 0, 0] ![1, 256, 4096] inb_S1x256x4096_S1x256x4096_0_0_0) (ix3 (0 : Fin 1) r n))
      = fun n => x3 (ix3 (0 : Fin 1) r n) := funext fun n => ld_lead3 x3 0 (by decide) _ r n
  have ea4 : (fun n => View.ld x4 (Rect.unit ![0, 0, 0] ![1, 256, 4096] inb_S1x256x4096_S1x256x4096_0_0_0) (ix3 (0 : Fin 1) r n))
      = fun n => x4 (ix3 (0 : Fin 1) r n) := funext fun n => ld_lead3 x4 0 (by decide) _ r n
  have es0 : (fun n h => s0 (ix3 (0 : Fin 1) n h)) = S0 := funext fun n => funext fun h => h0 n h
  have es1 : (fun n h => s1 (ix3 (0 : Fin 1) n h)) = S1 := funext fun n => funext fun h => h1 n h
  have es2 : (fun n h => s2 (ix3 (0 : Fin 1) n h)) = S2 := funext fun n => funext fun h => h2 n h
  have eg0 : (fun h => View.ld x6 (Rect.unit ![0, 0] ![1, 16] inb_S3x16_S1x16_0_0) (ix2 (0 : Fin 1) h))
      = fun h => x6 (ix2 (0 : Fin 3) h) := funext fun h => ld_lead2 x6 0 (by decide) _ h
  have eg1 : (fun h => View.ld x6 (Rect.unit ![1, 0] ![1, 16] inb_S3x16_S1x16_1_0) (ix2 (0 : Fin 1) h))
      = fun h => x6 (ix2 (1 : Fin 3) h) := funext fun h => ld_lead2 x6 1 (by decide) _ h
  have eg2 : (fun h => View.ld x6 (Rect.unit ![2, 0] ![1, 16] inb_S3x16_S1x16_2_0) (ix2 (0 : Fin 1) h))
      = fun h => x6 (ix2 (2 : Fin 3) h) := funext fun h => ld_lead2 x6 2 (by decide) _ h
  have em0 : (fun h k => View.ld x7 (Rect.unit ![0, 0, 0] ![1, 16, 9] inb_S3x16x9_S1x16x9_0_0_0) (ix3 (0 : Fin 1) h k))
      = fun h k => x7 (ix3 (0 : Fin 3) h k) := funext fun h => funext fun k => ld_lead3 x7 0 (by decide) _ h k
  have em1 : (fun h k => View.ld x7 (Rect.unit ![1, 0, 0] ![1, 16, 9] inb_S3x16x9_S1x16x9_1_0_0) (ix3 (0 : Fin 1) h k))
      = fun h k => x7 (ix3 (1 : Fin 3) h k) := funext fun h => funext fun k => ld_lead3 x7 1 (by decide) _ h k
  have em2 : (fun h k => View.ld x7 (Rect.unit ![2, 0, 0] ![1, 16, 9] inb_S3x16x9_S1x16x9_2_0_0) (ix3 (0 : Fin 1) h k))
      = fun h k => x7 (ix3 (2 : Fin 3) h k) := funext fun h => funext fun k => ld_lead3 x7 2 (by decide) _ h k
  have eb0 : (fun k => View.ld x8 (Rect.unit ![0, 0] ![1, 9] inb_S3x9_S1x9_0_0) (ix2 (0 : Fin 1) k))
      = fun k => x8 (ix2 (0 : Fin 3) k) := funext fun k => ld_lead2 x8 0 (by decide) _ k
  have eb1 : (fun k => View.ld x8 (Rect.unit ![1, 0] ![1, 9] inb_S3x9_S1x9_1_0) (ix2 (0 : Fin 1) k))
      = fun k => x8 (ix2 (1 : Fin 3) k) := funext fun k => ld_lead2 x8 1 (by decide) _ k
  have eb2 : (fun k => View.ld x8 (Rect.unit ![2, 0] ![1, 9] inb_S3x9_S1x9_2_0) (ix2 (0 : Fin 1) k))
      = fun k => x8 (ix2 (2 : Fin 3) k) := funext fun k => ld_lead2 x8 2 (by decide) _ k
  have ec0 : (fun k => View.ld x9 (Rect.unit ![0, 0] ![9, 27] inb_S27x27_S9x27_0_0) (ix2 k j))
      = fun k => x9 (ix2 (Cert.Spec.band 0 k) j) :=
    funext fun k => ld_rows x9 0 _ k j (Cert.Spec.band 0 k) (by show 0 + k.val = 9 * 0 + k.val; omega)
  have ec1 : (fun k => View.ld x9 (Rect.unit ![9, 0] ![9, 27] inb_S27x27_S9x27_9_0) (ix2 k j))
      = fun k => x9 (ix2 (Cert.Spec.band 1 k) j) :=
    funext fun k => ld_rows x9 9 _ k j (Cert.Spec.band 1 k) (by show 9 + k.val = 9 * 1 + k.val; omega)
  have ec2 : (fun k => View.ld x9 (Rect.unit ![18, 0] ![9, 27] inb_S27x27_S9x27_18_0) (ix2 k j))
      = fun k => x9 (ix2 (Cert.Spec.band 2 k) j) :=
    funext fun k => ld_rows x9 18 _ k j (Cert.Spec.band 2 k) (by show 18 + k.val = 9 * 2 + k.val; omega)
  rw [e10, ea2, ea3, ea4, es0, es1, es2, eg0, eg1, eg2, em0, em1, em2, eb0, eb1, eb2, ec0, ec1, ec2]

/-- The canon of a list of pieces at an index of a box is what a load of the box reads after the stores. -/
theorem canon_idx {Val : EltTy → Type} [∀ e, Nonempty (Val e)] {sg : RefSig} {κ : Kind} {sp : Space} {s : Shape} {e : EltTy}
    (v : View sg κ sp s e) (L : List (View.Piece Val s e)) (B : LoadRect s) (j : B.shape.Idx) :
    View.canon L (B.idx j) = v.readCov L B j :=
  (congrFun (View.readCov_eq_canon' v L B) j).symm

/-- Modality 0's stored support matrix is the specification's. -/
theorem supSlice0_at (x1 : Vec Ideal S3x4096x128 .f32) (x5 : Vec Ideal S3x128x16 .f32) (n : Fin 4096) (h : Fin 16) :
    k0_pay2 (F := Ideal) (View.ld x1 (Rect.unit ![0, 0, 0] ![1, 4096, 128] inb_S3x4096x128_S1x4096x128_0_0_0))
        (View.ld x5 (Rect.unit ![0, 0, 0] ![1, 128, 16] inb_S3x128x16_S1x128x16_0_0_0)) (ix3 (0 : Fin 1) n h)
      = Cert.Spec.sup x1 x5 0 n h := by
  refine (Cert.KernelIdeal.PayIdeal.pay2_apply _ _ n h).trans ?_
  unfold Cert.Spec.sup
  exact Finset.sum_congr rfl fun k _ =>
    congrArg₂ (· * ·) (ld_lead3 x1 0 (by decide) _ n k) (ld_lead3 x5 0 (by decide) _ k h)

/-- Modality 1's. -/
theorem supSlice1_at (x1 : Vec Ideal S3x4096x128 .f32) (x5 : Vec Ideal S3x128x16 .f32) (n : Fin 4096) (h : Fin 16) :
    k0_pay3 (F := Ideal) (View.ld x1 (Rect.unit ![1, 0, 0] ![1, 4096, 128] inb_S3x4096x128_S1x4096x128_1_0_0))
        (View.ld x5 (Rect.unit ![1, 0, 0] ![1, 128, 16] inb_S3x128x16_S1x128x16_1_0_0)) (ix3 (0 : Fin 1) n h)
      = Cert.Spec.sup x1 x5 1 n h := by
  refine (Cert.KernelIdeal.PayIdeal.pay3_apply _ _ n h).trans ?_
  unfold Cert.Spec.sup
  exact Finset.sum_congr rfl fun k _ =>
    congrArg₂ (· * ·) (ld_lead3 x1 1 (by decide) _ n k) (ld_lead3 x5 1 (by decide) _ k h)

/-- Modality 2's. -/
theorem supSlice2_at (x1 : Vec Ideal S3x4096x128 .f32) (x5 : Vec Ideal S3x128x16 .f32) (n : Fin 4096) (h : Fin 16) :
    k0_pay4 (F := Ideal) (View.ld x1 (Rect.unit ![2, 0, 0] ![1, 4096, 128] inb_S3x4096x128_S1x4096x128_2_0_0))
        (View.ld x5 (Rect.unit ![2, 0, 0] ![1, 128, 16] inb_S3x128x16_S1x128x16_2_0_0)) (ix3 (0 : Fin 1) n h)
      = Cert.Spec.sup x1 x5 2 n h := by
  refine (Cert.KernelIdeal.PayIdeal.pay4_apply _ _ n h).trans ?_
  unfold Cert.Spec.sup
  exact Finset.sum_congr rfl fun k _ =>
    congrArg₂ (· * ·) (ld_lead3 x1 2 (by decide) _ n k) (ld_lead3 x5 2 (by decide) _ k h)

/-- After the first step the support scratch holds the specification's three support matrices. -/
theorem supFirst_at (c : Dev nD) (i : grid0.Coords) (arg1 : Memref sig .tc .vmem S3x4096x128 .f32) (harg1 : arg1.IsWhole) (arg2 : Memref sig .tc .vmem S1x256x4096 .f32) (harg2 : arg2.IsWhole) (arg3 : Memref sig .tc .vmem S1x256x4096 .f32) (harg3 : arg3.IsWhole) (arg4 : Memref sig .tc .vmem S1x256x4096 .f32) (harg4 : arg4.IsWhole) (arg5 : Memref sig .tc .vmem S3x128x16 .f32) (harg5 : arg5.IsWhole) (arg6 : Memref sig .tc .vmem S3x16 .f32) (harg6 : arg6.IsWhole) (arg7 : Memref sig .tc .vmem S3x16x9 .f32) (harg7 : arg7.IsWhole) (arg8 : Memref sig .tc .vmem S3x9 .f32) (harg8 : arg8.IsWhole) (arg9 : Memref sig .tc .vmem S27x27 .f32) (harg9 : arg9.IsWhole) (arg10 : Memref sig .tc .vmem S1x27 .f32) (harg10 : arg10.IsWhole) (arg11 : Memref sig .tc .vmem S256x27 .f32) (harg11 : arg11.IsWhole) (arg12 : Memref sig .tc .vmem S3x4096x16 .f32) (harg12 : arg12.IsWhole) (hc : cond0 i) (x1 : Vec Ideal S3x4096x128 .f32) (x2 x3 x4 : Vec Ideal S1x256x4096 .f32) (x5 : Vec Ideal S3x128x16 .f32) (x6 : Vec Ideal S3x16 .f32) (x7 : Vec Ideal S3x16x9 .f32) (x8 : Vec Ideal S3x9 .f32) (x9 : Vec Ideal S27x27 .f32) (x10 : Vec Ideal S1x27 .f32) (a : Fin 3) (n : Fin 4096) (h : Fin 16) :
    supFirst (F := Ideal) c i arg1 harg1 arg2 harg2 arg3 harg3 arg4 harg4 arg5 harg5 arg6 harg6 arg7 harg7 arg8 harg8 arg9 harg9 arg10 harg10 arg11 harg11 arg12 harg12 hc x1 x2 x3 x4 x5 x6 x7 x8 x9 x10 (ix3 a n h) = Cert.Spec.sup x1 x5 a n h := by
  rw [supFirst_eq]
  match a with
  | ⟨0, _⟩ =>
    have e : (Rect.unit (s := S3x4096x16) ![0, 0, 0] ![1, 4096, 16] inb_S3x4096x16_S1x4096x16_0_0_0).toLoadRect.idx (ix3 (0 : Fin 1) n h)
        = ix3 (⟨0, by decide⟩ : Fin 3) n h :=
      idx3_ext _ _ _ _ (by show 0 + 1 * 0 = 0; omega) (by show 0 + 1 * n.val = n.val; omega) (by show 0 + 1 * h.val = h.val; omega)
    rw [← e, canon_idx arg12.view, scr0_eq]
    exact supSlice0_at x1 x5 n h
  | ⟨1, _⟩ =>
    have e : (Rect.unit (s := S3x4096x16) ![1, 0, 0] ![1, 4096, 16] inb_S3x4096x16_S1x4096x16_1_0_0).toLoadRect.idx (ix3 (0 : Fin 1) n h)
        = ix3 (⟨1, by decide⟩ : Fin 3) n h :=
      idx3_ext _ _ _ _ (by show 1 + 1 * 0 = 1; omega) (by show 0 + 1 * n.val = n.val; omega) (by show 0 + 1 * h.val = h.val; omega)
    rw [← e, canon_idx arg12.view, scr1_eq]
    exact supSlice1_at x1 x5 n h
  | ⟨2, _⟩ =>
    have e : (Rect.unit (s := S3x4096x16) ![2, 0, 0] ![1, 4096, 16] inb_S3x4096x16_S1x4096x16_2_0_0).toLoadRect.idx (ix3 (0 : Fin 1) n h)
        = ix3 (⟨2, by decide⟩ : Fin 3) n h :=
      idx3_ext _ _ _ _ (by show 2 + 1 * 0 = 2; omega) (by show 0 + 1 * n.val = n.val; omega) (by show 0 + 1 * h.val = h.val; omega)
    rw [← e, canon_idx arg12.view, scr2_eq]
    exact supSlice2_at x1 x5 n h

/-- A later step's stored tile at (r, j): the specification's entry from row r of the three adjacency tiles, the
    scratch's three slices as support matrices, and the windows' biases and weights. -/
theorem tileLater_at (c : Dev nD) (i : grid0.Coords) (arg1 : Memref sig .tc .vmem S3x4096x128 .f32) (harg1 : arg1.IsWhole) (arg2 : Memref sig .tc .vmem S1x256x4096 .f32) (harg2 : arg2.IsWhole) (arg3 : Memref sig .tc .vmem S1x256x4096 .f32) (harg3 : arg3.IsWhole) (arg4 : Memref sig .tc .vmem S1x256x4096 .f32) (harg4 : arg4.IsWhole) (arg5 : Memref sig .tc .vmem S3x128x16 .f32) (harg5 : arg5.IsWhole) (arg6 : Memref sig .tc .vmem S3x16 .f32) (harg6 : arg6.IsWhole) (arg7 : Memref sig .tc .vmem S3x16x9 .f32) (harg7 : arg7.IsWhole) (arg8 : Memref sig .tc .vmem S3x9 .f32) (harg8 : arg8.IsWhole) (arg9 : Memref sig .tc .vmem S27x27 .f32) (harg9 : arg9.IsWhole) (arg10 : Memref sig .tc .vmem S1x27 .f32) (harg10 : arg10.IsWhole) (arg11 : Memref sig .tc .vmem S256x27 .f32) (harg11 : arg11.IsWhole) (arg12 : Memref sig .tc .vmem S3x4096x16 .f32) (harg12 : arg12.IsWhole) (hc : ¬cond0 i) (x1 : Vec Ideal S3x4096x128 .f32) (x2 x3 x4 : Vec Ideal S1x256x4096 .f32) (x5 : Vec Ideal S3x128x16 .f32) (x6 : Vec Ideal S3x16 .f32) (x7 : Vec Ideal S3x16x9 .f32) (x8 : Vec Ideal S3x9 .f32) (x9 : Vec Ideal S27x27 .f32) (x10 : Vec Ideal S1x27 .f32) (xs : Vec Ideal S3x4096x16 .f32) (r : Fin 256) (j : Fin 27) :
    tileLater (F := Ideal) c i arg1 harg1 arg2 harg2 arg3 harg3 arg4 harg4 arg5 harg5 arg6 harg6 arg7 harg7 arg8 harg8 arg9 harg9 arg10 harg10 arg11 harg11 arg12 harg12 hc x1 x2 x3 x4 x5 x6 x7 x8 x9 x10 xs (ix2 r j)
      = Cert.Spec.outRow (x10 (ix2 (0 : Fin 1) j))
          (Cert.Spec.actRow (fun n => x2 (ix3 (0 : Fin 1) r n)) (fun n h => xs (ix3 (0 : Fin 3) n h)) (fun h => x6 (ix2 (0 : Fin 3) h))
            (fun h k => x7 (ix3 (0 : Fin 3) h k)) (fun k => x8 (ix2 (0 : Fin 3) k)))
          (Cert.Spec.actRow (fun n => x3 (ix3 (0 : Fin 1) r n)) (fun n h => xs (ix3 (1 : Fin 3) n h)) (fun h => x6 (ix2 (1 : Fin 3) h))
            (fun h k => x7 (ix3 (1 : Fin 3) h k)) (fun k => x8 (ix2 (1 : Fin 3) k)))
          (Cert.Spec.actRow (fun n => x4 (ix3 (0 : Fin 1) r n)) (fun n h => xs (ix3 (2 : Fin 3) n h)) (fun h => x6 (ix2 (2 : Fin 3) h))
            (fun h k => x7 (ix3 (2 : Fin 3) h k)) (fun k => x8 (ix2 (2 : Fin 3) k)))
          (fun k => x9 (ix2 (Cert.Spec.band 0 k) j)) (fun k => x9 (ix2 (Cert.Spec.band 1 k) j))
          (fun k => x9 (ix2 (Cert.Spec.band 2 k) j)) := by
  rw [tileLater_eq]
  exact tileOf_at x2 x3 x4 x6 x7 x8 x9 x10 _ _ _ _ _ _ (fun n h => ld_lead3 xs 0 (by decide) _ n h)
    (fun n h => ld_lead3 xs 1 (by decide) _ n h) (fun n h => ld_lead3 xs 2 (by decide) _ n h) r j

/-- The first step's stored tile at (r, j): the same, with the specification's support matrices. -/
theorem tileFirst_at (c : Dev nD) (i : grid0.Coords) (arg1 : Memref sig .tc .vmem S3x4096x128 .f32) (harg1 : arg1.IsWhole) (arg2 : Memref sig .tc .vmem S1x256x4096 .f32) (harg2 : arg2.IsWhole) (arg3 : Memref sig .tc .vmem S1x256x4096 .f32) (harg3 : arg3.IsWhole) (arg4 : Memref sig .tc .vmem S1x256x4096 .f32) (harg4 : arg4.IsWhole) (arg5 : Memref sig .tc .vmem S3x128x16 .f32) (harg5 : arg5.IsWhole) (arg6 : Memref sig .tc .vmem S3x16 .f32) (harg6 : arg6.IsWhole) (arg7 : Memref sig .tc .vmem S3x16x9 .f32) (harg7 : arg7.IsWhole) (arg8 : Memref sig .tc .vmem S3x9 .f32) (harg8 : arg8.IsWhole) (arg9 : Memref sig .tc .vmem S27x27 .f32) (harg9 : arg9.IsWhole) (arg10 : Memref sig .tc .vmem S1x27 .f32) (harg10 : arg10.IsWhole) (arg11 : Memref sig .tc .vmem S256x27 .f32) (harg11 : arg11.IsWhole) (arg12 : Memref sig .tc .vmem S3x4096x16 .f32) (harg12 : arg12.IsWhole) (hc : cond0 i) (x1 : Vec Ideal S3x4096x128 .f32) (x2 x3 x4 : Vec Ideal S1x256x4096 .f32) (x5 : Vec Ideal S3x128x16 .f32) (x6 : Vec Ideal S3x16 .f32) (x7 : Vec Ideal S3x16x9 .f32) (x8 : Vec Ideal S3x9 .f32) (x9 : Vec Ideal S27x27 .f32) (x10 : Vec Ideal S1x27 .f32) (r : Fin 256) (j : Fin 27) :
    tileFirst (F := Ideal) c i arg1 harg1 arg2 harg2 arg3 harg3 arg4 harg4 arg5 harg5 arg6 harg6 arg7 harg7 arg8 harg8 arg9 harg9 arg10 harg10 arg11 harg11 arg12 harg12 hc x1 x2 x3 x4 x5 x6 x7 x8 x9 x10 (ix2 r j)
      = Cert.Spec.outRow (x10 (ix2 (0 : Fin 1) j))
          (Cert.Spec.actRow (fun n => x2 (ix3 (0 : Fin 1) r n)) (fun n h => Cert.Spec.sup x1 x5 0 n h) (fun h => x6 (ix2 (0 : Fin 3) h))
            (fun h k => x7 (ix3 (0 : Fin 3) h k)) (fun k => x8 (ix2 (0 : Fin 3) k)))
          (Cert.Spec.actRow (fun n => x3 (ix3 (0 : Fin 1) r n)) (fun n h => Cert.Spec.sup x1 x5 1 n h) (fun h => x6 (ix2 (1 : Fin 3) h))
            (fun h k => x7 (ix3 (1 : Fin 3) h k)) (fun k => x8 (ix2 (1 : Fin 3) k)))
          (Cert.Spec.actRow (fun n => x4 (ix3 (0 : Fin 1) r n)) (fun n h => Cert.Spec.sup x1 x5 2 n h) (fun h => x6 (ix2 (2 : Fin 3) h))
            (fun h k => x7 (ix3 (2 : Fin 3) h k)) (fun k => x8 (ix2 (2 : Fin 3) k)))
          (fun k => x9 (ix2 (Cert.Spec.band 0 k) j)) (fun k => x9 (ix2 (Cert.Spec.band 1 k) j))
          (fun k => x9 (ix2 (Cert.Spec.band 2 k) j)) := by
  rw [tileFirst_eq]
  exact tileOf_at x2 x3 x4 x6 x7 x8 x9 x10 _ _ _ _ _ _ (supSlice0_at x1 x5) (supSlice1_at x1 x5) (supSlice2_at x1 x5) r j

end Cert.KernelIdeal.Hand

end
-- ==== Proof.KI.Value.lean ====
/-
  The kernel's output on the extended reals is the specification's array.

  Each window's block at a step is a piece of a launched array: seven windows hold their whole array, the three
  adjacency windows hold 256 rows of one modality's adjacency matrix, and the bias window holds the bias vector as a
  row. The support scratch after the first step is the specification's support matrices of the launched features and
  weights. Substituting these into the closed form of a step's tile gives, at entry (r, j) of the tile of step t, the
  specification's entry (256 t + r, j); the tiles written back cover the output, which therefore ends as the
  specification's array.
-/
import proofs.«141574_g37280316129400_cont_sun_m_331_21_alg».proof.Proof.KI.Cover
import proofs.«141574_g37280316129400_cont_sun_m_331_21_alg».proof.Proof.KI.Blocks
import proofs.«141574_g37280316129400_cont_sun_m_331_21_alg».proof.Proof.KI.Pieces
import proofs.«141574_g37280316129400_cont_sun_m_331_21_alg».proof.Proof.Spec
import Idealize.ShloMosaic.Lib.ValueIdx

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ)

/-! ## The whole-array blocks are the launched arrays -/

theorem blk_x (c : Dev nD) (t : Fin cfg0.N) (y : S3x4096x128.Idx) : iblk m c 0 t y = m ((c : Thread nD τ).loc main_arg0) y :=
  (iblk_whole0 m c t y).trans (congrFun (V_arg m c main_arg0 (by decide)) y)

theorem blk_wg (c : Dev nD) (t : Fin cfg0.N) (y : S3x128x16.Idx) : iblk m c 4 t y = m ((c : Thread nD τ).loc main_arg2) y :=
  (iblk_whole4 m c t y).trans (congrFun (V_arg m c main_arg2 (by decide)) y)

theorem blk_bg (c : Dev nD) (t : Fin cfg0.N) (y : S3x16.Idx) : iblk m c 5 t y = m ((c : Thread nD τ).loc main_arg3) y :=
  (iblk_whole5 m c t y).trans (congrFun (V_arg m c main_arg3 (by decide)) y)

theorem blk_wm (c : Dev nD) (t : Fin cfg0.N) (y : S3x16x9.Idx) : iblk m c 6 t y = m ((c : Thread nD τ).loc main_arg4) y :=
  (iblk_whole6 m c t y).trans (congrFun (V_arg m c main_arg4 (by decide)) y)

theorem blk_bm (c : Dev nD) (t : Fin cfg0.N) (y : S3x9.Idx) : iblk m c 7 t y = m ((c : Thread nD τ).loc main_arg5) y :=
  (iblk_whole7 m c t y).trans (congrFun (V_arg m c main_arg5 (by decide)) y)

theorem blk_wc (c : Dev nD) (t : Fin cfg0.N) (y : S27x27.Idx) : iblk m c 8 t y = m ((c : Thread nD τ).loc main_arg6) y :=
  (iblk_whole8 m c t y).trans (congrFun (V_arg m c main_arg6 (by decide)) y)

/-- The bias window's block is the launched bias vector as a row. -/
theorem blk_bc (c : Dev nD) (t : Fin cfg0.N) (j : Fin 27) :
    iblk m c 9 t (ix2 (0 : Fin 1) j) = m ((c : Thread nD τ).loc main_arg7) (ix1 j) :=
  (iblk_whole9 m c t _).trans (V_bias m c j)

/-- An adjacency window's block at step t is rows 256 t … of the launched adjacency, modality by modality. -/
theorem blk_adj (c : Dev nD) (t : Fin cfg0.N) (r : Fin 256) (R : Fin 4096) (hR : R.val = 256 * t.val + r.val) (n : Fin 4096) :
    iblk m c 1 t (ix3 (0 : Fin 1) r n) = m ((c : Thread nD τ).loc main_arg1) (ix3 (0 : Fin 3) R n)
    ∧ iblk m c 2 t (ix3 (0 : Fin 1) r n) = m ((c : Thread nD τ).loc main_arg1) (ix3 (1 : Fin 3) R n)
    ∧ iblk m c 3 t (ix3 (0 : Fin 1) r n) = m ((c : Thread nD τ).loc main_arg1) (ix3 (2 : Fin 3) R n) :=
  ⟨(iblk_adj1 m c t r n R hR).trans (congrFun (V_arg m c main_arg1 (by decide)) _),
   (iblk_adj2 m c t r n R hR).trans (congrFun (V_arg m c main_arg1 (by decide)) _),
   (iblk_adj3 m c t r n R hR).trans (congrFun (V_arg m c main_arg1 (by decide)) _)⟩

/-! ## The support matrices -/

/-- The support matrix depends on its two arrays only through their entries. -/
theorem sup_congr {x x' : Cert.Spec.SX.Idx → EReal} {w w' : Cert.Spec.SWg.Idx → EReal} (hx : ∀ y, x y = x' y) (hw : ∀ y, w y = w' y)
    (a : Fin 3) (n : Fin 4096) (h : Fin 16) : Cert.Spec.sup x w a n h = Cert.Spec.sup x' w' a n h := by
  rw [show x = x' from funext hx, show w = w' from funext hw]

/-- The support scratch after the first step holds the support matrices of the launched features and weights. -/
theorem sup0_at (c : Dev nD) (a : Fin 3) (n : Fin 4096) (h : Fin 16) :
    sup0 m c (ix3 a n h) = Cert.Spec.sup (m ((c : Thread nD τ).loc main_arg0)) (m ((c : Thread nD τ).loc main_arg2)) a n h := by
  unfold sup0
  rw [supFirst_at]
  exact sup_congr (blk_x m c t0_0) (blk_wg m c t0_0) a n h

/-! ## The specification's entry from its rows -/

/-- The specification's entry (R, j) is the closed form of a tile entry whose ingredients are the rows, bias entries
    and bands of the arrays at row R. -/
theorem G_of_rows (x : Cert.Spec.SX.Idx → EReal) (a : Cert.Spec.SA.Idx → EReal) (wg : Cert.Spec.SWg.Idx → EReal)
    (bg : Cert.Spec.SBg.Idx → EReal) (wm : Cert.Spec.SWm.Idx → EReal) (bm : Cert.Spec.SBm.Idx → EReal)
    (wc : Cert.Spec.SWc.Idx → EReal) (bc : Cert.Spec.SBc.Idx → EReal) (R : Fin 4096) (j : Fin 27)
    (b : EReal) (a0 a1 a2 : Fin 4096 → EReal) (s0 s1 s2 : Fin 4096 → Fin 16 → EReal) (g0 g1 g2 : Fin 16 → EReal)
    (w0 w1 w2 : Fin 16 → Fin 9 → EReal) (m0 m1 m2 : Fin 9 → EReal) (c0 c1 c2 : Fin 9 → EReal)
    (hb : b = bc (ix1 j))
    (ha0 : ∀ n, a0 n = a (ix3 (0 : Fin 3) R n)) (ha1 : ∀ n, a1 n = a (ix3 (1 : Fin 3) R n)) (ha2 : ∀ n, a2 n = a (ix3 (2 : Fin 3) R n))
    (hs0 : ∀ n h, s0 n h = Cert.Spec.sup x wg 0 n h) (hs1 : ∀ n h, s1 n h = Cert.Spec.sup x wg 1 n h) (hs2 : ∀ n h, s2 n h = Cert.Spec.sup x wg 2 n h)
    (hg0 : ∀ h, g0 h = bg (ix2 (0 : Fin 3) h)) (hg1 : ∀ h, g1 h = bg (ix2 (1 : Fin 3) h)) (hg2 : ∀ h, g2 h = bg (ix2 (2 : Fin 3) h))
    (hw0 : ∀ h k, w0 h k = wm (ix3 (0 : Fin 3) h k)) (hw1 : ∀ h k, w1 h k = wm (ix3 (1 : Fin 3) h k)) (hw2 : ∀ h k, w2 h k = wm (ix3 (2 : Fin 3) h k))
    (hm0 : ∀ k, m0 k = bm (ix2 (0 : Fin 3) k)) (hm1 : ∀ k, m1 k = bm (ix2 (1 : Fin 3) k)) (hm2 : ∀ k, m2 k = bm (ix2 (2 : Fin 3) k))
    (hc0 : ∀ k, c0 k = wc (ix2 (Cert.Spec.band 0 k) j)) (hc1 : ∀ k, c1 k = wc (ix2 (Cert.Spec.band 1 k) j))
    (hc2 : ∀ k, c2 k = wc (ix2 (Cert.Spec.band 2 k) j)) :
    Cert.Spec.outRow b (Cert.Spec.actRow a0 s0 g0 w0 m0) (Cert.Spec.actRow a1 s1 g1 w1 m1) (Cert.Spec.actRow a2 s2 g2 w2 m2) c0 c1 c2
      = Cert.Spec.G x a wg bg wm bm wc bc R j := by
  obtain rfl : a0 = fun n => a (ix3 (0 : Fin 3) R n) := funext ha0
  obtain rfl : a1 = fun n => a (ix3 (1 : Fin 3) R n) := funext ha1
  obtain rfl : a2 = fun n => a (ix3 (2 : Fin 3) R n) := funext ha2
  obtain rfl : s0 = Cert.Spec.sup x wg 0 := funext fun n => funext fun h => hs0 n h
  obtain rfl : s1 = Cert.Spec.sup x wg 1 := funext fun n => funext fun h => hs1 n h
  obtain rfl : s2 = Cert.Spec.sup x wg 2 := funext fun n => funext fun h => hs2 n h
  obtain rfl : g0 = fun h => bg (ix2 (0 : Fin 3) h) := funext hg0
  obtain rfl : g1 = fun h => bg (ix2 (1 : Fin 3) h) := funext hg1
  obtain rfl : g2 = fun h => bg (ix2 (2 : Fin 3) h) := funext hg2
  obtain rfl : w0 = fun h k => wm (ix3 (0 : Fin 3) h k) := funext fun h => funext fun k => hw0 h k
  obtain rfl : w1 = fun h k => wm (ix3 (1 : Fin 3) h k) := funext fun h => funext fun k => hw1 h k
  obtain rfl : w2 = fun h k => wm (ix3 (2 : Fin 3) h k) := funext fun h => funext fun k => hw2 h k
  obtain rfl : m0 = fun k => bm (ix2 (0 : Fin 3) k) := funext hm0
  obtain rfl : m1 = fun k => bm (ix2 (1 : Fin 3) k) := funext hm1
  obtain rfl : m2 = fun k => bm (ix2 (2 : Fin 3) k) := funext hm2
  obtain rfl : c0 = fun k => wc (ix2 (Cert.Spec.band 0 k) j) := funext hc0
  obtain rfl : c1 = fun k => wc (ix2 (Cert.Spec.band 1 k) j) := funext hc1
  obtain rfl : c2 = fun k => wc (ix2 (Cert.Spec.band 2 k) j) := funext hc2
  subst hb
  rfl

/-! ## A tile is its rows of the specification's array -/

/-- Entry (r, j) of the tile of step t is the specification's entry (256 t + r, j) of the launched arrays. -/
theorem tile_at (c : Dev nD) (t : Fin cfg0.N) (r : Fin 256) (j : Fin 27) (R : Fin 4096) (hR : R.val = 256 * t.val + r.val) :
    tile (F := Ideal) m c t (ix2 r j) = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) R j := by
  unfold tile
  by_cases hz : t.val = 0
  · rw [dif_pos hz, tileFirst_at]
    exact G_of_rows _ _ _ _ _ _ _ _ R j _ _ _ _ _ _ _ _ _ _ _ _ _ _ _ _ _ _ _
      (blk_bc m c t j)
      (fun n => (blk_adj m c t r R hR n).1) (fun n => (blk_adj m c t r R hR n).2.1) (fun n => (blk_adj m c t r R hR n).2.2)
      (fun n h => sup_congr (blk_x m c t) (blk_wg m c t) 0 n h) (fun n h => sup_congr (blk_x m c t) (blk_wg m c t) 1 n h)
      (fun n h => sup_congr (blk_x m c t) (blk_wg m c t) 2 n h)
      (fun h => blk_bg m c t _) (fun h => blk_bg m c t _) (fun h => blk_bg m c t _)
      (fun h k => blk_wm m c t _) (fun h k => blk_wm m c t _) (fun h k => blk_wm m c t _)
      (fun k => blk_bm m c t _) (fun k => blk_bm m c t _) (fun k => blk_bm m c t _)
      (fun k => blk_wc m c t _) (fun k => blk_wc m c t _) (fun k => blk_wc m c t _)
  · rw [dif_neg hz, tileLater_at]
    exact G_of_rows _ _ _ _ _ _ _ _ R j _ _ _ _ _ _ _ _ _ _ _ _ _ _ _ _ _ _ _
      (blk_bc m c t j)
      (fun n => (blk_adj m c t r R hR n).1) (fun n => (blk_adj m c t r R hR n).2.1) (fun n => (blk_adj m c t r R hR n).2.2)
      (fun n h => sup0_at m c 0 n h) (fun n h => sup0_at m c 1 n h) (fun n h => sup0_at m c 2 n h)
      (fun h => blk_bg m c t _) (fun h => blk_bg m c t _) (fun h => blk_bg m c t _)
      (fun h k => blk_wm m c t _) (fun h k => blk_wm m c t _) (fun h k => blk_wm m c t _)
      (fun k => blk_bm m c t _) (fun k => blk_bm m c t _) (fun k => blk_bm m c t _)
      (fun k => blk_wc m c t _) (fun k => blk_wc m c t _) (fun k => blk_wc m c t _)

/-! ## The output array -/

/-- The output ends as the specification's array of the launched arrays. -/
theorem final_out (c : Dev nD) :
    (dats (F := Ideal) m 0 c).arrAt 10 cfg0.N = Cert.Spec.Garr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  out_final m c _ fun t r j R hR => tile_at m c t r j R hR

end Cert.KernelIdeal.Hand

end
-- ==== Proof.RefSide.lean ====
/-
  The host program of the graph-convolution head computes the specification.

  On the extended reals no number differs from itself, so replacing the adjacency entries that do by zero changes
  nothing. For each of the three modalities the program slices one leading position out of every stacked array and
  drops the unit axis (a re-indexing), forms  features · weights,  adjacency · that + bias,  the hyperbolic tangent of
  (that · perceptron weights + perceptron bias): the modality's activation, 4096 × 9. It lays the three activations
  side by side (column 9 m + j is column j of modality m), multiplies by the 27 × 27 classifier matrix and adds the
  classifier bias. The sum over the 27 joined columns is the sum of its three bands of 9; moving the bias in front
  of the three bands uses only that addition on the extended reals is commutative and associative.
-/
import proofs.«141574_g37280316129400_cont_sun_m_331_21_alg».proof.Proof.Gen.ReferenceIdeal.Read
import proofs.«141574_g37280316129400_cont_sun_m_331_21_alg».proof.Proof.Spec
import proofs.«141574_g37280316129400_cont_sun_m_331_21_alg».proof.Proof.LibDense
import Idealize.ShloMosaic.Lib.ValueIdx
import Idealize.ShloMosaic.Lib.Pipeline.Value
import Idealize.ShloMosaic.PureOps.Ideal.Laws

noncomputable section

namespace Cert.RefSide

open Idealize.ShloMosaic Idealize.ShloMosaic.ValueIdx Cert.ReferenceIdeal Cert.ReferenceIdeal.Gen Cert.ReferenceIdeal.Read

/-- A rank-2 index is the pair of its coordinates' values. -/
theorem ix2_ext {n0 n1 : ℕ} (j : (⟨2, ![n0, n1]⟩ : Shape).Idx) (a : Fin n0) (b : Fin n1)
    (h0 : (j 0).val = a.val) (h1 : (j 1).val = b.val) : j = ix2 a b := by
  funext d
  match d with
  | ⟨0, _⟩ => exact Fin.ext h0
  | ⟨1, _⟩ => exact Fin.ext h1

/-- A rank-3 index is the triple of its coordinates' values. -/
theorem ix3_ext {n0 n1 n2 : ℕ} (j : (⟨3, ![n0, n1, n2]⟩ : Shape).Idx) (a : Fin n0) (b : Fin n1) (c : Fin n2)
    (h0 : (j 0).val = a.val) (h1 : (j 1).val = b.val) (h2 : (j 2).val = c.val) : j = ix3 a b c := by
  funext d
  match d with
  | ⟨0, _⟩ => exact Fin.ext h0
  | ⟨1, _⟩ => exact Fin.ext h1
  | ⟨2, _⟩ => exact Fin.ext h2

/-- No extended real differs from itself. -/
theorem cmp_une_self (a : EReal) : Ideal.cmp .une a a = 0#1 := by
  unfold Ideal.cmp; simp

variable (x0 : (⟨S3x4096x128, .f32⟩ : BufTy).Contents (Elt Ideal)) (x1 : (⟨S3x4096x4096, .f32⟩ : BufTy).Contents (Elt Ideal))
  (x2 : (⟨S3x128x16, .f32⟩ : BufTy).Contents (Elt Ideal)) (x3 : (⟨S3x16, .f32⟩ : BufTy).Contents (Elt Ideal))
  (x4 : (⟨S3x16x9, .f32⟩ : BufTy).Contents (Elt Ideal)) (x5 : (⟨S3x9, .f32⟩ : BufTy).Contents (Elt Ideal))
  (x6 : (⟨S27x27, .f32⟩ : BufTy).Contents (Elt Ideal)) (x7 : (⟨S27, .f32⟩ : BufTy).Contents (Elt Ideal))

/-- Replacing the entries that differ from themselves by zero changes nothing on the extended reals. -/
theorem masked_at (i : S3x4096x4096.Idx) : val_main_v1 (F := Ideal) x1 i = x1 i := by
  rw [val_main_v1_apply, val_main_v0_apply]
  show Scalar.select (Ideal.cmp .une (x1 i) (x1 i)) _ _ = _
  rw [cmp_une_self, select_zero]

/-! ### One modality, from its six operands -/

/-- A rows-by-columns product of two matrices read at (a, b). -/
theorem dot_at {M K N : ℕ} (d : DotDims ⟨2, ![M, K]⟩ ⟨2, ![K, N]⟩ ⟨2, ![M, N]⟩) (hd : d = DotDims.plain M K N)
    (l : FVec Ideal ⟨2, ![M, K]⟩ .f32) (w : FVec Ideal ⟨2, ![K, N]⟩ .f32) (a : Fin M) (b : Fin N) :
    Host.dotGeneral d none l w (ix2 a b) = ∑ k : Fin K, l (ix2 a k) * w (ix2 k b) := by
  subst hd
  exact Cert.LibDense.dotGeneral_plain_apply none .single l w a b

/-- If six matrices are modality `m`'s features, graph-convolution weights, adjacency, graph-convolution bias laid along
    the rows, perceptron weights and perceptron bias laid along the rows, then the hyperbolic tangent of
    ((adjacency · (features · weights) + bias) · perceptron weights + perceptron bias) is modality `m`'s activation. -/
theorem act_of_stages (m : Fin 3)
    (X : FVec Ideal ⟨2, ![4096, 128]⟩ .f32) (Wg : FVec Ideal ⟨2, ![128, 16]⟩ .f32)
    (A : FVec Ideal ⟨2, ![4096, 4096]⟩ .f32) (Bg : FVec Ideal ⟨2, ![4096, 16]⟩ .f32)
    (Wm : FVec Ideal ⟨2, ![16, 9]⟩ .f32) (Bm : FVec Ideal ⟨2, ![4096, 9]⟩ .f32)
    (hX : ∀ n k, X (ix2 n k) = x0 (ix3 m n k)) (hWg : ∀ k h, Wg (ix2 k h) = x2 (ix3 m k h))
    (hA : ∀ r n, A (ix2 r n) = x1 (ix3 m r n)) (hBg : ∀ r h, Bg (ix2 r h) = x3 (ix2 m h))
    (hWm : ∀ h j, Wm (ix2 h j) = x4 (ix3 m h j)) (hBm : ∀ r j, Bm (ix2 r j) = x5 (ix2 m j))
    (r : Fin 4096) (j : Fin 9) :
    Host.tanh (addf (Host.dotGeneral dot_S4096x16_S16x9_S4096x9_1_0_0_1_n_n none
        (addf (Host.dotGeneral dot_S4096x4096_S4096x16_S4096x16_1_0_0_1_n_n none A
          (Host.dotGeneral dot_S4096x128_S128x16_S4096x16_1_0_0_1_n_n none X Wg)) Bg) Wm) Bm) (ix2 r j)
      = Spec.act x0 x1 x2 x3 x4 x5 m r j := by
  show Ideal.tanh (Host.dotGeneral dot_S4096x16_S16x9_S4096x9_1_0_0_1_n_n none _ Wm (ix2 r j) + Bm (ix2 r j)) = _
  rw [dot_at dot_S4096x16_S16x9_S4096x9_1_0_0_1_n_n rfl, hBm]
  unfold Spec.act Spec.actRow
  refine congrArg (fun t => Ideal.tanh (t + x5 (ix2 m j))) (Finset.sum_congr rfl fun h _ => ?_)
  rw [hWm]
  refine congrArg (· * x4 (ix3 m h j)) ?_
  show Host.dotGeneral dot_S4096x4096_S4096x16_S4096x16_1_0_0_1_n_n none A _ (ix2 r h) + Bg (ix2 r h) = _
  rw [dot_at dot_S4096x4096_S4096x16_S4096x16_1_0_0_1_n_n rfl, hBg]
  refine congrArg (· + x3 (ix2 m h)) (Finset.sum_congr rfl fun n _ => ?_)
  rw [hA, dot_at dot_S4096x128_S128x16_S4096x16_1_0_0_1_n_n rfl]
  refine congrArg (x1 (ix3 m r n) * ·) (Finset.sum_congr rfl fun k _ => ?_)
  rw [hX, hWg]

/-! ### The operands of each modality are rows of the stacked arrays

A slice of one leading position followed by dropping the unit axis reads the stacked array at that position; a bias
row laid along the rows reads the stacked bias at that position and the column. -/

theorem x_0_at (n : Fin 4096) (k : Fin 128) : val_main_v3 (F := Ideal) x0 (ix2 n k) = x0 (ix3 0 n k) := by
  rw [val_main_v3_apply, val_main_v2_apply]
  have := n.isLt; have := k.isLt
  exact congrArg x0 (ix3_ext _ _ _ _ rfl (by show (n.val * 128 + k.val) / 128 % 4096 = n.val; omega)
    (by show (n.val * 128 + k.val) % 128 = k.val; omega))

theorem x_1_at (n : Fin 4096) (k : Fin 128) : val_main_v25 (F := Ideal) x0 (ix2 n k) = x0 (ix3 1 n k) := by
  rw [val_main_v25_apply, val_main_v24_apply]
  have := n.isLt; have := k.isLt
  exact congrArg x0 (ix3_ext _ _ _ _ rfl (by show (n.val * 128 + k.val) / 128 % 4096 = n.val; omega)
    (by show (n.val * 128 + k.val) % 128 = k.val; omega))

theorem x_2_at (n : Fin 4096) (k : Fin 128) : val_main_v47 (F := Ideal) x0 (ix2 n k) = x0 (ix3 2 n k) := by
  rw [val_main_v47_apply, val_main_v46_apply]
  have := n.isLt; have := k.isLt
  exact congrArg x0 (ix3_ext _ _ _ _ rfl (by show (n.val * 128 + k.val) / 128 % 4096 = n.val; omega)
    (by show (n.val * 128 + k.val) % 128 = k.val; omega))

theorem wg_0_at (k : Fin 128) (h : Fin 16) : val_main_v5 (F := Ideal) x2 (ix2 k h) = x2 (ix3 0 k h) := by
  rw [val_main_v5_apply, val_main_v4_apply]
  have := k.isLt; have := h.isLt
  exact congrArg x2 (ix3_ext _ _ _ _ rfl (by show (k.val * 16 + h.val) / 16 % 128 = k.val; omega)
    (by show (k.val * 16 + h.val) % 16 = h.val; omega))

theorem wg_1_at (k : Fin 128) (h : Fin 16) : val_main_v27 (F := Ideal) x2 (ix2 k h) = x2 (ix3 1 k h) := by
  rw [val_main_v27_apply, val_main_v26_apply]
  have := k.isLt; have := h.isLt
  exact congrArg x2 (ix3_ext _ _ _ _ rfl (by show (k.val * 16 + h.val) / 16 % 128 = k.val; omega)
    (by show (k.val * 16 + h.val) % 16 = h.val; omega))

theorem wg_2_at (k : Fin 128) (h : Fin 16) : val_main_v49 (F := Ideal) x2 (ix2 k h) = x2 (ix3 2 k h) := by
  rw [val_main_v49_apply, val_main_v48_apply]
  have := k.isLt; have := h.isLt
  exact congrArg x2 (ix3_ext _ _ _ _ rfl (by show (k.val * 16 + h.val) / 16 % 128 = k.val; omega)
    (by show (k.val * 16 + h.val) % 16 = h.val; omega))

theorem adj_0_at (r n : Fin 4096) : val_main_v8 (F := Ideal) x1 (ix2 r n) = x1 (ix3 0 r n) := by
  rw [val_main_v8_apply, val_main_v7_apply, masked_at]
  have := r.isLt; have := n.isLt
  exact congrArg x1 (ix3_ext _ _ _ _ rfl (by show (r.val * 4096 + n.val) / 4096 % 4096 = r.val; omega)
    (by show (r.val * 4096 + n.val) % 4096 = n.val; omega))

theorem adj_1_at (r n : Fin 4096) : val_main_v30 (F := Ideal) x1 (ix2 r n) = x1 (ix3 1 r n) := by
  rw [val_main_v30_apply, val_main_v29_apply, masked_at]
  have := r.isLt; have := n.isLt
  exact congrArg x1 (ix3_ext _ _ _ _ rfl (by show (r.val * 4096 + n.val) / 4096 % 4096 = r.val; omega)
    (by show (r.val * 4096 + n.val) % 4096 = n.val; omega))

theorem adj_2_at (r n : Fin 4096) : val_main_v52 (F := Ideal) x1 (ix2 r n) = x1 (ix3 2 r n) := by
  rw [val_main_v52_apply, val_main_v51_apply, masked_at]
  have := r.isLt; have := n.isLt
  exact congrArg x1 (ix3_ext _ _ _ _ rfl (by show (r.val * 4096 + n.val) / 4096 % 4096 = r.val; omega)
    (by show (r.val * 4096 + n.val) % 4096 = n.val; omega))

theorem bg_0_at (r : Fin 4096) (h : Fin 16) : val_main_v13 (F := Ideal) x3 (ix2 r h) = x3 (ix2 0 h) := by
  rw [val_main_v13_apply, val_main_v12_apply, val_main_v11_apply, val_main_v10_apply]
  have := h.isLt
  exact congrArg x3 (ix2_ext _ _ _ rfl (by show h.val % 16 = h.val; omega))

theorem bg_1_at (r : Fin 4096) (h : Fin 16) : val_main_v35 (F := Ideal) x3 (ix2 r h) = x3 (ix2 1 h) := by
  rw [val_main_v35_apply, val_main_v34_apply, val_main_v33_apply, val_main_v32_apply]
  have := h.isLt
  exact congrArg x3 (ix2_ext _ _ _ rfl (by show h.val % 16 = h.val; omega))

theorem bg_2_at (r : Fin 4096) (h : Fin 16) : val_main_v57 (F := Ideal) x3 (ix2 r h) = x3 (ix2 2 h) := by
  rw [val_main_v57_apply, val_main_v56_apply, val_main_v55_apply, val_main_v54_apply]
  have := h.isLt
  exact congrArg x3 (ix2_ext _ _ _ rfl (by show h.val % 16 = h.val; omega))

theorem wm_0_at (h : Fin 16) (j : Fin 9) : val_main_v16 (F := Ideal) x4 (ix2 h j) = x4 (ix3 0 h j) := by
  rw [val_main_v16_apply, val_main_v15_apply]
  have := h.isLt; have := j.isLt
  exact congrArg x4 (ix3_ext _ _ _ _ rfl (by show (h.val * 9 + j.val) / 9 % 16 = h.val; omega)
    (by show (h.val * 9 + j.val) % 9 = j.val; omega))

theorem wm_1_at (h : Fin 16) (j : Fin 9) : val_main_v38 (F := Ideal) x4 (ix2 h j) = x4 (ix3 1 h j) := by
  rw [val_main_v38_apply, val_main_v37_apply]
  have := h.isLt; have := j.isLt
  exact congrArg x4 (ix3_ext _ _ _ _ rfl (by show (h.val * 9 + j.val) / 9 % 16 = h.val; omega)
    (by show (h.val * 9 + j.val) % 9 = j.val; omega))

theorem wm_2_at (h : Fin 16) (j : Fin 9) : val_main_v60 (F := Ideal) x4 (ix2 h j) = x4 (ix3 2 h j) := by
  rw [val_main_v60_apply, val_main_v59_apply]
  have := h.isLt; have := j.isLt
  exact congrArg x4 (ix3_ext _ _ _ _ rfl (by show (h.val * 9 + j.val) / 9 % 16 = h.val; omega)
    (by show (h.val * 9 + j.val) % 9 = j.val; omega))

theorem bm_0_at (r : Fin 4096) (j : Fin 9) : val_main_v21 (F := Ideal) x5 (ix2 r j) = x5 (ix2 0 j) := by
  rw [val_main_v21_apply, val_main_v20_apply, val_main_v19_apply, val_main_v18_apply]
  have := j.isLt
  exact congrArg x5 (ix2_ext _ _ _ rfl (by show j.val % 9 = j.val; omega))

theorem bm_1_at (r : Fin 4096) (j : Fin 9) : val_main_v43 (F := Ideal) x5 (ix2 r j) = x5 (ix2 1 j) := by
  rw [val_main_v43_apply, val_main_v42_apply, val_main_v41_apply, val_main_v40_apply]
  have := j.isLt
  exact congrArg x5 (ix2_ext _ _ _ rfl (by show j.val % 9 = j.val; omega))

theorem bm_2_at (r : Fin 4096) (j : Fin 9) : val_main_v65 (F := Ideal) x5 (ix2 r j) = x5 (ix2 2 j) := by
  rw [val_main_v65_apply, val_main_v64_apply, val_main_v63_apply, val_main_v62_apply]
  have := j.isLt
  exact congrArg x5 (ix2_ext _ _ _ rfl (by show j.val % 9 = j.val; omega))

/-! ### The three activations -/

theorem act_0_at (r : Fin 4096) (j : Fin 9) :
    val_main_v23 (F := Ideal) x0 x1 x2 x3 x4 x5 (ix2 r j) = Spec.act x0 x1 x2 x3 x4 x5 0 r j :=
  act_of_stages x0 x1 x2 x3 x4 x5 0 _ _ _ _ _ _ (x_0_at x0) (wg_0_at x2) (adj_0_at x1) (bg_0_at x3) (wm_0_at x4) (bm_0_at x5) r j

theorem act_1_at (r : Fin 4096) (j : Fin 9) :
    val_main_v45 (F := Ideal) x0 x1 x2 x3 x4 x5 (ix2 r j) = Spec.act x0 x1 x2 x3 x4 x5 1 r j :=
  act_of_stages x0 x1 x2 x3 x4 x5 1 _ _ _ _ _ _ (x_1_at x0) (wg_1_at x2) (adj_1_at x1) (bg_1_at x3) (wm_1_at x4) (bm_1_at x5) r j

theorem act_2_at (r : Fin 4096) (j : Fin 9) :
    val_main_v67 (F := Ideal) x0 x1 x2 x3 x4 x5 (ix2 r j) = Spec.act x0 x1 x2 x3 x4 x5 2 r j :=
  act_of_stages x0 x1 x2 x3 x4 x5 2 _ _ _ _ _ _ (x_2_at x0) (wg_2_at x2) (adj_2_at x1) (bg_2_at x3) (wm_2_at x4) (bm_2_at x5) r j

/-! ### The three activation blocks side by side, and the classifier -/

/-- A sum over 27 positions is the sum of its three bands of 9. -/
theorem sum_bands {M : Type*} [AddCommMonoid M] (f : Fin 27 → M) :
    ∑ k : Fin 27, f k
      = ((∑ j : Fin 9, f (Spec.band 0 j)) + ∑ j : Fin 9, f (Spec.band 1 j)) + ∑ j : Fin 9, f (Spec.band 2 j) := by
  have e : ∀ (i : Fin 3) (j : Fin 9), (finProdFinEquiv (i, j) : Fin 27) = Spec.band i j := fun i j =>
    Fin.ext (by show j.val + 9 * i.val = 9 * i.val + j.val; omega)
  rw [← Equiv.sum_comp (finProdFinEquiv : Fin 3 × Fin 9 ≃ Fin 27) f, Fintype.sum_prod_type, Fin.sum_univ_three]
  simp only [e]

/-- Column `9 m + j` of the joined array is column `j` of modality `m`'s activation. -/
theorem cat_at (r : Fin 4096) (m : Fin 3) (j : Fin 9) :
    val_main_v68 (F := Ideal) x0 x1 x2 x3 x4 x5 (ix2 r (Spec.band m j)) = Spec.act x0 x1 x2 x3 x4 x5 m r j := by
  have hi : ∀ (c : Fin 27) (b : Fin S4096x9.rank), b.cast (rfl : S4096x9.rank = S4096x27.rank) ≠ (1 : Fin S4096x27.rank) →
      ((ix2 r j : S4096x9.Idx) b).val = ((ix2 r c : S4096x27.Idx) (b.cast rfl)).val := fun c b hb => by
    match b with
    | ⟨0, _⟩ => rfl
    | ⟨1, _⟩ => exact absurd rfl hb
  unfold val_main_v68
  match m with
  | ⟨0, _⟩ =>
    exact (concatenate_apply_piece 1 _ _ (ix2 r (Spec.band 0 j)) 0 (by show (0 : ℕ) < 3; omega)
      S4096x9 _ rfl rfl 0 rfl (ix2 r j) (hi _) (by show 0 + j.val = 9 * 0 + j.val; omega)).trans (act_0_at x0 x1 x2 x3 x4 x5 r j)
  | ⟨1, _⟩ =>
    exact (concatenate_apply_piece 1 _ _ (ix2 r (Spec.band 1 j)) 1 (by show (1 : ℕ) < 3; omega)
      S4096x9 _ rfl rfl 9 rfl (ix2 r j) (hi _) (by show 9 + j.val = 9 * 1 + j.val; omega)).trans (act_1_at x0 x1 x2 x3 x4 x5 r j)
  | ⟨2, _⟩ =>
    exact (concatenate_apply_piece 1 _ _ (ix2 r (Spec.band 2 j)) 2 (by show (2 : ℕ) < 3; omega)
      S4096x9 _ rfl rfl 18 rfl (ix2 r j) (hi _) (by show 18 + j.val = 9 * 2 + j.val; omega)).trans (act_2_at x0 x1 x2 x3 x4 x5 r j)

/-- The reference's result at row `r`, column `c`. -/
theorem ref_at (r : Fin 4096) (c : Fin 27) :
    val_main_v72 (F := Ideal) x0 x1 x2 x3 x4 x5 x6 x7 (ix2 r c) = Spec.G x0 x1 x2 x3 x4 x5 x6 x7 r c := by
  rw [val_main_v72_apply, val_main_v69_apply, val_main_v71_apply, val_main_v70_apply,
    show idx_main_v70 (idx_main_v71 (ix2 r c)) = ix1 c from funext fun a => by match a with | ⟨0, _⟩ => rfl]
  unfold Spec.G Spec.outRow
  show (∑ k : Fin 27, _) + x7 (ix1 c) = _
  rw [sum_bands]
  simp only [show ∀ k : Fin 27, lidx_main_v69 (ix2 r c) k = ix2 r k from fun k => ix2_ext _ _ _ rfl rfl,
    show ∀ k : Fin 27, ridx_main_v69 (ix2 r c) k = ix2 k c from fun k => ix2_ext _ _ _ rfl rfl, cat_at]
  rw [add_comm, ← add_assoc, ← add_assoc]

/-- The reference computes the specification. -/
theorem ref_eq : val_main_v72 (F := Ideal) x0 x1 x2 x3 x4 x5 x6 x7 = Spec.Garr x0 x1 x2 x3 x4 x5 x6 x7 := by
  funext i
  exact (congrArg (val_main_v72 (F := Ideal) x0 x1 x2 x3 x4 x5 x6 x7) (eq_ix2 i)).trans (ref_at x0 x1 x2 x3 x4 x5 x6 x7 (i 0) (i 1))

end Cert.RefSide

end
-- ==== Proof.lean ====
/-
  The certificate of the graph-convolution head: a fused kernel against its plain reference.

  Both programs compute, for each of 4096 rows r and 27 classes c,
      bcls[c] + ∑ over the three modalities i, ∑ j < 9, tanh ((adj_i[r,:] · (x_i · Wgc_i) + bgc_i) · Wmlp_i + bmlp_i)[j] · Wcls[9 i + j, c].
  The kernel walks the rows in sixteen tiles of 256; at the first tile it computes the three support matrices
  x_i · Wgc_i into a scratch it keeps, and for every tile it adds the three modalities' bands to the bias one after
  the other. The reference concatenates the three activations and multiplies once by the whole classifier matrix:
  the sum over 27 columns is the three bands' sums, and on the extended reals addition is commutative and
  associative, so the two results agree entry by entry without any finiteness of the inputs. Both mask NaN entries
  of the adjacency by a comparison of an entry with itself, which on the extended reals never holds.

  The frames: each kernel program runs to the end and leaves its arguments alone (the adjacency, read through three
  windows, is held in three parts for the run); the reference is a straight line of host operations.
-/
import proofs.«141574_g37280316129400_cont_sun_m_331_21_alg».proof.Defs
import proofs.«141574_g37280316129400_cont_sun_m_331_21_alg».proof.Proof.Gen.Kernel
import proofs.«141574_g37280316129400_cont_sun_m_331_21_alg».proof.Proof.Gen.KernelIdeal
import proofs.«141574_g37280316129400_cont_sun_m_331_21_alg».proof.Proof.Gen.ReferenceIdeal
import proofs.«141574_g37280316129400_cont_sun_m_331_21_alg».proof.Proof.Gen.Pre_finite_inputs
import proofs.«141574_g37280316129400_cont_sun_m_331_21_alg».proof.Proof.K.Launch
import proofs.«141574_g37280316129400_cont_sun_m_331_21_alg».proof.Proof.KI.Launch
import proofs.«141574_g37280316129400_cont_sun_m_331_21_alg».proof.Proof.KI.Value
import proofs.«141574_g37280316129400_cont_sun_m_331_21_alg».proof.Proof.RefSide
import Idealize.ShloMosaic.Adequacy
import Idealize.ShloMosaic.Init

noncomputable section

namespace Cert.Proof

open Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The word-level kernel runs and keeps its arguments. -/
theorem frame_k : Cert.frame_Kernel := fun m ρ _ => Cert.Kernel.Hand.frame (F := Bits) m ρ

/-- The idealized kernel runs and keeps its arguments. -/
theorem frame_ki : Cert.frame_KernelIdeal := fun m ρ _ => Cert.KernelIdeal.Hand.frame (F := Ideal) m ρ

/-- The reference is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- On the extended reals the kernel's result array and the reference's are the same function of arguments that agree. -/
theorem algebraic : Cert.algebraic_KernelIdeal_ReferenceIdeal := by
  intro m ρ m' ρ' _ hagree
  refine ⟨fun c => Cert.Spec.Garr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c => ⟨((h c).1).trans (Cert.KernelIdeal.Hand.final_out m c), (h c).2⟩)
      (Cert.KernelIdeal.Hand.run_out (F := Ideal) m ρ)
  · refine (θ_run Cert.ReferenceIdeal.defs _ _).mono (fun r h c => ⟨?_, (h c).2⟩) (Cert.ReferenceIdeal.Value.run (F := Ideal) m' ρ')
    rw [(h c).1, Cert.ReferenceIdeal.Read.val_main_v72_eq, Cert.RefSide.ref_eq, (hagree c).1, (hagree c).2.1, (hagree c).2.2.1,
      (hagree c).2.2.2.1, (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
